-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x12 : Shape := ⟨2, ![1024, 12]⟩
abbrev S76x256 : Shape := ⟨2, ![76, 256]⟩
abbrev S256 : Shape := ⟨1, ![256]⟩
abbrev S100000x256 : Shape := ⟨2, ![100000, 256]⟩
abbrev S100000x1 : Shape := ⟨2, ![100000, 1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x12 : S_.BroadcastsInDim S1024x12 (![] : Fin 0 → Fin S1024x12.rank)
  reducesTo_S1024x12_S_d0_1 : S1024x12.ReducesTo [0, 1] S_
  bcast_S_S76x256 : S_.BroadcastsInDim S76x256 (![] : Fin 0 → Fin S76x256.rank)
  reducesTo_S76x256_S_d0_1 : S76x256.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part2 {F : FTy → Type} [FloatOps F] (main_arg7 : FVec F S100000x1 .f32) (main_v33 : IVec S_ 1) : IVec S_ 1 :=
  let main_v34 : FVec F S100000x1 .f32 := Host.absf main_arg7
  let main_cst_12 : FVec F S_ .f32 := constant S_ .f32 0x7F800000#32
  let main_v35 : FVec F S100000x1 .f32 := broadcastInDim S100000x1 ![] bcast_S_S100000x1 main_cst_12
  let main_v36 : IVec S100000x1 1 := cmpf .olt main_v34 main_v35
  let main_c_13 : IVec S_ 1 := constantI S_ 1 1#1
  let main_v37 : IVec S_ 1 := (fun x v => Host.reduce IntOp.andi x v reducesTo_S100000x1_S_d0_1 h_S_) main_v36 main_c_13
  let main_v38 : IVec S_ 1 := andi main_v33 main_v37
  main_v38

def fn_part1 {F : FTy → Type} [FloatOps F] (main_arg4 : FVec F S256 .f32) (main_arg5 : FVec F S256 .f32) (main_arg6 : FVec F S100000x256 .f32) (main_arg7 : FVec F S100000x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S100000x256 .f32 := Host.absf main_arg6
  let main_cst_10 : FVec F S_ .f32 := constant S_ .f32 0x7F800000#32
  let main_v30 : FVec F S100000x256 .f32 := broadcastInDim S100000x256 ![] bcast_S_S100000x256 main_cst_10
  let main_v31 : IVec S100000x256 1 := cmpf .olt main_v29 main_v30
  let main_c_11 : IVec S_ 1 := constantI S_ 1 1#1
  let main_v32 : IVec S_ 1 := (fun x v => Host.reduce IntOp.andi x v reducesTo_S100000x256_S_d0_1 h_S_) main_v31 main_c_11
  let main_v33 : IVec S_ 1 := andi main_v28 main_v32
  fn_part2 (F := F) main_arg7 main_v33

def fn {F : FTy → Type} [FloatOps F] (main_arg0 : FVec F S1024x64 .f32) (main_arg1 : FVec F S1024x12 .f32) (main_arg2 : FVec F S76x256 .f32) (main_arg3 : FVec F S256 .f32) (main_arg4 : FVec F S256 .f32) (main_arg5 : FVec F S256 .f32) (main_arg6 : FVec F S100000x256 .f32) (main_arg7 : FVec F S100000x1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x12 .f32 := Host.absf main_arg1
  let main_cst_0 : FVec F S_ .f32 := constant S_ .f32 0x7F800000#32
  let main_v5 : FVec F S1024x12 .f32 := broadcastInDim S1024x12 ![] bcast_S_S1024x12 main_cst_0
  let main_v6 : IVec S1024x12 1 := cmpf .olt main_v4 main_v5
  let main_c_1 : IVec S_ 1 := constantI S_ 1 1#1
  let main_v7 : IVec S_ 1 := (fun x v => Host.reduce IntOp.andi x v reducesTo_S1024x12_S_d0_1 h_S_) main_v6 main_c_1
  let main_v8 : IVec S_ 1 := andi main_v3 main_v7
  let main_v9 : FVec F S76x256 .f32 := Host.absf main_arg2
  let main_cst_2 : FVec F S_ .f32 := constant S_ .f32 0x7F800000#32
  let main_v10 : FVec F S76x256 .f32 := broadcastInDim S76x256 ![] bcast_S_S76x256 main_cst_2
  let main_v11 : IVec S76x256 1 := cmpf .olt main_v9 main_v10
  let main_c_3 : IVec S_ 1 := constantI S_ 1 1#1
  let main_v12 : IVec S_ 1 := (fun x v => Host.reduce IntOp.andi x v reducesTo_S76x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S1024x64 : Shape := ⟨2, ![1024, 64]⟩
abbrev S1024x12 : Shape := ⟨2, ![1024, 12]⟩
abbrev S76x256 : Shape := ⟨2, ![76, 256]⟩
abbrev S256 : Shape := ⟨1, ![256]⟩
abbrev S100000x256 : Shape := ⟨2, ![100000, 256]⟩
abbrev S100000x1 : Shape := ⟨2, ![100000, 1]⟩
abbrev S64x256 : Shape := ⟨2, ![64, 256]⟩
abbrev S12x256 : Shape := ⟨2, ![12, 256]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S_ : Shape := ⟨0, ![]⟩
abbrev S100000 : Shape := ⟨1, ![100000]⟩
abbrev S50x1x2000 : Shape := ⟨3, ![50, 1, 2000]⟩
abbrev S2x1024x1 : Shape := ⟨3, ![2, 1024, 1]⟩
abbrev S2000x256 : Shape := ⟨2, ![2000, 256]⟩
abbrev S1x1x2000 : Shape := ⟨3, ![1, 1, 2000]⟩
abbrev S1x1024x1 : Shape := ⟨3, ![1, 1024, 1]⟩
abbrev S1024x2000 : Shape := ⟨2, ![1024, 2000]⟩
abbrev S1x2000 : Shape := ⟨2, ![1, 2000]⟩

abbrev nBuf : Space → Nat
  | .hbm => 45
  | .vmem => 21
  | .smem => 0
  | _ => 0

abbrev bufTy : (tb : Table) → Fin (tcTables nBuf tb) → BufTy
  | .hbm, ⟨0, _⟩ => ⟨S1024x64, .f32⟩
  | .hbm, ⟨1, _⟩ => ⟨S1024x12, .f32⟩
  | .hbm, ⟨2, _⟩ => ⟨S76x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S100000x256, .f32⟩
  | .hbm, ⟨7, _⟩ => ⟨S100000x1, .f32⟩
  | .hbm, ⟨8, _⟩ => ⟨S64x256, .f32⟩
  | .hbm, ⟨9, _⟩ => ⟨S12x256, .f32⟩
  | .hbm, ⟨10, _⟩ => ⟨S1024x256, .bf16⟩
  | .hbm, ⟨11, _⟩ => ⟨S100000x256, .f32⟩
  | .hbm, ⟨12, _⟩ => ⟨S_, .f32⟩
  | .hbm, ⟨13, _⟩ => ⟨S100000, .f32⟩
  | .hbm, ⟨14, _⟩ => ⟨S50x1x2000, .f32⟩
  | .hbm, ⟨15, _⟩ => ⟨S100000x256, .bf16⟩
  | .hbm, ⟨16, _⟩ => ⟨S100000, .f32⟩
  | .hbm, ⟨17, _⟩ => ⟨S50x1x2000, .f32⟩
  | .hbm, ⟨18, _⟩ => ⟨S2x1024x1, .f32⟩
  | .hbm, ⟨19, _⟩ => ⟨S2x1024x1, .f32⟩
  | .hbm, ⟨20, _⟩ => ⟨S2x1024x1, .f32⟩
  | .hbm, ⟨21, _⟩ => ⟨S1x1024x1, .f32⟩
  | .hbm, ⟨22, _⟩ => ⟨S1024x1, .f32⟩
  | .hbm, ⟨23, _⟩ => ⟨S1x1024x1, .f32⟩
  | .hbm, ⟨24, _⟩ => ⟨S1024x1, .f32⟩
  | .hbm, ⟨25, _⟩ => ⟨S1x1024x1, .f32⟩
  | .hbm, ⟨26, _⟩ => ⟨S1024x1, .f32⟩
  | .hbm, ⟨27, _⟩ => ⟨S1x1024x1, .f32⟩
  | .hbm, ⟨28, _⟩ => ⟨S1024x1, .f32⟩
  | .hbm, ⟨29, _⟩ => ⟨S1x1024x1, .f32⟩
  | .hbm, ⟨30, _⟩ => ⟨S1024x1, .f32⟩
  | .hbm, ⟨31, _⟩ => ⟨S1x1024x1, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x1, .f32⟩
  | .hbm, ⟨43, _⟩ => ⟨S1024x1, .f32⟩
  | .hbm, ⟨44, _⟩ => ⟨S1024x1, .f32⟩
  | .local _ .vmem, ⟨0, _⟩ => ⟨S1024x64, .f32⟩
  | .local _ .vmem, ⟨1, _⟩ => ⟨S1024x12, .f32⟩
  | .local _ .vmem, ⟨2, _⟩ => ⟨S64x256, .f32⟩
  | .local _ .vmem, ⟨3, _⟩ => ⟨S12x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S1024x256, .bf16⟩
  | .local _ .vmem, ⟨8, _⟩ => ⟨S1024x256, .bf16⟩
  | .local _ .vmem, ⟨9, _⟩ => ⟨S2000x256, .bf16⟩
  | .local _ .vmem, ⟨10, _⟩ => ⟨S2000x256, .bf16⟩
  | .local _ .vmem, ⟨11, _⟩ => ⟨S1x1x2000, .f32⟩
  | .local _ .vmem, ⟨12, _⟩ => ⟨S1x1x2000, .f32⟩
  | .local _ .vmem, ⟨13, _⟩ => ⟨S1x1x2000, .f32⟩
  | .local _ .vmem, ⟨14, _⟩ => ⟨S1x1x2000, .f32⟩
  | .local _ .vmem, ⟨15, _⟩ => ⟨S1x1024x1, .f32⟩
  | .local _ .vmem, ⟨16, _⟩ => ⟨S1x1024x1, .f32⟩
  | .local _ .vmem, ⟨17, _⟩ => ⟨S1x1024x1, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S76x256_S64x256_0_0 : S76x256.Slices ![0, 0] S64x256
  slices_S76x256_S12x256_64_0 : S76x256.Slices ![64, 0] S12x256
  inb_S1024x64_S1024x64_0_0 : ∀ a, (![0, 0] : Fin 2 → Nat) a + S1024x64.size a ≤ S1024x64.size a
  h_S1024x64 : 0 < S1024x64.numel
  inb_S1024x12_S1024x12_0_0 : ∀ a, (![0, 0] : Fin 2 → Nat) a + S1024x12.size a ≤ S1024x12.size a
  h_S1024x12 : 0 < S1024x12.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S12x256_S12x256_0_0 : ∀ a, (![0, 0] : Fin 2 → Nat) a + S12x256.size a ≤ S12x256.size a
  h_S12x256 : 0 < S12x256.numel
  shapeCasts_S12x256_S12x256 : S12x256.ShapeCasts S12x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  reducesTo_S100000x256_S100000_d1 : S100000x256.ReducesTo [1] S100000
  h_S_ : 0 < S_.numel
  shapeCasts_S100000_S50x1x2000 : S100000.ShapeCasts S50x1x2000
  shapeCasts_S100000x1_S100000 : S100000x1.ShapeCasts S100000
  inb_S1x1024x1_S1x1024x1_0_0_0 : ∀ a, (![0, 0, 0] : Fin 3 → Nat) a + S1x1024x1.size a ≤ S1x1024x1.size a
  h_S1x1024x1 : 0 < S1x1024x1.numel
  shapeCasts_S1024x256_S1024x256 : S1024x256.ShapeCasts S1024x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  broadcasts_S1x2000_S1024x2000 : S1x2000.Broadcasts S1024x2000
  shapeCasts_S1x1024x1_S1024x1 : S1x1024x1.ShapeCasts S1024x1
  reduces_S1024x2000_S1024 : S1024x2000.Reduces [1] S1024
  broadcasts_S1024x1_S1024x2000 : S1024x1.Broadcasts S1024x2000
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  dot_S1024x64_S64x256_S1024x256_1_0_0_1_n_n_wf : DotDims.WF S1024x64 S64x256 S1024x256 [1] [0] [0] [1] [] []
  dot_S1024x12_S12x256_S1024x256_1_0_0_1_n_n_wf : DotDims.WF S1024x12 S12x256 S1024x256 [1] [0] [0] [1] [] []
  dot_S1024x256_S2000x256_S1024x2000_1_1_0_0_n_n_wf : DotDims.WF S1024x256 S2000x256 S1024x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x12.size a ≤ S1024x12.size a
  hwx0_1 : ∀ i : grid0.Coords, EltTy.bits .f32 = 32 ∨ (Rect.block (s := S1024x12) S1024x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x256.size a ≤ S12x256.size a
  hwx0_3 : ∀ i : grid0.Coords, EltTy.bits .f32 = 32 ∨ (Rect.block (s := S12x256) S12x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .bf16 = 32 ∨ (Rect.block (s := S1024x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .bf16 = 32 ∨ (Rect.block (s := S100000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2000.size a ≤ S50x1x2000.size a
  hwx1_2 : ∀ i : grid1.Coords, EltTy.bits .f32 = 32 ∨ (Rect.block (s := S50x1x2000) S1x1x2000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2000.size a ≤ S50x1x2000.size a
  hwx1_3 : ∀ i : grid1.Coords, EltTy.bits .f32 = 32 ∨ (Rect.block (s := S50x1x2000) S1x1x2000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S2x1024x1.size a
  hwx1_4 : ∀ i : grid1.Coords, EltTy.bits .f32 = 32 ∨ (Rect.block (s := S2x1024x1) S1x1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1.size a ≤ S2x1024x1.size a
  hwx1_5 : ∀ i : grid1.Coords, EltTy.bits .f32 = 32 ∨ (Rect.block (s := S2x1024x1) S1x1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1.size a ≤ S2x1024x1.size a
  hwx1_6 : ∀ i : grid1.Coords, EltTy.bits .f32 = 32 ∨ (Rect.block (s := S2x1024x1) S1x1024x1.size (cc1_transform_6 i) (hinb1_6 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x12_S12x256_S1024x256_1_0_0_1_n_n : DotDims S1024x12 S12x256 S1024x256 where
  lhsContracting := [1]
  rhsContracting := [0]
  lhsNonContracting := [0]
  rhsNonContracting := [1]
  lhsBatch := []
  rhsBatch := []
  wf := dot_S1024x12_S12x256_S1024x256_1_0_0_1_n_n_wf
def dot_S1024x256_S2000x256_S1024x2000_1_1_0_0_n_n : DotDims S1024x256 S2000x256 S1024x2000 where
  lhsContracting := [1]
  rhsContracting := [1]
  lhsNonContracting := [0]
  rhsNonContracting := [0]
  lhsBatch := []
  rhsBatch := []
  wf := dot_S1024x256_S2000x256_S1024x2000_1_1_0_0_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S12x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x2000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x2000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S1x1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S1x1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_2) S1x1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x64 : Shape := ⟨2, ![1024, 64]⟩
abbrev S1024x12 : Shape := ⟨2, ![1024, 12]⟩
abbrev S76x256 : Shape := ⟨2, ![76, 256]⟩
abbrev S256 : Shape := ⟨1, ![256]⟩
abbrev S100000x256 : Shape := ⟨2, ![100000, 256]⟩
abbrev S100000x1 : Shape := ⟨2, ![100000, 1]⟩
abbrev S1024x76 : Shape := ⟨2, ![1024, 76]⟩
abbrev S1024x256 : Shape := ⟨2, ![1024, 256]⟩
abbrev S1x256 : Shape := ⟨2, ![1, 256]⟩
abbrev S_ : Shape := ⟨0, ![]⟩
abbrev S1024 : Shape := ⟨1, ![1024]⟩
abbrev S1024x1 : Shape := ⟨2, ![1024, 1]⟩
abbrev S256x100000 : Shape := ⟨2, ![256, 100000]⟩
abbrev S1024x100000 : Shape := ⟨2, ![1024, 100000]⟩
abbrev S100000 : Shape := ⟨1, ![100000]⟩
abbrev S1x100000 : Shape := ⟨2, ![1, 100000]⟩

abbrev nBuf : Space → Nat
  | .hbm => 130
  | .vmem => 0
  | .smem => 0
  | _ => 0

abbrev hbmTy0_0 (i : Nat) : BufTy := match i % 128 with
  | 0 => ⟨S1024x64, .f32⟩
  | 1 => ⟨S1024x12, .f32⟩
  | 2 => ⟨S76x256, .f32⟩
  | 3 => ⟨S256, .f32⟩
  | 4 => ⟨S256, .f32⟩
  | 5 => ⟨S256, .f32⟩
  | 6 => ⟨S100000x256, .f32⟩
  | 7 => ⟨S100000x1, .f32⟩
  | 8 => ⟨S1024x76, .f32⟩
  | 9 => ⟨S1024x256, .f32⟩
  | 10 => ⟨S1x256, .f32⟩
  | 11 => ⟨S1024x256, .f32⟩
  | 12 => ⟨S1024x256, .f32⟩
  | 13 => ⟨S_, .f32⟩
  | 14 => ⟨S1024, .f32⟩
  | 15 => ⟨S1024x1, .f32⟩
  | 16 => ⟨S_, .f32⟩
  | 17 => ⟨S1024x1, .f32⟩
  | 18 => ⟨S1024x1, .f32⟩
  | 19 => ⟨S_, .i32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S1024x256, .f32⟩
  | 27 => ⟨S1024x256, .f32⟩
  | 28 => ⟨S1024x256, .f32⟩
  | 29 => ⟨S_, .f32⟩
  | 30 => ⟨S_, .f32⟩
  | 31 => ⟨S_, .f32⟩
  | 32 => ⟨S_, .f32⟩
  | 33 => ⟨S1024, .f32⟩
  | 34 => ⟨S1024x1, .f32⟩
  | 35 => ⟨S1024x1, .f32⟩
  | 36 => ⟨S1024x1, .f32⟩
  | 37 => ⟨S_, .f32⟩
  | 38 => ⟨S_, .i1⟩
  | 39 => ⟨S_, .f32⟩
  | 40 => ⟨S_, .f32⟩
  | 41 => ⟨S1024x1, .f32⟩
  | 42 => ⟨S1024x1, .f32⟩
  | 43 => ⟨S1024x256, .f32⟩
  | 44 => ⟨S1024x256, .f32⟩
  | 45 => ⟨S_, .f32⟩
  | 46 => ⟨S1024x1, .f32⟩
  | 47 => ⟨S1024x1, .f32⟩
  | 48 => ⟨S1024x1, .f32⟩
  | 49 => ⟨S1024x256, .f32⟩
  | 50 => ⟨S1024x256, .f32⟩
  | 51 => ⟨S1x256, .f32⟩
  | 52 => ⟨S1024x256, .f32⟩
  | 53 => ⟨S1024x256, .f32⟩
  | 54 => ⟨S1x256, .f32⟩
  | 55 => ⟨S1024x256, .f32⟩
  | 56 => ⟨S1024x256, .f32⟩
  | 57 => ⟨S1024x256, .f32⟩
  | 58 => ⟨S1024x256, .f32⟩
  | 59 => ⟨S_, .f32⟩
  | 60 => ⟨S1024, .f32⟩
  | 61 => ⟨S1024x1, .f32⟩
  | 62 => ⟨S256x100000, .f32⟩
  | 63 => ⟨S1024x100000, .f32⟩
  | 64 => ⟨S_, .f32⟩
  | 65 => ⟨S1024x100000, .f32⟩
  | 66 => ⟨S1024x100000, .f32⟩
  | 67 => ⟨S1024x100000, .f32⟩
  | 68 => ⟨S1024x100000, .f32⟩
  | 69 => ⟨S100000x256, .f32⟩
  | 70 => ⟨S_, .f32⟩
  | 71 => ⟨S100000, .f32⟩
  | 72 => ⟨S1x100000, .f32⟩
  | 73 => ⟨S1024x100000, .f32⟩
  | 74 => ⟨S1024x100000, .f32⟩
  | 75 => ⟨S1024x100000, .f32⟩
  | 76 => ⟨S_, .f32⟩
  | 77 => ⟨S1024x100000, .f32⟩
  | 78 => ⟨S1024x100000, .f32⟩
  | 79 => ⟨S_, .f32⟩
  | 80 => ⟨S1024, .f32⟩
  | 81 => ⟨S_, .f32⟩
  | 82 => ⟨S1024, .f32⟩
  | 83 => ⟨S1024, .f32⟩
  | 84 => ⟨S1024x1, .f32⟩
  | 85 => ⟨S1024x100000, .f32⟩
  | 86 => ⟨S1024x100000, .f32⟩
  | 87 => ⟨S1024x100000, .f32⟩
  | 88 => ⟨S_, .f32⟩
  | 89 => ⟨S1024, .f32⟩
  | 90 => ⟨S1024x1, .f32⟩
  | 91 => ⟨S1024x100000, .f32⟩
  | 92 => ⟨S1024x100000, .f32⟩
  | 93 => ⟨S1024x1, .f32⟩
  | 94 => ⟨S1024x256, .f32⟩
  | 95 => ⟨S_, .f32⟩
  | 96 => ⟨S1024, .f32⟩
  | 97 => ⟨S1024x1, .f32⟩
  | 98 => ⟨S256x100000, .f32⟩
  | 99 => ⟨S1024x100000, .f32⟩
  | 100 => ⟨S_, .f32⟩
  | 101 => ⟨S1024x100000, .f32⟩
  | 102 => ⟨S1024x100000, .f32⟩
  | 103 => ⟨S1024x100000, .f32⟩
  | 104 => ⟨S1024x100000, .f32⟩
  | 105 => ⟨S100000x256, .f32⟩
  | 106 => ⟨S_, .f32⟩
  | 107 => ⟨S100000, .f32⟩
  | 108 => ⟨S1x100000, .f32⟩
  | 109 => ⟨S1024x100000, .f32⟩
  | 110 => ⟨S1024x100000, .f32⟩
  | 111 => ⟨S1024x100000, .f32⟩
  | 112 => ⟨S_, .f32⟩
  | 113 => ⟨S1024x100000, .f32⟩
  | 114 => ⟨S1024x100000, .f32⟩
  | 115 => ⟨S_, .f32⟩
  | 116 => ⟨S1024, .f32⟩
  | 117 => ⟨S_, .f32⟩
  | 118 => ⟨S1024, .f32⟩
  | 119 => ⟨S1024, .f32⟩
  | 120 => ⟨S1024x1, .f32⟩
  | 121 => ⟨S1024x100000, .f32⟩
  | 122 => ⟨S1024x100000, .f32⟩
  | 123 => ⟨S1024x100000, .f32⟩
  | 124 => ⟨S_, .f32⟩
  | 125 => ⟨S1024, .f32⟩
  | 126 => ⟨S1024x1, .f32⟩
  | 127 => ⟨S1024x100000, .f32⟩
  | _ => ⟨S1024x64, .f32⟩

abbrev hbmTy0_1 (i : Nat) : BufTy := match i % 128 with
  | 0 => ⟨S1024x100000, .f32⟩
  | 1 => ⟨S1024x1, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_5 : Ref sig .tc := ⟨.hbm, 76, rfl⟩
abbrev main_v39 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_8 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_11 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_12 : Ref sig .tc := ⟨.hbm, 112, rfl⟩
abbrev main_v68 : Ref sig .tc := ⟨.hbm, 113, rfl⟩
abbrev main_v69 : Ref sig .tc := ⟨.hbm, 114, rfl⟩
abbrev main_cst_13 : Ref sig .tc := ⟨.hbm, 115, rfl⟩
abbrev main_v70 : Ref sig .tc := ⟨.hbm, 116, rfl⟩
abbrev main_cst_14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_15 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩

abbrev nD : Nat := 1
abbrev τ : Topo := Topo.v7x

variable {F : FTy → Type} [FloatOps F]

class Facts₀ : Prop where
  concatenates_S1024x64_S1024x12_S1024x76_d1 : Shape.Concatenates [S1024x64, S1024x12] S1024x76 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  transposes_S100000x256_S256x100000_1_0 : S100000x256.Transposes [1, 0] S256x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  reducesTo_S100000x256_S100000_d1 : S100000x256.ReducesTo [1] S100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  dot_S1024x76_S76x256_S1024x256_1_0_0_1_n_n_wf : DotDims.WF S1024x76 S76x256 S1024x256 [1] [0] [0] [1] [] []
  dot_S1024x256_S256x100000_S1024x100000_1_0_0_1_n_n_wf : DotDims.WF S1024x256 S256x100000 S1024x100000 [1] [0] [0] [1] [] []
  dot_S1024x100000_S100000x1_S1024x1_1_0_0_1_n_n_wf : DotDims.WF S1024x100000 S100000x1 S1024x1 [1] [0] [0] [1] [] []

variable [Facts₀]

def dot_S1024x76_S76x256_S1024x256_1_0_0_1_n_n : DotDims S1024x76 S76x256 S1024x256 where
  lhsContracting := [1]
  rhsContracting := [0]
  lhsNonContracting := [0]
  rhsNonContracting := [1]
  lhsBatch := []
  rhsBatch := []
  wf := dot_S1024x76_S76x256_S1024x256_1_0_0_1_n_n_wf
def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf
def dot_S1024x100000_S100000x1_S1024x1_1_0_0_1_n_n : DotDims S1024x100000 S100000x1 S1024x1 where
  lhsContracting := [1]
  rhsContracting := [0]
  lhsNonContracting := [0]
  rhsNonContracting := [1]
  lhsBatch := []
  rhsBatch := []
  wf := dot_S1024x100000_S100000x1_S1024x1_1_0_0_1_n_n_wf

class Facts : Prop extends Facts₀ where

variable [Facts]
-- ==== Proof.Spec.lean ====
/-
  The common value of the two programs, written once over the real numbers.

  A row of features is the affine image of the concatenated row [obs | act] under W, b; it is normalised
  by its own mean and (biased) variance, scaled and shifted by gamma and beta, and passed through tanh.
  Against a bank of keys K (one per memory slot j) with one scalar value v j each, the score of slot j is
  2 <phi, K j> - <K j, K j>, which differs from -|phi - K j|^2 by the row constant |phi|^2 only, and the result is the
  average of v under the weights exp(score): sum_j exp(s j) v j / sum_j exp(s j). A common shift of the scores
  leaves this quotient unchanged, which is why no maximum appears here.
-/
import Idealize.ShloMosaic.PureOps.Ideal
import Idealize.ShloMosaic.Lib.ValueIdx

noncomputable section

open scoped BigOperators

namespace Cert.Spec

open Idealize.ShloMosaic Idealize.ShloMosaic.ValueIdx

/-- The eight argument arrays as arrays of real numbers. -/
structure Inputs where
  obs : Fin 1024 → Fin 64 → ℝ
  act : Fin 1024 → Fin 12 → ℝ
  W : Fin 76 → Fin 256 → ℝ
  b : Fin 256 → ℝ
  gamma : Fin 256 → ℝ
  beta : Fin 256 → ℝ
  keys : Fin 100000 → Fin 256 → ℝ
  vals : Fin 100000 → ℝ

/-- The variance's regulariser: the real number the word both programs spell denotes. -/
def eps : ℝ := (Ideal.ofBits .f32 0x3727C5AC#32).toReal

variable (I : Inputs)

/-- Entry k of row r of the concatenation [obs | act]. -/
def cat (r : Fin 1024) (k : Fin 76) : ℝ :=
  if h : k.val < 64 then I.obs r ⟨k.val, h⟩ else I.act r ⟨k.val - 64, by have := k.isLt; omega⟩

/-- The affine layer: [obs | act] W + b. -/
def lin (r : Fin 1024) (d : Fin 256) : ℝ := (∑ k : Fin 76, cat I r k * I.W k d) + I.b d

/-- The mean of a row of the affine layer. -/
def mean (r : Fin 1024) : ℝ := (∑ d : Fin 256, lin I r d) / 256

/-- The biased variance of a row of the affine layer. -/
def var (r : Fin 1024) : ℝ := (∑ d : Fin 256, (lin I r d - mean I r) * (lin I r d - mean I r)) / 256

/-- The normalised row, scaled by gamma and shifted by beta. -/
def normed (r : Fin 1024) (d : Fin 256) : ℝ :=
  (lin I r d - mean I r) * (Real.sqrt (var I r + eps))⁻¹ * I.gamma d + I.beta d

/-- The features. -/
def phi (r : Fin 1024) (d : Fin 256) : ℝ := Real.tanh (normed I r d)

/-- The score of memory slot j for a row of features f. -/
def score (f : Fin 1024 → Fin 256 → ℝ) (r : Fin 1024) (j : Fin 100000) : ℝ :=
  2 * (∑ d : Fin 256, f r d * I.keys j d) - ∑ d : Fin 256, I.keys j d * I.keys j d

/-- The weighted average of the stored values under exp(score), for features f. -/
def avg (f : Fin 1024 → Fin 256 → ℝ) (r : Fin 1024) : ℝ :=
  (∑ j : Fin 100000, Real.exp (score I f r j) * I.vals j) / (∑ j : Fin 100000, Real.exp (score I f r j))

/-- The result at row r. -/
def Q (r : Fin 1024) : ℝ := avg I (phi I) r

/-- Eight arrays of extended reals ARE the real arrays I, entry by entry. -/
structure Agrees
    (a0 : (⟨2, ![1024, 64]⟩ : Shape).Idx → EReal) (a1 : (⟨2, ![1024, 12]⟩ : Shape).Idx → EReal)
    (a2 : (⟨2, ![76, 256]⟩ : Shape).Idx → EReal) (a3 a4 a5 : (⟨1, ![256]⟩ : Shape).Idx → EReal)
    (a6 : (⟨2, ![100000, 256]⟩ : Shape).Idx → EReal) (a7 : (⟨2, ![100000, 1]⟩ : Shape).Idx → EReal) : Prop where
  obs : ∀ (r : Fin 1024) (k : Fin 64), a0 (ix2 r k) = (I.obs r k : EReal)
  act : ∀ (r : Fin 1024) (k : Fin 12), a1 (ix2 r k) = (I.act r k : EReal)
  W : ∀ (k : Fin 76) (d : Fin 256), a2 (ix2 k d) = (I.W k d : EReal)
  b : ∀ d : Fin 256, a3 (ix1 d) = (I.b d : EReal)
  gamma : ∀ d : Fin 256, a4 (ix1 d) = (I.gamma d : EReal)
  beta : ∀ d : Fin 256, a5 (ix1 d) = (I.beta d : EReal)
  keys : ∀ (j : Fin 100000) (d : Fin 256), a6 (ix2 j d) = (I.keys j d : EReal)
  vals : ∀ j : Fin 100000, a7 (ix2 j (0 : Fin 1)) = (I.vals j : EReal)

end Cert.Spec

end
-- ==== Proof.Consts.lean ====
/-
  The float words the two programs spell, as the extended reals they denote. Stated once, here, so that no other
  module opens the definition of a word's value.
-/
import proofs.«407580_j16338055594570_3_alg».proof.Proof.Spec

noncomputable section

namespace Cert.Consts

open Idealize.ShloMosaic

/-- The word of 256.0 denotes the real 256 (the width of a feature row). -/
theorem ofBits_256 : Ideal.ofBits .f32 0x43800000#32 = ((256 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of 1.0 denotes the real 1. -/
theorem ofBits_one : Ideal.ofBits .f32 0x3F800000#32 = ((1 : ℝ) : EReal) := by
  simp [Ideal.ofBits, Ideal.ieee, -EReal.coe_mul]; norm_num

/-- The word of -inf denotes the bottom of the extended reals. -/
theorem ofBits_neg_inf : Ideal.ofBits .f32 0xFF800000#32 = ⊥ := by
  simp [Ideal.ofBits, Ideal.ieee]

/-- The regulariser's word denotes a real number: a positive dyadic. -/
theorem ofBits_eps_eq : Ideal.ofBits .f32 0x3727C5AC#32 = (((10995116 : ℝ) * (2 : ℝ) ^ (-40 : ℤ) : ℝ) : EReal) := by
  simp [Ideal.ofBits, Ideal.ieee, -EReal.coe_mul]

theorem ofBits_eps : Ideal.ofBits .f32 0x3727C5AC#32 = ((Cert.Spec.eps : ℝ) : EReal) := by
  unfold Cert.Spec.eps
  rw [ofBits_eps_eq, EReal.toReal_coe]

theorem eps_pos : 0 < Cert.Spec.eps := by
  unfold Cert.Spec.eps
  rw [ofBits_eps_eq, EReal.toReal_coe]
  positivity

end Cert.Consts

end
-- ==== Proof.LibEReal.lean ====
/-
  Extended reals that are real: sums, quotients, the reciprocal square root and the exponential of real numbers,
  read back as real numbers; and the few facts about the bottom element an online maximum starts from.
-/
import Idealize.ShloMosaic.PureOps.Ideal

noncomputable section

open scoped BigOperators

namespace Cert.LibEReal

open Idealize.ShloMosaic

/-- A finite sum of real numbers, read in the extended reals, is the sum of the readings. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals with a nonzero divisor is the real quotient. -/
theorem div_coe_coe (x y : ℝ) (hy : y ≠ 0) : Ideal.div (x : EReal) (y : EReal) = ((x / y : ℝ) : EReal) := by
  rw [Ideal.div_coe hy, ← EReal.coe_mul, mul_one_div]

/-- The reciprocal square root of a positive real is real. -/
theorem rsqrt_coe_pos (x : ℝ) (hx : 0 < x) : Ideal.rsqrt (x : EReal) = (((Real.sqrt x)⁻¹ : ℝ) : EReal) := by
  rw [Ideal.rsqrt_coe, if_neg (not_lt.mpr hx.le), if_neg hx.ne']

/-- Bottom minus a real is bottom. -/
theorem bot_sub_coe (x : ℝ) : (⊥ : EReal) - (x : EReal) = ⊥ := by
  rw [sub_eq_add_neg]; exact EReal.bot_add _

/-- The maximum of bottom and a real is that real. -/
theorem max_bot_coe (x : ℝ) : max (⊥ : EReal) (x : EReal) = (x : EReal) := max_eq_right bot_le

/-- The maximum of two reals is real. -/
theorem max_coe_coe (x y : ℝ) : max (x : EReal) (y : EReal) = ((max x y : ℝ) : EReal) :=
  (EReal.coe_strictMono.monotone.map_max).symm

end Cert.LibEReal

end
-- ==== Proof.LibSoftmax.lean ====
/-
  Weighted averages under exponential weights, over the real numbers.

  The average sum_j exp(s j) v j / sum_j exp(s j) does not change when every score is shifted by one constant. Computed
  tile by tile with a moving shift, the partial sums relative to the current shift obey a one-line recurrence: moving
  the shift from M to M' multiplies a partial sum by exp(M - M'). Two halves computed under different shifts are brought
  to a common shift the same way, and 50 tiles of 2000 slots tile the 100000 slots.
-/
import Mathlib.Analysis.SpecialFunctions.Exp
import Mathlib.Algebra.BigOperators.Intervals
import Mathlib.Algebra.BigOperators.Fin

noncomputable section

open scoped BigOperators

namespace Cert.LibSoftmax

/-- Slot i of tile T among the 100000 slots (tiles of 2000 consecutive slots; total on the naturals, exact below 50 tiles). -/
def slot (T : ℕ) (i : Fin 2000) : Fin 100000 := ⟨(2000 * T + i.val) % 100000, Nat.mod_lt _ (by norm_num)⟩

theorem slot_val (T : ℕ) (hT : T < 50) (i : Fin 2000) : (slot T i).val = 2000 * T + i.val := by
  have hi := i.isLt
  show (2000 * T + i.val) % 100000 = 2000 * T + i.val
  exact Nat.mod_eq_of_lt (by omega)

/-- The sum over tiles a ≤ T < b of exp(s - M) w. -/
def part (s w : Fin 100000 → ℝ) (a b : ℕ) (M : ℝ) : ℝ :=
  ∑ T ∈ Finset.Ico a b, ∑ i : Fin 2000, Real.exp (s (slot T i) - M) * w (slot T i)

/-- One tile alone. -/
theorem part_first (s w : Fin 100000 → ℝ) (a : ℕ) (M' : ℝ) :
    (∑ i : Fin 2000, Real.exp (s (slot a i) - M') * w (slot a i)) = part s w a (a + 1) M' := by
  unfold part
  rw [Finset.sum_Ico_succ_top (le_refl a), Finset.Ico_self, Finset.sum_empty, zero_add]

/-- Moving the shift from M to M' rescales a partial sum by exp(M - M'). -/
theorem part_rescale (s w : Fin 100000 → ℝ) (a b : ℕ) (M M' : ℝ) :
    Real.exp (M - M') * part s w a b M = part s w a b M' := by
  unfold part
  rw [Finset.mul_sum]
  refine Finset.sum_congr rfl fun T _ => ?_
  rw [Finset.mul_sum]
  refine Finset.sum_congr rfl fun i _ => ?_
  have h : M - M' + (s (slot T i) - M) = s (slot T i) - M' := by ring
  rw [← mul_assoc, ← Real.exp_add, h]

/-- The recurrence: rescale to the new shift and add the next tile. -/
theorem part_step (s w : Fin 100000 → ℝ) (a b : ℕ) (hab : a ≤ b) (M M' : ℝ) :
    Real.exp (M - M') * part s w a b M + (∑ i : Fin 2000, Real.exp (s (slot b i) - M') * w (slot b i))
      = part s w a (b + 1) M' := by
  rw [part_rescale]
  unfold part
  rw [Finset.sum_Ico_succ_top hab]

/-- The two halves, at one shift, are all the slots. -/
theorem part_merge (s w : Fin 100000 → ℝ) (M : ℝ) :
    part s w 0 25 M + part s w 25 50 M = ∑ j : Fin 100000, Real.exp (s j - M) * w j := by
  unfold part
  rw [Finset.sum_Ico_consecutive _ (by norm_num : 0 ≤ 25) (by norm_num : 25 ≤ 50)]
  rw [← Finset.sum_product' (Finset.Ico 0 50) (Finset.univ : Finset (Fin 2000))
    (fun T i => Real.exp (s (slot T i) - M) * w (slot T i))]
  refine Finset.sum_nbij' (fun p => slot p.1 p.2)
    (fun j => (j.val / 2000, (⟨j.val % 2000, Nat.mod_lt _ (by norm_num)⟩ : Fin 2000))) ?_ ?_ ?_ ?_ ?_
  · intro p _
    exact Finset.mem_univ _
  · intro j _
    have hj := j.isLt
    simp only [Finset.mem_product, Finset.mem_Ico, Finset.mem_univ, and_true]
    omega
  · rintro ⟨T, i⟩ hp
    simp only [Finset.mem_product, Finset.mem_Ico, Finset.mem_univ, and_true] at hp
    have hi := i.isLt
    have hv := slot_val T hp.2 i
    refine Prod.ext ?_ (Fin.ext ?_)
    · show (slot T i).val / 2000 = T
      omega
    · show (slot T i).val % 2000 = i.val
      omega
  · intro j _
    have hj := j.isLt
    refine Fin.ext ?_
    have hv := slot_val (j.val / 2000) (by omega) (⟨j.val % 2000, Nat.mod_lt _ (by norm_num)⟩ : Fin 2000)
    show (slot (j.val / 2000) ⟨j.val % 2000, _⟩).val = j.val
    rw [hv]
    show 2000 * (j.val / 2000) + j.val % 2000 = j.val
    omega
  · intro p _
    rfl

theorem sum_exp_pos {ι : Type*} [Fintype ι] [Nonempty ι] (s : ι → ℝ) : 0 < ∑ j, Real.exp (s j) :=
  Finset.sum_pos (fun j _ => Real.exp_pos _) Finset.univ_nonempty

/-- A common shift of the scores leaves the weighted average unchanged. -/
theorem avg_shift {ι : Type*} [Fintype ι] [Nonempty ι] (s v : ι → ℝ) (M : ℝ) :
    (∑ j, Real.exp (s j - M) * v j) / (∑ j, Real.exp (s j - M)) = (∑ j, Real.exp (s j) * v j) / (∑ j, Real.exp (s j)) := by
  have h1 : ∀ j, Real.exp (s j - M) = Real.exp (-M) * Real.exp (s j) := by
    intro j
    rw [← Real.exp_add]
    congr 1
    ring
  have h2 : (∑ j, Real.exp (s j - M) * v j) = Real.exp (-M) * ∑ j, Real.exp (s j) * v j := by
    rw [Finset.mul_sum]
    refine Finset.sum_congr rfl fun j _ => ?_
    rw [h1 j, mul_assoc]
  have h3 : (∑ j, Real.exp (s j - M)) = Real.exp (-M) * ∑ j, Real.exp (s j) := by
    rw [Finset.mul_sum]
    exact Finset.sum_congr rfl fun j _ => h1 j
  rw [h2, h3]
  exact mul_div_mul_left _ _ (Real.exp_pos _).ne'

/-- Two halves under their own shifts M0, M1, merged at the larger shift, give the weighted average over all slots. -/
theorem merged_avg (s v : Fin 100000 → ℝ) (M0 M1 : ℝ) :
    (Real.exp (M0 - max M0 M1) * part s v 0 25 M0 + Real.exp (M1 - max M0 M1) * part s v 25 50 M1)
      / (Real.exp (M0 - max M0 M1) * part s (fun _ => 1) 0 25 M0 + Real.exp (M1 - max M0 M1) * part s (fun _ => 1) 25 50 M1)
      = (∑ j, Real.exp (s j) * v j) / (∑ j, Real.exp (s j)) := by
  rw [part_rescale, part_rescale, part_rescale, part_rescale, part_merge, part_merge]
  simp only [mul_one]
  exact avg_shift s v _

end Cert.LibSoftmax

end
-- ==== Proof.TrunkKernel.lean ====
/-
  The first kernel's result array, for real inputs: twice the features.

  Its one grid point loads the whole arrays; the block it stores is 2 tanh(normed row). The affine layer arrives as two
  products, obs with the top 64 rows of W and act with the bottom 12, whose sum is the product of the concatenated row
  with W. Mean and variance are lane sums divided by 256; the reciprocal square root of variance + eps is real because
  the variance is nonnegative and eps positive.

  Three parts. First, from blocks to the array: the grid is one point and every window's block is its whole array, so
  the result array after the region is the stored block, a function of the seven input arrays. Second, that function
  entry by entry on extended reals: a product at (r, d) is the sum over the inner positions, a lane sum at row r is the
  sum of the row's 256 entries, a row laid over 1024 rows reads its entry d and a column laid over 256 lanes reads its
  entry r. Third, when the inputs are real every stage is the real number the specification names.
-/
import proofs.«407580_j16338055594570_3_alg».proof.Proof.Gen.KernelIdeal.Frame
import proofs.«407580_j16338055594570_3_alg».proof.Proof.Spec
import proofs.«407580_j16338055594570_3_alg».proof.Proof.Consts
import proofs.«407580_j16338055594570_3_alg».proof.Proof.LibEReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Trunk

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## From the one block to the array -/

theorem hz2 : (![0, 0] : Fin 2 → Nat) = fun _ => 0 := funext fun a => by fin_cases a <;> rfl
theorem hz1 : (![0] : Fin 1 → Nat) = fun _ => 0 := funext fun a => by fin_cases a; rfl

/-- The block the one point stores, as a function of the seven arrays it loads. -/
def body (x0 : Vec Ideal S1024x64 .f32) (x1 : Vec Ideal S1024x12 .f32) (x2 : Vec Ideal S64x256 .f32) (x3 : Vec Ideal S12x256 .f32)
    (x4 x5 x6 : Vec Ideal S256 .f32) : Vec Ideal S1024x256 .bf16 :=
  k0_pay1 (k0_pay2 x0 x1 x2 x3 x4 x5 x6)

/-- The one store covers the staging buffer and every load reads a whole buffer, so the buffer ends holding the body
    of the loaded buffers. -/
theorem out_eq (x0 : Vec Ideal S1024x64 .f32) (x1 : Vec Ideal S1024x12 .f32) (x2 : Vec Ideal S64x256 .f32) (x3 : Vec Ideal S12x256 .f32)
    (x4 x5 x6 : Vec Ideal S256 .f32) : out0_7 x0 x1 x2 x3 x4 x5 x6 = body x0 x1 x2 x3 x4 x5 x6 := by
  unfold out0_7 body
  rw [View.canon_unit_zero hz2]
  simp only [View.ld_unit_zero (S := S1024x64) hz2, View.ld_unit_zero (S := S1024x12) hz2, View.ld_unit_zero (S := S64x256) hz2,
    View.ld_unit_zero (S := S12x256) hz2, View.ld_unit_zero (S := S256) hz1]

/-! The grid has one point and every window's block is its whole array: the block read off an array is the array. -/

theorem iblk_whole0 : (iblk0 V c 0 t0_0 : Vec Ideal S1024x64 .f32) = V c main_arg0 := by
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V c main_arg0)

theorem iblk_whole1 : (iblk0 V c 1 t0_0 : Vec Ideal S1024x12 .f32) = V c main_arg1 := by
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V c main_arg1)

theorem iblk_whole2 : (iblk0 V c 2 t0_0 : Vec Ideal S64x256 .f32) = V c main_v0 := by
  have hz' : (fun a => win0_2.index t0_0 a * main_v0.ty.shape.size a) = fun _ => 0 := funext fun a => by fin_cases a <;> decide
  exact Memref.read_access_unit_zero (Elt Ideal) main_v0 hz' (fun a => by rw [congrFun hz' a]; simp) (V c main_v0)

theorem iblk_whole3 : (iblk0 V c 3 t0_0 : Vec Ideal S12x256 .f32) = V c main_v1 := by
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V c main_v1)

theorem iblk_whole4 : (iblk0 V c 4 t0_0 : Vec Ideal S256 .f32) = V c main_arg3 := by
  have hz' : (fun a => win0_4.index t0_0 a * main_arg3.ty.shape.size a) = fun _ => 0 := funext fun a => by fin_cases a; decide
  exact Memref.read_access_unit_zero (Elt Ideal) main_arg3 hz' (fun a => by rw [congrFun hz' a]; simp) (V c main_arg3)

theorem iblk_whole5 : (iblk0 V c 5 t0_0 : Vec Ideal S256 .f32) = V c main_arg4 := by
  have hz' : (fun a => win0_5.index t0_0 a * main_arg4.ty.shape.size a) = fun _ => 0 := funext fun a => by fin_cases a; decide
  exact Memref.read_access_unit_zero (Elt Ideal) main_arg4 hz' (fun a => by rw [congrFun hz' a]; simp) (V c main_arg4)

theorem iblk_whole6 : (iblk0 V c 6 t0_0 : Vec Ideal S256 .f32) = V c main_arg5 := by
  have hz' : (fun a => win0_6.index t0_0 a * main_arg5.ty.shape.size a) = fun _ => 0 := funext fun a => by fin_cases a; decide
  exact Memref.read_access_unit_zero (Elt Ideal) main_arg5 hz' (fun a => by rw [congrFun hz' a]; simp) (V c main_arg5)

/-- What the result array holds after the region: the body of the seven input arrays as the region finds them. -/
abbrev result : Buf (Elt Ideal) ((c : Thread nD τ).loc main_v2) :=
  body (V c main_arg0) (V c main_arg1) (V c main_v0) (V c main_v1) (V c main_arg3) (V c main_arg4) (V c main_arg5)

/-- What the one point writes back is the one block, the whole, of that array. -/
theorem flushed_eq (t : Fin cfg0.N) (hf : (cfg0.win 7).flush t = true) :
    (dat0 V c).flushed 7 t = ((cfg0.win 7).blk t).view.read (Elt Ideal) (result V c) := by
  obtain rfl : t = t0_0 := fin_N0 t
  show (cfg0.win 7).cut (grid0.coords t0_0) ((dat0 V c).after 7 t0_0) = _
  rw [after0_7, iblk_whole0, iblk_whole1, iblk_whole2, iblk_whole3, iblk_whole4, iblk_whole5, iblk_whole6, out_eq]
  have hz' : (fun a => win0_7.index t0_0 a * main_v2.ty.shape.size a) = fun _ => 0 := funext fun a => by fin_cases a <;> decide
  exact (Memref.read_access_unit_zero (Elt Ideal) main_v2 hz' (fun a => by rw [congrFun hz' a]; simp) (result V c)).symm

/-- The one point's block covers every index of the result array. -/
theorem cover (i : S1024x256.Idx) : ∃ t : Fin cfg0.N, (cfg0.win 7).flush t = true ∧ i ∈ ((cfg0.win 7).blk t).view.set := by
  have h0 : (i 0 : Nat) < 1024 := (i 0).isLt
  have h1 : (i 1 : Nat) < 256 := (i 1).isLt
  refine ⟨t0_0, flush0_7 t0_0, ?_⟩
  show i ∈ ((View.whole main_v2).slice (win0_7.rect t0_0)).set
  rw [View.set_slice_whole, Rect.mem_set_unit]
  intro a
  match a with
  | ⟨0, _⟩ => show win0_7.index t0_0 0 * win0_7.size 0 ≤ (i 0 : Nat) ∧ (i 0 : Nat) < win0_7.index t0_0 0 * win0_7.size 0 + win0_7.xsize (grid0.coords t0_0) 0
              rw [show win0_7.index t0_0 0 * win0_7.size 0 = 0 from by decide +kernel, show win0_7.xsize (grid0.coords t0_0) 0 = 1024 from by decide +kernel]; omega
  | ⟨1, _⟩ => show win0_7.index t0_0 1 * win0_7.size 1 ≤ (i 1 : Nat) ∧ (i 1 : Nat) < win0_7.index t0_0 1 * win0_7.size 1 + win0_7.xsize (grid0.coords t0_0) 1
              rw [show win0_7.index t0_0 1 * win0_7.size 1 = 0 from by decide +kernel, show win0_7.xsize (grid0.coords t0_0) 1 = 256 from by decide +kernel]; omega

/-- The result array after the region is the body of the input arrays. -/
theorem final : (dat0 V c).arrAt 7 cfg0.N = result V c :=
  (dat0 V c).arrAt_eq_of_cover 7 (result V c) (flushed_eq V c) cover

/-! ## Layouts, lane sums and products at an index -/

section Layout
variable {α : Type}

/-- A vector of 256 laid out as one row and repeated over 1024 rows reads, at (r, d), entry d. -/
theorem rowBc_apply (x : (⟨1, ![256]⟩ : Shape).Idx → α) (h1 : S256.ShapeCasts S1x256) (h2 : S1x256.Broadcasts S1024x256)
    (r : Fin 1024) (d : Fin 256) : broadcastTo S1024x256 (shapeCast S1x256 x h1) h2 (ix2 r d) = x (ix1 d) :=
  (broadcastTo_1b_ab_apply _ h2 r d).trans (shapeCast_a_1a_apply x h1 (0 : Fin 1) d)

/-- A vector of 1024 laid out as one column reads, at (r, 0), entry r. -/
theorem col_apply (x : (⟨1, ![1024]⟩ : Shape).Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-- A column of 1024 repeated over 256 lanes reads, at (r, d), the column's entry r. -/
theorem colBc_apply (y : (⟨2, ![1024, 1]⟩ : Shape).Idx → α) (h : S1024x1.Broadcasts S1024x256) (r : Fin 1024) (d : Fin 256) :
    broadcastTo S1024x256 y h (ix2 r d) = y (ix2 r (0 : Fin 1)) := by
  refine broadcastTo_apply y h (ix2 r d) (ix2 r (0 : Fin 1)) fun ax => ?_
  match ax with
  | ⟨0, _⟩ => rfl
  | ⟨1, _⟩ => rfl

end Layout

/-- A lane sum of a 1024 x 256 array at row r is the sum of the row's 256 entries. -/
theorem rowSum_apply (v : FVec Ideal S1024x256 .f32) (h : S1024x256.Reduces [1] S1024) (hφ : FKind.Formats .f32)
    (hacc : (0x00000000#32 : BitVec 32) = 0x00000000#32) (r : Fin 1024) :
    multiReduction .add [1] S1024 v 0x00000000#32 h hφ hacc (ix1 r) = ∑ d : Fin 256, v (ix2 r d) :=
  (Ideal.multiReduction_add_single v 0x00000000#32 h hφ hacc (ix1 r)).trans
    (Finset.sum_congr rfl fun k _ => congrArg v (funext fun a => match a with | ⟨0, _⟩ => rfl | ⟨1, _⟩ => rfl))

/-! The 64-term product: operand indices at an output index and a contraction position, axis by axis. -/

theorem lhsA_0 (j : S1024x256.Idx) (k : dot_S1024x64_S64x256_S1024x256_1_0_0_1_n_n.contr.Idx) :
    (dot_S1024x64_S64x256_S1024x256_1_0_0_1_n_n.lhsIdx j k (0 : Fin 2)).val = (j 0).val := rfl
theorem lhsA_1 (j : S1024x256.Idx) (k : dot_S1024x64_S64x256_S1024x256_1_0_0_1_n_n.contr.Idx) :
    (dot_S1024x64_S64x256_S1024x256_1_0_0_1_n_n.lhsIdx j k (1 : Fin 2)).val = (k ⟨0, by decide⟩).val :=
  DotDims.lhsIdx_val_of_single _ rfl j k
theorem rhsA_0 (j : S1024x256.Idx) (k : dot_S1024x64_S64x256_S1024x256_1_0_0_1_n_n.contr.Idx) :
    (dot_S1024x64_S64x256_S1024x256_1_0_0_1_n_n.rhsIdx j k (0 : Fin 2)).val = (k ⟨0, by decide⟩).val :=
  DotDims.rhsIdx_val_of_single _ rfl j k
theorem rhsA_1 (j : S1024x256.Idx) (k : dot_S1024x64_S64x256_S1024x256_1_0_0_1_n_n.contr.Idx) :
    (dot_S1024x64_S64x256_S1024x256_1_0_0_1_n_n.rhsIdx j k (1 : Fin 2)).val = (j 1).val := rfl

/-- The product into a zero accumulator, at (r, d): the sum over the 64 inner positions of the operands' products. -/
theorem mmA_apply (a : FVec Ideal S1024x64 .bf16) (b : FVec Ideal S64x256 .bf16) (r : Fin 1024) (d : Fin 256) :
    matmul dot_S1024x64_S64x256_S1024x256_1_0_0_1_n_n none a b (constant (F := Ideal) S1024x256 .f32 0x00000000#32) (ix2 r d)
      = ∑ k : Fin 64, a (ix2 r k) * b (ix2 k d) := by
  refine (Ideal.matmul_constant_zero_apply dot_S1024x64_S64x256_S1024x256_1_0_0_1_n_n none a b (ix2 r d)).trans ?_
  rw [← Equiv.sum_comp (contrEquiv1 dot_S1024x64_S64x256_S1024x256_1_0_0_1_n_n 64 rfl rfl).symm]
  refine Finset.sum_congr rfl fun k _ => ?_
  have hk := contrEquiv1_symm_val dot_S1024x64_S64x256_S1024x256_1_0_0_1_n_n 64 rfl rfl k
  have e1 : dot_S1024x64_S64x256_S1024x256_1_0_0_1_n_n.lhsIdx (ix2 r d) ((contrEquiv1 dot_S1024x64_S64x256_S1024x256_1_0_0_1_n_n 64 rfl rfl).symm k) = ix2 r k :=
    funext fun ax => Fin.ext (match ax with
      | ⟨0, _⟩ => lhsA_0 _ _
      | ⟨1, _⟩ => (lhsA_1 _ _).trans hk)
  have e2 : dot_S1024x64_S64x256_S1024x256_1_0_0_1_n_n.rhsIdx (ix2 r d) ((contrEquiv1 dot_S1024x64_S64x256_S1024x256_1_0_0_1_n_n 64 rfl rfl).symm k) = ix2 k d :=
    funext fun ax => Fin.ext (match ax with
      | ⟨0, _⟩ => (rhsA_0 _ _).trans hk
      | ⟨1, _⟩ => rhsA_1 _ _)
  rw [e1, e2]

/-! The 12-term product: operand indices at an output index and a contraction position, axis by axis. -/

theorem lhsB_0 (j : S1024x256.Idx) (k : dot_S1024x12_S12x256_S1024x256_1_0_0_1_n_n.contr.Idx) :
    (dot_S1024x12_S12x256_S1024x256_1_0_0_1_n_n.lhsIdx j k (0 : Fin 2)).val = (j 0).val := rfl
theorem lhsB_1 (j : S1024x256.Idx) (k : dot_S1024x12_S12x256_S1024x256_1_0_0_1_n_n.contr.Idx) :
    (dot_S1024x12_S12x256_S1024x256_1_0_0_1_n_n.lhsIdx j k (1 : Fin 2)).val = (k ⟨0, by decide⟩).val :=
  DotDims.lhsIdx_val_of_single _ rfl j k
theorem rhsB_0 (j : S1024x256.Idx) (k : dot_S1024x12_S12x256_S1024x256_1_0_0_1_n_n.contr.Idx) :
    (dot_S1024x12_S12x256_S1024x256_1_0_0_1_n_n.rhsIdx j k (0 : Fin 2)).val = (k ⟨0, by decide⟩).val :=
  DotDims.rhsIdx_val_of_single _ rfl j k
theorem rhsB_1 (j : S1024x256.Idx) (k : dot_S1024x12_S12x256_S1024x256_1_0_0_1_n_n.contr.Idx) :
    (dot_S1024x12_S12x256_S1024x256_1_0_0_1_n_n.rhsIdx j k (1 : Fin 2)).val = (j 1).val := rfl

/-- The product into a zero accumulator, at (r, d): the sum over the 12 inner positions of the operands' products. -/
theorem mmB_apply (a : FVec Ideal S1024x12 .bf16) (b : FVec Ideal S12x256 .bf16) (r : Fin 1024) (d : Fin 256) :
    matmul dot_S1024x12_S12x256_S1024x256_1_0_0_1_n_n none a b (constant (F := Ideal) S1024x256 .f32 0x00000000#32) (ix2 r d)
      = ∑ k : Fin 12, a (ix2 r k) * b (ix2 k d) := by
  refine (Ideal.matmul_constant_zero_apply dot_S1024x12_S12x256_S1024x256_1_0_0_1_n_n none a b (ix2 r d)).trans ?_
  rw [← Equiv.sum_comp (contrEquiv1 dot_S1024x12_S12x256_S1024x256_1_0_0_1_n_n 12 rfl rfl).symm]
  refine Finset.sum_congr rfl fun k _ => ?_
  have hk := contrEquiv1_symm_val dot_S1024x12_S12x256_S1024x256_1_0_0_1_n_n 12 rfl rfl k
  have e1 : dot_S1024x12_S12x256_S1024x256_1_0_0_1_n_n.lhsIdx (ix2 r d) ((contrEquiv1 dot_S1024x12_S12x256_S1024x256_1_0_0_1_n_n 12 rfl rfl).symm k) = ix2 r k :=
    funext fun ax => Fin.ext (match ax with
      | ⟨0, _⟩ => lhsB_0 _ _
      | ⟨1, _⟩ => (lhsB_1 _ _).trans hk)
  have e2 : dot_S1024x12_S12x256_S1024x256_1_0_0_1_n_n.rhsIdx (ix2 r d) ((contrEquiv1 dot_S1024x12_S12x256_S1024x256_1_0_0_1_n_n 12 rfl rfl).symm k) = ix2 k d :=
    funext fun ax => Fin.ext (match ax with
      | ⟨0, _⟩ => (rhsB_0 _ _).trans hk
      | ⟨1, _⟩ => rhsB_1 _ _)
  rw [e1, e2]

/-! ## The body's stages as arrays -/

section Stages

variable (x0 : Vec Ideal S1024x64 .f32) (x1 : Vec Ideal S1024x12 .f32) (x2 : Vec Ideal S64x256 .f32) (x3 : Vec Ideal S12x256 .f32)
  (x4 x5 x6 : Vec Ideal S256 .f32)

/-- The affine layer: the two products, summed, plus the bias row. -/
def vLin : FVec Ideal S1024x256 .f32 :=
  addf (addf
      (matmul dot_S1024x64_S64x256_S1024x256_1_0_0_1_n_n none (truncf .bf16 x0 bitsLt_bf16_f32)
        (truncf .bf16 (shapeCast S64x256 x2 shapeCasts_S64x256_S64x256) bitsLt_bf16_f32) (constant S1024x256 .f32 0x00000000#32))
      (matmul dot_S1024x12_S12x256_S1024x256_1_0_0_1_n_n none (truncf .bf16 x1 bitsLt_bf16_f32)
        (truncf .bf16 (shapeCast S12x256 x3 shapeCasts_S12x256_S12x256) bitsLt_bf16_f32) (constant S1024x256 .f32 0x00000000#32)))
    (broadcastTo S1024x256 (shapeCast S1x256 x4 shapeCasts_S256_S1x256) broadcasts_S1x256_S1024x256)

/-- The column of row means of an array: lane sums over 256. -/
def vMean (v : FVec Ideal S1024x256 .f32) : FVec Ideal S1024x1 .f32 :=
  divf (shapeCast S1024x1 (multiReduction .add [1] S1024 v 0x00000000#32 reduces_S1024x256_S1024 (.inl rfl) rfl) shapeCasts_S1024_S1024x1)
    (broadcast S1024x1 (Scalar.ofBits .f32 0x43800000#32))

/-- An array less its row means. -/
def vDiff (v : FVec Ideal S1024x256 .f32) : FVec Ideal S1024x256 .f32 :=
  subf v (broadcastTo S1024x256 (vMean v) broadcasts_S1024x1_S1024x256)

/-- The column of reciprocal square roots of (row mean of squares + eps). -/
def vRs (w : FVec Ideal S1024x256 .f32) : FVec Ideal S1024x1 .f32 :=
  rsqrt (addf (vMean (mulf w w)) (broadcast S1024x1 (Scalar.ofBits .f32 0x3727C5AC#32)))

/-- The normalised, scaled and shifted array. -/
def vNormed : FVec Ideal S1024x256 .f32 :=
  addf (mulf (mulf (vDiff (vLin x0 x1 x2 x3 x4)) (broadcastTo S1024x256 (vRs (vDiff (vLin x0 x1 x2 x3 x4))) broadcasts_S1024x1_S1024x256))
      (broadcastTo S1024x256 (shapeCast S1x256 x5 shapeCasts_S256_S1x256) broadcasts_S1x256_S1024x256))
    (broadcastTo S1024x256 (shapeCast S1x256 x6 shapeCasts_S256_S1x256) broadcasts_S1x256_S1024x256)

theorem pay2_eq : k0_pay2 x0 x1 x2 x3 x4 x5 x6 = vNormed x0 x1 x2 x3 x4 x5 x6 := rfl

/-! ## The stages entry by entry, on extended reals -/

/-- The affine layer at (r, d). -/
def elin (r : Fin 1024) (d : Fin 256) : EReal :=
  (∑ k : Fin 64, x0 (ix2 r k) * x2 (ix2 k d)) + (∑ k : Fin 12, x1 (ix2 r k) * x3 (ix2 k d)) + x4 (ix1 d)

theorem vLin_apply (r : Fin 1024) (d : Fin 256) : vLin x0 x1 x2 x3 x4 (ix2 r d) = elin x0 x1 x2 x3 x4 r d := by
  unfold vLin elin
  rw [addf_apply, addf_apply, mmA_apply, mmB_apply, rowBc_apply, shapeCast_self, shapeCast_self]
  rfl

/-- The row mean of an array whose entries are f. -/
theorem vMean_apply (v : FVec Ideal S1024x256 .f32) (f : Fin 1024 → Fin 256 → EReal) (hv : ∀ r d, v (ix2 r d) = f r d)
    (r : Fin 1024) : vMean v (ix2 r (0 : Fin 1)) = Ideal.div (∑ d : Fin 256, f r d) (Ideal.ofBits .f32 0x43800000#32) := by
  unfold vMean
  rw [divf_apply, col_apply, rowSum_apply]
  exact congrArg (fun s => Ideal.div s (Ideal.ofBits .f32 0x43800000#32)) (Finset.sum_congr rfl fun d _ => hv r d)

theorem vDiff_apply (v : FVec Ideal S1024x256 .f32) (r : Fin 1024) (d : Fin 256) :
    vDiff v (ix2 r d) = v (ix2 r d) - vMean v (ix2 r (0 : Fin 1)) := by
  unfold vDiff
  rw [subf_apply, colBc_apply]

theorem vRs_apply (w : FVec Ideal S1024x256 .f32) (r : Fin 1024) :
    vRs w (ix2 r (0 : Fin 1)) = Ideal.rsqrt (vMean (mulf w w) (ix2 r (0 : Fin 1)) + Ideal.ofBits .f32 0x3727C5AC#32) := rfl

/-- The row mean of the affine layer. -/
def emean (r : Fin 1024) : EReal := Ideal.div (∑ d : Fin 256, elin x0 x1 x2 x3 x4 r d) (Ideal.ofBits .f32 0x43800000#32)
/-- The affine layer less its row mean. -/
def ediff (r : Fin 1024) (d : Fin 256) : EReal := elin x0 x1 x2 x3 x4 r d - emean x0 x1 x2 x3 x4 r
/-- The row mean of the squared differences. -/
def evar (r : Fin 1024) : EReal :=
  Ideal.div (∑ d : Fin 256, ediff x0 x1 x2 x3 x4 r d * ediff x0 x1 x2 x3 x4 r d) (Ideal.ofBits .f32 0x43800000#32)
/-- The normalised, scaled and shifted entry. -/
def enormed (r : Fin 1024) (d : Fin 256) : EReal :=
  ediff x0 x1 x2 x3 x4 r d * Ideal.rsqrt (evar x0 x1 x2 x3 x4 r + Ideal.ofBits .f32 0x3727C5AC#32) * x5 (ix1 d) + x6 (ix1 d)

theorem vDiffLin_apply (r : Fin 1024) (d : Fin 256) :
    vDiff (vLin x0 x1 x2 x3 x4) (ix2 r d) = ediff x0 x1 x2 x3 x4 r d := by
  rw [vDiff_apply, vLin_apply, vMean_apply _ _ (vLin_apply x0 x1 x2 x3 x4)]
  rfl

theorem vNormed_apply (r : Fin 1024) (d : Fin 256) :
    vNormed x0 x1 x2 x3 x4 x5 x6 (ix2 r d) = enormed x0 x1 x2 x3 x4 x5 x6 r d := by
  unfold vNormed enormed
  rw [addf_apply, mulf_apply, mulf_apply, colBc_apply, rowBc_apply, rowBc_apply, vDiffLin_apply, vRs_apply,
    vMean_apply (mulf (vDiff (vLin x0 x1 x2 x3 x4)) (vDiff (vLin x0 x1 x2 x3 x4)))
      (fun r d => ediff x0 x1 x2 x3 x4 r d * ediff x0 x1 x2 x3 x4 r d)
      (fun r d => by rw [mulf_apply, vDiffLin_apply])]
  rfl

/-- The stored block at (r, d): twice the hyperbolic tangent of the normalised entry. -/
theorem body_apply (r : Fin 1024) (d : Fin 256) :
    body x0 x1 x2 x3 x4 x5 x6 (ix2 r d)
      = Ideal.ofBits .f32 0x40000000#32 * Ideal.tanh (enormed x0 x1 x2 x3 x4 x5 x6 r d) := by
  unfold body
  rw [pay2_eq]
  show Ideal.ofBits .f32 0x40000000#32 * Ideal.tanh (vNormed x0 x1 x2 x3 x4 x5 x6 (ix2 r d)) = _
  rw [vNormed_apply]

end Stages

/-! ## Real inputs: every stage is a real number, the specification's -/

section Reals

variable (I : Cert.Spec.Inputs)

/-- The concatenated row against W is the obs part against the top 64 rows plus the act part against the bottom 12. -/
theorem cat_sum (r : Fin 1024) (d : Fin 256) :
    ∑ k : Fin 76, Cert.Spec.cat I r k * I.W k d
      = (∑ k : Fin 64, I.obs r k * I.W ⟨k.val, lt_of_lt_of_le k.isLt (by norm_num)⟩ d)
        + ∑ k : Fin 12, I.act r k * I.W ⟨64 + k.val, by have := k.isLt; omega⟩ d := by
  show ∑ k : Fin (64 + 12), Cert.Spec.cat I r k * I.W k d = _
  rw [Fin.sum_univ_add]
  refine congrArg₂ (· + ·) (Finset.sum_congr rfl fun k _ => ?_) (Finset.sum_congr rfl fun k _ => ?_)
  · have h : (Fin.castAdd 12 k : Fin (64 + 12)).val < 64 := k.isLt
    unfold Cert.Spec.cat
    rw [dif_pos h]
    rfl
  · have h : ¬ (Fin.natAdd 64 k : Fin (64 + 12)).val < 64 := by
      show ¬ 64 + k.val < 64
      omega
    have e : ∀ (h' : (Fin.natAdd 64 k : Fin (64 + 12)).val - 64 < 12),
        (⟨(Fin.natAdd 64 k : Fin (64 + 12)).val - 64, h'⟩ : Fin 12) = k :=
      fun h' => Fin.ext (show 64 + k.val - 64 = k.val by omega)
    unfold Cert.Spec.cat
    rw [dif_neg h, e]
    rfl

/-- A sum of 256 real numbers divided by the word of 256 is the real quotient. -/
theorem mean_coe (f : Fin 256 → EReal) (g : Fin 256 → ℝ) (h : ∀ d, f d = ((g d : ℝ) : EReal)) :
    Ideal.div (∑ d : Fin 256, f d) (Ideal.ofBits .f32 0x43800000#32) = (((∑ d : Fin 256, g d) / 256 : ℝ) : EReal) := by
  have hs : (∑ d : Fin 256, f d) = ((∑ d : Fin 256, g d : ℝ) : EReal) := by
    rw [Cert.LibEReal.coe_sum]; exact Finset.sum_congr rfl fun d _ => h d
  rw [Cert.Consts.ofBits_256, hs]
  exact Cert.LibEReal.div_coe_coe _ _ (by norm_num)

/-- The variance is a mean of squares, so it is not negative. -/
theorem var_nonneg (r : Fin 1024) : 0 ≤ Cert.Spec.var I r := by
  unfold Cert.Spec.var
  exact div_nonneg (Finset.sum_nonneg fun d _ => mul_self_nonneg _) (by norm_num)

variable (x0 : Vec Ideal S1024x64 .f32) (x1 : Vec Ideal S1024x12 .f32) (x2 : Vec Ideal S64x256 .f32) (x3 : Vec Ideal S12x256 .f32)
  (x4 x5 x6 : Vec Ideal S256 .f32)
  (hobs : ∀ (r : Fin 1024) (k : Fin 64), x0 (ix2 r k) = ((I.obs r k : ℝ) : EReal))
  (hact : ∀ (r : Fin 1024) (k : Fin 12), x1 (ix2 r k) = ((I.act r k : ℝ) : EReal))
  (hwo : ∀ (k : Fin 64) (d : Fin 256), x2 (ix2 k d) = ((I.W ⟨k.val, lt_of_lt_of_le k.isLt (by norm_num)⟩ d : ℝ) : EReal))
  (hwa : ∀ (k : Fin 12) (d : Fin 256), x3 (ix2 k d) = ((I.W ⟨64 + k.val, by have := k.isLt; omega⟩ d : ℝ) : EReal))
  (hb : ∀ d : Fin 256, x4 (ix1 d) = ((I.b d : ℝ) : EReal))
  (hg : ∀ d : Fin 256, x5 (ix1 d) = ((I.gamma d : ℝ) : EReal))
  (hbe : ∀ d : Fin 256, x6 (ix1 d) = ((I.beta d : ℝ) : EReal))

include hobs hact hwo hwa hb in
theorem elin_coe (r : Fin 1024) (d : Fin 256) : elin x0 x1 x2 x3 x4 r d = ((Cert.Spec.lin I r d : ℝ) : EReal) := by
  unfold elin Cert.Spec.lin
  rw [cat_sum, EReal.coe_add, EReal.coe_add, Cert.LibEReal.coe_sum, Cert.LibEReal.coe_sum, hb]
  refine congrArg₂ (· + ·) (congrArg₂ (· + ·) (Finset.sum_congr rfl fun k _ => ?_) (Finset.sum_congr rfl fun k _ => ?_)) rfl
  · rw [hobs, hwo, EReal.coe_mul]
  · rw [hact, hwa, EReal.coe_mul]

include hobs hact hwo hwa hb in
theorem emean_coe (r : Fin 1024) : emean x0 x1 x2 x3 x4 r = ((Cert.Spec.mean I r : ℝ) : EReal) := by
  unfold emean Cert.Spec.mean
  exact mean_coe _ _ fun d => elin_coe I x0 x1 x2 x3 x4 hobs hact hwo hwa hb r d

include hobs hact hwo hwa hb in
theorem ediff_coe (r : Fin 1024) (d : Fin 256) :
    ediff x0 x1 x2 x3 x4 r d = ((Cert.Spec.lin I r d - Cert.Spec.mean I r : ℝ) : EReal) := by
  unfold ediff
  rw [elin_coe I x0 x1 x2 x3 x4 hobs hact hwo hwa hb, emean_coe I x0 x1 x2 x3 x4 hobs hact hwo hwa hb, EReal.coe_sub]

include hobs hact hwo hwa hb in
theorem evar_coe (r : Fin 1024) : evar x0 x1 x2 x3 x4 r = ((Cert.Spec.var I r : ℝ) : EReal) := by
  unfold evar Cert.Spec.var
  exact mean_coe _ _ fun d => by rw [ediff_coe I x0 x1 x2 x3 x4 hobs hact hwo hwa hb, EReal.coe_mul]

include hobs hact hwo hwa hb hg hbe in
theorem enormed_coe (r : Fin 1024) (d : Fin 256) :
    enormed x0 x1 x2 x3 x4 x5 x6 r d = ((Cert.Spec.normed I r d : ℝ) : EReal) := by
  have hpos : 0 < Cert.Spec.var I r + Cert.Spec.eps := add_pos_of_nonneg_of_pos (var_nonneg I r) Cert.Consts.eps_pos
  unfold enormed Cert.Spec.normed
  rw [ediff_coe I x0 x1 x2 x3 x4 hobs hact hwo hwa hb, evar_coe I x0 x1 x2 x3 x4 hobs hact hwo hwa hb, Cert.Consts.ofBits_eps,
    ← EReal.coe_add, Cert.LibEReal.rsqrt_coe_pos _ hpos, hg, hbe, ← EReal.coe_mul, ← EReal.coe_mul, ← EReal.coe_add]

end Reals

/-! ## The result array for real inputs -/

theorem trunk_val (I : Cert.Spec.Inputs)
    (hobs : ∀ (r : Fin 1024) (k : Fin 64), V c main_arg0 (ix2 r k) = ((I.obs r k : ℝ) : EReal))
    (hact : ∀ (r : Fin 1024) (k : Fin 12), V c main_arg1 (ix2 r k) = ((I.act r k : ℝ) : EReal))
    (hwo : ∀ (k : Fin 64) (d : Fin 256), V c main_v0 (ix2 k d) = ((I.W ⟨k.val, lt_of_lt_of_le k.isLt (by norm_num)⟩ d : ℝ) : EReal))
    (hwa : ∀ (k : Fin 12) (d : Fin 256), V c main_v1 (ix2 k d) = ((I.W ⟨64 + k.val, by have := k.isLt; omega⟩ d : ℝ) : EReal))
    (hb : ∀ d : Fin 256, V c main_arg3 (ix1 d) = ((I.b d : ℝ) : EReal))
    (hg : ∀ d : Fin 256, V c main_arg4 (ix1 d) = ((I.gamma d : ℝ) : EReal))
    (hbe : ∀ d : Fin 256, V c main_arg5 (ix1 d) = ((I.beta d : ℝ) : EReal))
    (r : Fin 1024) (d : Fin 256) :
    ((dat0 V c).arrAt 7 cfg0.N : Vec Ideal S1024x256 .bf16) (ix2 r d) = ((2 * Cert.Spec.phi I r d : ℝ) : EReal) := by
  refine (congrFun (final V c) (ix2 r d)).trans ?_
  refine (body_apply (V c main_arg0) (V c main_arg1) (V c main_v0) (V c main_v1) (V c main_arg3) (V c main_arg4) (V c main_arg5) r d).trans ?_
  rw [enormed_coe I (V c main_arg0) (V c main_arg1) (V c main_v0) (V c main_v1) (V c main_arg3) (V c main_arg4) (V c main_arg5)
      hobs hact hwo hwa hb hg hbe r d, Ideal.tanh_coe, Cert.Consts.ofBits_two, ← EReal.coe_mul]
  rfl

end Cert.KernelIdeal.Trunk

end
-- ==== Proof.HeadStep.lean ====
/-
  One tile of the streaming weighted average, on extended reals, entry by entry.

  For a row r, a tile of 2000 memory slots contributes the scores sc r i = <x0 r, x1 i> - x2 i. The running state is a
  shift m (a maximum so far), a sum of weights l and a weighted sum a, all relative to the shift. One tile replaces
  m by the larger of m and the tile's largest score, rescales l and a by exp(m_old - m_new), and adds the tile's
  exp(sc - m_new) and exp(sc - m_new) v. The state starts at (bottom, 0, 0).
-/
import Idealize.ShloMosaic.PureOps.Ideal
import Idealize.ShloMosaic.Lib.ValueIdx

noncomputable section

open scoped BigOperators

namespace Cert.HeadStep

open Idealize.ShloMosaic Idealize.ShloMosaic.ValueIdx

/-- A rank-2 array of extended reals. -/
abbrev A2 (a b : ℕ) : Type := (⟨2, ![a, b]⟩ : Shape).Idx → EReal
/-- A rank-3 array of extended reals. -/
abbrev A3 (a b c : ℕ) : Type := (⟨3, ![a, b, c]⟩ : Shape).Idx → EReal

variable (x0 : A2 1024 256) (x1 : A2 2000 256) (x2 x3 : A3 1 1 2000)

/-- The score of slot i of the tile for row r: the inner product of the row with the slot's key, less the key's square norm. -/
def sc (r : Fin 1024) (i : Fin 2000) : EReal :=
  (∑ d : Fin 256, x0 (ix2 r d) * x1 (ix2 i d)) - x2 (ix3 (0 : Fin 1) (0 : Fin 1) i)

/-- The largest score of the tile for row r, from bottom. -/
def tileMax (r : Fin 1024) : EReal :=
  (Finset.univ : Finset (Fin 2000)).fold max ⊥ (fun i => sc x0 x1 x2 r i)

/-- The shift after the tile, from the shift mo before it. -/
def upM (mo : EReal) (r : Fin 1024) : EReal := max mo (tileMax x0 x1 x2 r)

/-- The sum of weights after the tile, from the shift mo and the sum lo before it. -/
def upL (mo lo : EReal) (r : Fin 1024) : EReal :=
  Ideal.exp (mo - upM x0 x1 x2 mo r) * lo + ∑ i : Fin 2000, Ideal.exp (sc x0 x1 x2 r i - upM x0 x1 x2 mo r)

/-- The weighted sum after the tile, from the shift mo and the weighted sum ao before it; x3 holds the slots' values. -/
def upA (mo ao : EReal) (r : Fin 1024) : EReal :=
  Ideal.exp (mo - upM x0 x1 x2 mo r) * ao
    + ∑ i : Fin 2000, Ideal.exp (sc x0 x1 x2 r i - upM x0 x1 x2 mo r) * x3 (ix3 (0 : Fin 1) (0 : Fin 1) i)

end Cert.HeadStep

end
-- ==== Proof.HeadTile.lean ====
/-
  What one grid point of the streaming kernel leaves in its three running outputs, entry by entry on extended reals:
  the new shift, the rescaled sum of weights plus the tile's weights, and the rescaled weighted sum plus the tile's
  weighted values (HeadStep's upM, upL, upA). At the first point of a core the state it updates is (bottom, 0, 0).

  First, for any float values, each output's block after the body is one term of the body's arithmetic: at a later
  point the update of the blocks it held before, at a core's first point the update of the constant blocks the body
  has just stored (minus infinity, zero, zero). Then, on extended reals, each such term is read at the entry (0, r, 0):
  the product into a zero accumulator is the inner product over the 256 feature coordinates, the key norms are one row
  repeated over the 1024 rows, the lane maximum is the fold of max from bottom over the 2000 slots, the lane sums are
  sums over the 2000 slots, and the changes of shape between 1024, 1024 x 1 and 1 x 1024 x 1 keep the entry.
-/
import proofs.«407580_j16338055594570_3_alg».proof.Proof.Gen.KernelIdeal.Frame
import proofs.«407580_j16338055594570_3_alg».proof.Proof.HeadStep
import proofs.«407580_j16338055594570_3_alg».proof.Proof.Consts
import proofs.«407580_j16338055594570_3_alg».proof.Proof.LibEReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open scoped BigOperators

namespace Cert.KernelIdeal.HeadTile

open Idealize.ShloMosaic Idealize.ShloMosaic.TcCoe Idealize.SL.Sem Idealize.ShloMosaic.ValueIdx Idealize.ShloMosaic.Tactic
open Cert.KernelIdeal Cert.KernelIdeal.Gen Cert.HeadStep

/-! ## What each case stores, as terms of the body's arithmetic (for any float values) -/

section Pieces
variable {F : FTy → Type} [FloatOps F]
variable (c : Dev nD) (i : grid1.Coords)
  (a2 : Memref sig .tc .vmem S1024x256 .bf16) (h2 : a2.IsWhole) (a3 : Memref sig .tc .vmem S2000x256 .bf16) (h3 : a3.IsWhole)
  (a4 : Memref sig .tc .vmem S1x1x2000 .f32) (h4 : a4.IsWhole) (a5 : Memref sig .tc .vmem S1x1x2000 .f32) (h5 : a5.IsWhole)
  (a6 : Memref sig .tc .vmem S1x1024x1 .f32) (h6 : a6.IsWhole) (a7 : Memref sig .tc .vmem S1x1024x1 .f32) (h7 : a7.IsWhole)
  (a8 : Memref sig .tc .vmem S1x1024x1 .f32) (h8 : a8.IsWhole)
  (x0 : Vec F S1024x256 .bf16) (x1 : Vec F S2000x256 .bf16) (x2 x3 : Vec F S1x1x2000 .f32)

theorem hz3 : (![0, 0, 0] : Fin 3 → Nat) = fun _ => 0 := funext fun a => by fin_cases a <;> rfl
theorem hz2 : (![0, 0] : Fin 2 → Nat) = fun _ => 0 := funext fun a => by fin_cases a <;> rfl

theorem pieceB4 (hc : ¬cond1_0 i) (xo4 xo5 xo6 : Vec F S1x1024x1 .f32) :
    out1_B_4 c i a2 h2 a3 h3 a4 h4 a5 h5 a6 h6 a7 h7 a8 h8 hc x0 x1 x2 x3 xo4 xo5 xo6
      = k1_pay3 (k1_pay11 x0 x1 x2 xo4) := by
  unfold out1_B_4
  rw [View.read_writes_eq_canon _ _ _ (cover1_B_4 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S1024x256) hz2, View.ld_unit_zero (S := S2000x256) hz2, View.ld_unit_zero (S := S1x1x2000) hz3, View.ld_unit_zero (S := S1x1024x1) hz3]

theorem pieceB5 (hc : ¬cond1_0 i) (xo4 xo5 xo6 : Vec F S1x1024x1 .f32) :
    out1_B_5 c i a2 h2 a3 h3 a4 h4 a5 h5 a6 h6 a7 h7 a8 h8 hc x0 x1 x2 x3 xo4 xo5 xo6
      = k1_pay1 (k1_pay14 x0 x1 x2 xo4 xo5) := by
  unfold out1_B_5
  rw [View.read_writes_eq_canon _ _ _ (cover1_B_5 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S1024x256) hz2, View.ld_unit_zero (S := S2000x256) hz2, View.ld_unit_zero (S := S1x1x2000) hz3, View.ld_unit_zero (S := S1x1024x1) hz3]

theorem pieceB6 (hc : ¬cond1_0 i) (xo4 xo5 xo6 : Vec F S1x1024x1 .f32) :
    out1_B_6 c i a2 h2 a3 h3 a4 h4 a5 h5 a6 h6 a7 h7 a8 h8 hc x0 x1 x2 x3 xo4 xo5 xo6
      = k1_pay2 (k1_pay7 x3) (k1_pay10 xo6) (k1_pay12 x0 x1 x2 xo4) (k1_pay13 x0 x1 x2 xo4) := by
  unfold out1_B_6
  rw [View.read_writes_eq_canon _ _ _ (cover1_B_6 c i a2 h2 a3 h3 a4 h4 a5 h5 a6 h6 a7 h7 a8 h8 hc x0 x1 x2 x3 xo4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S1024x256) hz2, View.ld_unit_zero (S := S2000x256) hz2, View.ld_unit_zero (S := S1x1x2000) hz3, View.ld_unit_zero (S := S1x1024x1) hz3]

theorem pieceA4 (hc : cond1_0 i) :
    out1_A_4 c i a2 h2 a3 h3 a4 h4 a5 h5 a6 h6 a7 h7 a8 h8 hc x0 x1 x2 x3
      = k1_pay3 (k1_pay11 x0 x1 x2 (k1_pay4 (F := F))) := by
  unfold out1_A_4
  rw [View.read_writes_eq_canon _ _ _ (cover1_A_4 c i a2 h2 a3 h3 a4 h4 a5 h5 a6 h6 a7 h7 a8 h8 hc x0 x1 x2 x3)]
  unfold kernelRun1_A
  dsimp only
  sl_unfold_words
  rw [View.canon_cons_unit_zero (S := S1x1024x1) hz3]
  simp only [View.readCov_unit_zero (S := S1x1024x1) _ hz3, View.readAt_eq_ld, h2.read_unread, h3.read_unread, h4.read_unread, h5.read_unread,
    View.ld_unit_zero (S := S1024x256) hz2, View.ld_unit_zero (S := S2000x256) hz2, View.ld_unit_zero (S := S1x1x2000) hz3]

theorem pieceA5 (hc : cond1_0 i) :
    out1_A_5 c i a2 h2 a3 h3 a4 h4 a5 h5 a6 h6 a7 h7 a8 h8 hc x0 x1 x2 x3
      = k1_pay1 (k1_pay14 x0 x1 x2 (k1_pay4 (F := F)) (k1_pay5 (F := F))) := by
  unfold out1_A_5
  rw [View.read_writes_eq_canon _ _ _ (cover1_A_5 c i a2 h2 a3 h3 a4 h4 a5 h5 a6 h6 a7 h7 a8 h8 hc x0 x1 x2 x3)]
  unfold kernelRun1_A
  dsimp only
  sl_unfold_words
  rw [View.canon_cons_unit_zero (S := S1x1024x1) hz3]
  simp only [View.readCov_unit_zero (S := S1x1024x1) _ hz3, View.readAt_eq_ld, h2.read_unread, h3.read_unread, h4.read_unread, h5.read_unread,
    View.ld_unit_zero (S := S1024x256) hz2, View.ld_unit_zero (S := S2000x256) hz2, View.ld_unit_zero (S := S1x1x2000) hz3]

theorem pieceA6 (hc : cond1_0 i) :
    out1_A_6 c i a2 h2 a3 h3 a4 h4 a5 h5 a6 h6 a7 h7 a8 h8 hc x0 x1 x2 x3
      = k1_pay2 (k1_pay7 x3) (k1_pay10 (k1_pay6 (F := F))) (k1_pay12 x0 x1 x2 (k1_pay4 (F := F))) (k1_pay13 x0 x1 x2 (k1_pay4 (F := F))) := by
  unfold out1_A_6
  rw [View.read_writes_eq_canon _ _ _ (cover1_A_6 c i a2 h2 a3 h3 a4 h4 a5 h5 a6 h6 a7 h7 a8 h8 hc x0 x1 x2 x3)]
  unfold kernelRun1_A
  dsimp only
  sl_unfold_words
  rw [View.canon_cons_unit_zero (S := S1x1024x1) hz3]
  simp only [View.readCov_unit_zero (S := S1x1024x1) _ hz3, View.readAt_eq_ld, h2.read_unread, h3.read_unread, h4.read_unread, h5.read_unread,
    View.ld_unit_zero (S := S1024x256) hz2, View.ld_unit_zero (S := S2000x256) hz2, View.ld_unit_zero (S := S1x1x2000) hz3]

end Pieces

/-! ## Two changes of layout read at an entry: a vector as a column, a column repeated along the lanes -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic read at an entry, on extended reals -/

section AtIdeal

/-- The contraction of the score product runs over one axis, of extent 256. -/
theorem contr_rank : dot_S1024x256_S2000x256_S1024x2000_1_1_0_0_n_n.contr.rank = 1 := rfl
theorem contr_size : dot_S1024x256_S2000x256_S1024x2000_1_1_0_0_n_n.contr.size ⟨0, by rw [contr_rank]; exact Nat.one_pos⟩ = 256 := rfl

/-- The left operand is read at (row, contraction position) ... -/
theorem lhs_axis0 (r : Fin 1024) (i : Fin 2000) (k : dot_S1024x256_S2000x256_S1024x2000_1_1_0_0_n_n.contr.Idx) :
    (dot_S1024x256_S2000x256_S1024x2000_1_1_0_0_n_n.lhsIdx (ix2 r i) k (0 : Fin 2)).val = r.val := rfl
theorem lhs_axis1 (r : Fin 1024) (i : Fin 2000) (k : dot_S1024x256_S2000x256_S1024x2000_1_1_0_0_n_n.contr.Idx) :
    (dot_S1024x256_S2000x256_S1024x2000_1_1_0_0_n_n.lhsIdx (ix2 r i) k (1 : Fin 2)).val = (k ⟨0, by rw [contr_rank]; exact Nat.one_pos⟩).val :=
  dot_S1024x256_S2000x256_S1024x2000_1_1_0_0_n_n.lhsIdx_val_of_single rfl (ix2 r i) k
/-- ... and the right operand at (slot, contraction position): both operands are contracted along their second axis. -/
theorem rhs_axis0 (r : Fin 1024) (i : Fin 2000) (k : dot_S1024x256_S2000x256_S1024x2000_1_1_0_0_n_n.contr.Idx) :
    (dot_S1024x256_S2000x256_S1024x2000_1_1_0_0_n_n.rhsIdx (ix2 r i) k (0 : Fin 2)).val = i.val := rfl
theorem rhs_axis1 (r : Fin 1024) (i : Fin 2000) (k : dot_S1024x256_S2000x256_S1024x2000_1_1_0_0_n_n.contr.Idx) :
    (dot_S1024x256_S2000x256_S1024x2000_1_1_0_0_n_n.rhsIdx (ix2 r i) k (1 : Fin 2)).val = (k ⟨0, by rw [contr_rank]; exact Nat.one_pos⟩).val :=
  dot_S1024x256_S2000x256_S1024x2000_1_1_0_0_n_n.rhsIdx_val_of_single rfl (ix2 r i) k

/-- The product into a zero accumulator, at (r, i): the inner product of row r of the left operand with row i of the right one. -/
theorem matmul_row (y0 : FVec Ideal S1024x256 .bf16) (y1 : FVec Ideal S2000x256 .bf16) (r : Fin 1024) (i : Fin 2000) :
    matmul dot_S1024x256_S2000x256_S1024x2000_1_1_0_0_n_n none y0 y1 (constant S1024x2000 .f32 0x00000000#32) (ix2 r i)
      = ∑ d : Fin 256, y0 (ix2 r d) * y1 (ix2 i d) := by
  refine (Ideal.matmul_constant_zero_apply dot_S1024x256_S2000x256_S1024x2000_1_1_0_0_n_n none y0 y1 (ix2 r i)).trans ?_
  refine (Equiv.sum_comp (contrEquiv1 dot_S1024x256_S2000x256_S1024x2000_1_1_0_0_n_n 256 contr_rank contr_size).symm _).symm.trans ?_
  refine Finset.sum_congr rfl fun d _ => ?_
  have hk := contrEquiv1_symm_val dot_S1024x256_S2000x256_S1024x2000_1_1_0_0_n_n 256 contr_rank contr_size d
  have e0 : dot_S1024x256_S2000x256_S1024x2000_1_1_0_0_n_n.lhsIdx (ix2 r i)
      ((contrEquiv1 dot_S1024x256_S2000x256_S1024x2000_1_1_0_0_n_n 256 contr_rank contr_size).symm d) = ix2 r d :=
    funext fun a => match a with
      | ⟨0, _⟩ => Fin.ext (lhs_axis0 r i _)
      | ⟨1, _⟩ => Fin.ext ((lhs_axis1 r i _).trans hk)
  have e1 : dot_S1024x256_S2000x256_S1024x2000_1_1_0_0_n_n.rhsIdx (ix2 r i)
      ((contrEquiv1 dot_S1024x256_S2000x256_S1024x2000_1_1_0_0_n_n 256 contr_rank contr_size).symm d) = ix2 i d :=
    funext fun a => match a with
      | ⟨0, _⟩ => Fin.ext (rhs_axis0 r i _)
      | ⟨1, _⟩ => Fin.ext ((rhs_axis1 r i _).trans hk)
  rw [e0, e1]

/-- The index over (r) with lane i put back is (r, i). -/
theorem lift_row (h : S1024x2000.Reduces [1] S1024) (r : Fin 1024) (i : Fin 2000) : h.lift (ix1 r) i = ix2 r i :=
  funext fun a => match a with
    | ⟨0, _⟩ => Fin.ext rfl
    | ⟨1, _⟩ => Fin.ext rfl

/-- A sum along the lanes, at row r. -/
theorem rowSum_apply (src : FVec Ideal S1024x2000 .f32) (h : S1024x2000.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ i : Fin 2000, src (ix2 r i) := by
  refine (Ideal.multiReduction_add_single src 0x00000000#32 h hφ hacc (ix1 r)).trans ?_
  exact Finset.sum_congr rfl fun i _ => congrArg src (lift_row h r i)

/-- A maximum along the lanes, at row r: the fold of max from bottom. -/
theorem rowMax_apply (src : FVec Ideal S1024x2000 .f32) (h : S1024x2000.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 2000)).fold max ⊥ (fun i => src (ix2 r i)) := by
  refine (Ideal.multiReduction_maximumf_single src 0xFF800000#32 h hφ hacc (ix1 r)).trans ?_
  have e : (FloatOps.ofBits (F := Ideal) .f32 0xFF800000#32 : EReal) = ⊥ := Cert.Consts.ofBits_neg_inf
  have hl : (src ∘ h.lift (ix1 r)) = fun i : Fin 2000 => src (ix2 r i) := funext fun i => congrArg src (lift_row h r i)
  rw [e, hl]
  rfl

variable (x0 : Vec Ideal S1024x256 .bf16) (x1 : Vec Ideal S2000x256 .bf16) (x2 x3 : Vec Ideal S1x1x2000 .f32)

/-- The scores: the product less the broadcast key norms. -/
theorem pay8_apply (r : Fin 1024) (i : Fin 2000) :
    k1_pay8 (F := Ideal) x0 x1 x2 (ix2 r i) = sc x0 x1 x2 r i := by
  unfold k1_pay8 sc
  refine (subf_apply _ _ _).trans ?_
  refine congrArg₂ (· - ·) ?_ ?_
  · rw [shapeCast_self, shapeCast_self]
    exact matmul_row x0 x1 r i
  · exact (broadcastTo_1b_ab_apply _ _ r i).trans (shapeCast_1ab_ab_apply x2 _ (0 : Fin 1) i)

/-- The running outputs viewed as columns: entry (r, 0) of the column is entry (0, r, 0) of the block. -/
theorem pay9_apply (xo : Vec Ideal S1x1024x1 .f32) (r : Fin 1024) :
    k1_pay9 (F := Ideal) xo (ix2 r (0 : Fin 1)) = xo (ix3 (0 : Fin 1) r (0 : Fin 1)) :=
  shapeCast_1ab_ab_apply xo _ r (0 : Fin 1)
theorem pay10_apply (xo : Vec Ideal S1x1024x1 .f32) (r : Fin 1024) :
    k1_pay10 (F := Ideal) xo (ix2 r (0 : Fin 1)) = xo (ix3 (0 : Fin 1) r (0 : Fin 1)) :=
  shapeCast_1ab_ab_apply xo _ r (0 : Fin 1)
/-- The tile's values viewed as one row. -/
theorem pay7_apply (v : Vec Ideal S1x1x2000 .f32) (i : Fin 2000) :
    k1_pay7 (F := Ideal) v (ix2 (0 : Fin 1) i) = v (ix3 (0 : Fin 1) (0 : Fin 1) i) :=
  shapeCast_1ab_ab_apply v _ (0 : Fin 1) i

/-- The new shift: the larger of the old one and the largest score of the tile. -/
theorem pay11_apply (xo4 : Vec Ideal S1x1024x1 .f32) (r : Fin 1024) :
    k1_pay11 (F := Ideal) x0 x1 x2 xo4 (ix2 r (0 : Fin 1)) = upM x0 x1 x2 (xo4 (ix3 (0 : Fin 1) r (0 : Fin 1))) r := by
  unfold k1_pay11 upM tileMax
  refine (maximumf_apply _ _ _).trans ?_
  refine congrArg₂ max (pay9_apply xo4 r) ?_
  refine (shapeCast_a_a1_apply _ _ r (0 : Fin 1)).trans ?_
  refine (rowMax_apply _ _ _ _ r).trans ?_
  exact congrArg (fun f => Finset.fold max ⊥ f (Finset.univ : Finset (Fin 2000))) (funext fun i => pay8_apply x0 x1 x2 r i)

/-- The rescaling factor of the old state. -/
theorem pay12_apply (xo4 : Vec Ideal S1x1024x1 .f32) (r : Fin 1024) :
    k1_pay12 (F := Ideal) x0 x1 x2 xo4 (ix2 r (0 : Fin 1))
      = Ideal.exp (xo4 (ix3 (0 : Fin 1) r (0 : Fin 1)) - upM x0 x1 x2 (xo4 (ix3 (0 : Fin 1) r (0 : Fin 1))) r) := by
  unfold k1_pay12
  show Ideal.exp (k1_pay9 (F := Ideal) xo4 (ix2 r (0 : Fin 1)) - k1_pay11 (F := Ideal) x0 x1 x2 xo4 (ix2 r (0 : Fin 1))) = _
  rw [pay9_apply, pay11_apply]

/-- The tile's weights. -/
theorem pay13_apply (xo4 : Vec Ideal S1x1024x1 .f32) (r : Fin 1024) (i : Fin 2000) :
    k1_pay13 (F := Ideal) x0 x1 x2 xo4 (ix2 r i)
      = Ideal.exp (sc x0 x1 x2 r i - upM x0 x1 x2 (xo4 (ix3 (0 : Fin 1) r (0 : Fin 1))) r) := by
  unfold k1_pay13
  show Ideal.exp (k1_pay8 (F := Ideal) x0 x1 x2 (ix2 r i)
      - broadcastTo S1024x2000 (k1_pay11 (F := Ideal) x0 x1 x2 xo4) broadcasts_S1024x1_S1024x2000 (ix2 r i)) = _
  rw [pay8_apply, broadcastTo_a1_ab_apply, pay11_apply]

/-- The new sum of weights. -/
theorem pay14_apply (xo4 xo5 : Vec Ideal S1x1024x1 .f32) (r : Fin 1024) :
    k1_pay14 (F := Ideal) x0 x1 x2 xo4 xo5 (ix2 r (0 : Fin 1))
      = upL x0 x1 x2 (xo4 (ix3 (0 : Fin 1) r (0 : Fin 1))) (xo5 (ix3 (0 : Fin 1) r (0 : Fin 1))) r := by
  unfold k1_pay14 upL
  refine (addf_apply _ _ _).trans ?_
  refine congrArg₂ (· + ·) ?_ ?_
  · refine (mulf_apply _ _ _).trans ?_
    exact congrArg₂ (· * ·) (pay12_apply x0 x1 x2 xo4 r) (shapeCast_1ab_ab_apply xo5 _ r (0 : Fin 1))
  · refine (shapeCast_a_a1_apply _ _ r (0 : Fin 1)).trans ?_
    refine (rowSum_apply _ _ _ _ r).trans ?_
    exact Finset.sum_congr rfl fun i _ => pay13_apply x0 x1 x2 xo4 r i

/-- The new weighted sum, as the block the body stores. -/
theorem pay2_apply (xo4 xo6 : Vec Ideal S1x1024x1 .f32) (r : Fin 1024) :
    k1_pay2 (F := Ideal) (k1_pay7 x3) (k1_pay10 xo6) (k1_pay12 x0 x1 x2 xo4) (k1_pay13 x0 x1 x2 xo4) (ix3 (0 : Fin 1) r (0 : Fin 1))
      = upA x0 x1 x2 x3 (xo4 (ix3 (0 : Fin 1) r (0 : Fin 1))) (xo6 (ix3 (0 : Fin 1) r (0 : Fin 1))) r := by
  unfold k1_pay2 upA
  refine (shapeCast_ab_1ab_apply _ _ (0 : Fin 1) r (0 : Fin 1)).trans ?_
  refine (addf_apply _ _ _).trans ?_
  refine congrArg₂ (· + ·) ?_ ?_
  · refine (mulf_apply _ _ _).trans ?_
    exact congrArg₂ (· * ·) (pay12_apply x0 x1 x2 xo4 r) (pay10_apply xo6 r)
  · refine (shapeCast_a_a1_apply _ _ r (0 : Fin 1)).trans ?_
    refine (rowSum_apply _ _ _ _ r).trans ?_
    refine Finset.sum_congr rfl fun i _ => ?_
    refine (mulf_apply _ _ _).trans ?_
    exact congrArg₂ (· * ·) (pay13_apply x0 x1 x2 xo4 r i) ((broadcastTo_1b_ab_apply _ _ r i).trans (pay7_apply x3 i))

/-- The stored shift and the stored sum of weights, as blocks. -/
theorem pay3_apply (v : FVec Ideal S1024x1 .f32) (r : Fin 1024) :
    k1_pay3 (F := Ideal) v (ix3 (0 : Fin 1) r (0 : Fin 1)) = v (ix2 r (0 : Fin 1)) :=
  shapeCast_ab_1ab_apply v _ (0 : Fin 1) r (0 : Fin 1)
theorem pay1_apply (v : FVec Ideal S1024x1 .f32) (r : Fin 1024) :
    k1_pay1 (F := Ideal) v (ix3 (0 : Fin 1) r (0 : Fin 1)) = v (ix2 r (0 : Fin 1)) :=
  shapeCast_ab_1ab_apply v _ (0 : Fin 1) r (0 : Fin 1)

/-- The reset state: the shift at bottom, the two sums at zero. -/
theorem pay4_apply (j : S1x1024x1.Idx) : k1_pay4 (F := Ideal) j = ⊥ := Cert.Consts.ofBits_neg_inf
theorem pay5_apply (j : S1x1024x1.Idx) : k1_pay5 (F := Ideal) j = 0 := Ideal.ofBits_zero_f32
theorem pay6_apply (j : S1x1024x1.Idx) : k1_pay6 (F := Ideal) j = 0 := Ideal.ofBits_zero_f32

end AtIdeal

/-! ## The six entries -/

variable (c : Dev nD) (i : grid1.Coords)
  (a2 : Memref sig .tc .vmem S1024x256 .bf16) (h2 : a2.IsWhole) (a3 : Memref sig .tc .vmem S2000x256 .bf16) (h3 : a3.IsWhole)
  (a4 : Memref sig .tc .vmem S1x1x2000 .f32) (h4 : a4.IsWhole) (a5 : Memref sig .tc .vmem S1x1x2000 .f32) (h5 : a5.IsWhole)
  (a6 : Memref sig .tc .vmem S1x1024x1 .f32) (h6 : a6.IsWhole) (a7 : Memref sig .tc .vmem S1x1024x1 .f32) (h7 : a7.IsWhole)
  (a8 : Memref sig .tc .vmem S1x1024x1 .f32) (h8 : a8.IsWhole)
  (x0 : Vec Ideal S1024x256 .bf16) (x1 : Vec Ideal S2000x256 .bf16) (x2 x3 : Vec Ideal S1x1x2000 .f32)

/-- A later point: the shift becomes the larger of the old shift and the tile's largest score. -/
theorem later_m (hc : ¬cond1_0 i) (xo4 xo5 xo6 : Vec Ideal S1x1024x1 .f32) (r : Fin 1024) :
    out1_B_4 (F := Ideal) c i a2 h2 a3 h3 a4 h4 a5 h5 a6 h6 a7 h7 a8 h8 hc x0 x1 x2 x3 xo4 xo5 xo6 (ix3 (0 : Fin 1) r (0 : Fin 1))
      = upM x0 x1 x2 (xo4 (ix3 (0 : Fin 1) r (0 : Fin 1))) r :=
  (congrFun (pieceB4 (F := Ideal) c i a2 h2 a3 h3 a4 h4 a5 h5 a6 h6 a7 h7 a8 h8 x0 x1 x2 x3 hc xo4 xo5 xo6) (ix3 (0 : Fin 1) r (0 : Fin 1))).trans
    ((pay3_apply _ r).trans (pay11_apply x0 x1 x2 xo4 r))

/-- A later point: the sum of weights is rescaled to the new shift and gains the tile's weights. -/
theorem later_l (hc : ¬cond1_0 i) (xo4 xo5 xo6 : Vec Ideal S1x1024x1 .f32) (r : Fin 1024) :
    out1_B_5 (F := Ideal) c i a2 h2 a3 h3 a4 h4 a5 h5 a6 h6 a7 h7 a8 h8 hc x0 x1 x2 x3 xo4 xo5 xo6 (ix3 (0 : Fin 1) r (0 : Fin 1))
      = upL x0 x1 x2 (xo4 (ix3 (0 : Fin 1) r (0 : Fin 1))) (xo5 (ix3 (0 : Fin 1) r (0 : Fin 1))) r :=
  (congrFun (pieceB5 (F := Ideal) c i a2 h2 a3 h3 a4 h4 a5 h5 a6 h6 a7 h7 a8 h8 x0 x1 x2 x3 hc xo4 xo5 xo6) (ix3 (0 : Fin 1) r (0 : Fin 1))).trans
    ((pay1_apply _ r).trans (pay14_apply x0 x1 x2 xo4 xo5 r))

/-- A later point: the weighted sum is rescaled to the new shift and gains the tile's weighted values. -/
theorem later_a (hc : ¬cond1_0 i) (xo4 xo5 xo6 : Vec Ideal S1x1024x1 .f32) (r : Fin 1024) :
    out1_B_6 (F := Ideal) c i a2 h2 a3 h3 a4 h4 a5 h5 a6 h6 a7 h7 a8 h8 hc x0 x1 x2 x3 xo4 xo5 xo6 (ix3 (0 : Fin 1) r (0 : Fin 1))
      = upA x0 x1 x2 x3 (xo4 (ix3 (0 : Fin 1) r (0 : Fin 1))) (xo6 (ix3 (0 : Fin 1) r (0 : Fin 1))) r :=
  (congrFun (pieceB6 (F := Ideal) c i a2 h2 a3 h3 a4 h4 a5 h5 a6 h6 a7 h7 a8 h8 x0 x1 x2 x3 hc xo4 xo5 xo6) (ix3 (0 : Fin 1) r (0 : Fin 1))).trans
    (pay2_apply x0 x1 x2 x3 xo4 xo6 r)

/-- A core's first point: the same update of the state (bottom, 0, 0). -/
theorem first_m (hc : cond1_0 i) (r : Fin 1024) :
    out1_A_4 (F := Ideal) c i a2 h2 a3 h3 a4 h4 a5 h5 a6 h6 a7 h7 a8 h8 hc x0 x1 x2 x3 (ix3 (0 : Fin 1) r (0 : Fin 1))
      = upM x0 x1 x2 ⊥ r :=
  (congrFun (pieceA4 (F := Ideal) c i a2 h2 a3 h3 a4 h4 a5 h5 a6 h6 a7 h7 a8 h8 x0 x1 x2 x3 hc) (ix3 (0 : Fin 1) r (0 : Fin 1))).trans
    ((pay3_apply _ r).trans ((pay11_apply x0 x1 x2 (k1_pay4 (F := Ideal)) r).trans (by rw [pay4_apply])))

theorem first_l (hc : cond1_0 i) (r : Fin 1024) :
    out1_A_5 (F := Ideal) c i a2 h2 a3 h3 a4 h4 a5 h5 a6 h6 a7 h7 a8 h8 hc x0 x1 x2 x3 (ix3 (0 : Fin 1) r (0 : Fin 1))
      = upL x0 x1 x2 ⊥ 0 r :=
  (congrFun (pieceA5 (F := Ideal) c i a2 h2 a3 h3 a4 h4 a5 h5 a6 h6 a7 h7 a8 h8 x0 x1 x2 x3 hc) (ix3 (0 : Fin 1) r (0 : Fin 1))).trans
    ((pay1_apply _ r).trans ((pay14_apply x0 x1 x2 (k1_pay4 (F := Ideal)) (k1_pay5 (F := Ideal)) r).trans
      (by rw [pay4_apply, pay5_apply])))

theorem first_a (hc : cond1_0 i) (r : Fin 1024) :
    out1_A_6 (F := Ideal) c i a2 h2 a3 h3 a4 h4 a5 h5 a6 h6 a7 h7 a8 h8 hc x0 x1 x2 x3 (ix3 (0 : Fin 1) r (0 : Fin 1))
      = upA x0 x1 x2 x3 ⊥ 0 r :=
  (congrFun (pieceA6 (F := Ideal) c i a2 h2 a3 h3 a4 h4 a5 h5 a6 h6 a7 h7 a8 h8 x0 x1 x2 x3 hc) (ix3 (0 : Fin 1) r (0 : Fin 1))).trans
    ((pay2_apply x0 x1 x2 x3 (k1_pay4 (F := Ideal)) (k1_pay6 (F := Ideal)) r).trans
      (by rw [pay4_apply, pay6_apply]))

end Cert.KernelIdeal.HeadTile

end
-- ==== Proof.HeadBlocks.lean ====
/-
  The streaming kernel's windows read as slices of its four input arrays, and its three result arrays read off the
  running outputs. Grid point t = 25 core + step fetches the whole feature array, key rows 2000 t .. 2000 t + 1999,
  and row t of the key-norm and value arrays (each reshaped to 50 rows of 2000). A core's running outputs are written
  back once, after its last step, into row 'core' of each result array.
-/
import proofs.«407580_j16338055594570_3_alg».proof.Proof.Gen.KernelIdeal.Frame
import proofs.«407580_j16338055594570_3_alg».proof.Proof.LibSoftmax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.HeadBlocks

open Idealize.ShloMosaic Idealize.ShloMosaic.TcCoe Idealize.SL.Sem Idealize.ShloMosaic.ValueIdx
open Idealize.ShloMosaic.Pipeline (Dat)
open Cert.KernelIdeal Cert.KernelIdeal.Gen Cert.LibSoftmax

variable (V : (c : Dev nD) → (b : Ref sig .tc) → Buf (Elt Ideal) ((c : Thread nD τ).loc b)) (c : Dev nD)

theorem point_lt (t : Fin cfg1.N) : t.val < 50 := by
  exact lt_of_lt_of_eq t.isLt (show cfg1.N = 50 from N_1)

/-- The block index of each input window at every grid point: the feature window stays at (0, 0); the key window is at
    row-block t; the key-norm and value windows are at row t of their 50-row arrays. -/
theorem idx0 : ∀ t : Fin grid1.N, win1_0.index t 0 = 0 ∧ win1_0.index t 1 = 0 := by decide +kernel
theorem idx1 : ∀ t : Fin grid1.N, win1_1.index t 0 = t.val ∧ win1_1.index t 1 = 0 := by decide +kernel
theorem idx2 : ∀ t : Fin grid1.N, win1_2.index t 0 = t.val ∧ win1_2.index t 1 = 0 ∧ win1_2.index t 2 = 0 := by decide +kernel
theorem idx3 : ∀ t : Fin grid1.N, win1_3.index t 0 = t.val ∧ win1_3.index t 1 = 0 ∧ win1_3.index t 2 = 0 := by decide +kernel

/-- Every point reads the whole feature array. -/
theorem blk_phi (t : Fin cfg1.N) (r : Fin 1024) (d : Fin 256) :
    (iblk1 V c 0 t : Vec Ideal S1024x256 .bf16) (ix2 r d) = V c main_v2 (ix2 r d) := by
  have hi := idx0 t
  unfold iblk1
  rw [View.read_apply]
  show V c main_v2 _ = V c main_v2 _
  congr 1
  funext a
  apply Fin.ext
  match a with
  | ⟨0, _⟩ =>
    show win1_0.index t 0 * 1024 + 1 * r.val = r.val
    rw [hi.1]; omega
  | ⟨1, _⟩ =>
    show win1_0.index t 1 * 256 + 1 * d.val = d.val
    rw [hi.2]; omega

/-- Point t reads key rows 2000 t .. 2000 t + 1999. -/
theorem blk_keys (t : Fin cfg1.N) (i : Fin 2000) (d : Fin 256) :
    (iblk1 V c 1 t : Vec Ideal S2000x256 .bf16) (ix2 i d) = V c main_v6 (ix2 (slot t.val i) d) := by
  have hi := idx1 t
  have hs := slot_val t.val (point_lt t) i
  unfold iblk1
  rw [View.read_apply]
  show V c main_v6 _ = V c main_v6 _
  congr 1
  funext a
  apply Fin.ext
  match a with
  | ⟨0, _⟩ =>
    show win1_1.index t 0 * 2000 + 1 * i.val = (slot t.val i).val
    rw [hi.1, hs]; omega
  | ⟨1, _⟩ =>
    show win1_1.index t 1 * 256 + 1 * d.val = d.val
    rw [hi.2]; omega

/-- Point t reads row t of the key norms. -/
theorem blk_ksq (t : Fin cfg1.N) (i : Fin 2000) :
    (iblk1 V c 2 t : Vec Ideal S1x1x2000 .f32) (ix3 (0 : Fin 1) (0 : Fin 1) i)
      = V c main_v5 (ix3 (⟨t.val, point_lt t⟩ : Fin 50) (0 : Fin 1) i) := by
  have hi := idx2 t
  unfold iblk1
  rw [View.read_apply]
  show V c main_v5 _ = V c main_v5 _
  congr 1
  funext a
  apply Fin.ext
  match a with
  | ⟨0, _⟩ =>
    show win1_2.index t 0 * 1 + 1 * 0 = t.val
    rw [hi.1]; omega
  | ⟨1, _⟩ =>
    show win1_2.index t 1 * 1 + 1 * 0 = 0
    rw [hi.2.1]
  | ⟨2, _⟩ =>
    show win1_2.index t 2 * 2000 + 1 * i.val = i.val
    rw [hi.2.2]; omega

/-- Point t reads row t of the values. -/
theorem blk_vals (t : Fin cfg1.N) (i : Fin 2000) :
    (iblk1 V c 3 t : Vec Ideal S1x1x2000 .f32) (ix3 (0 : Fin 1) (0 : Fin 1) i)
      = V c main_v8 (ix3 (⟨t.val, point_lt t⟩ : Fin 50) (0 : Fin 1) i) := by
  have hi := idx3 t
  unfold iblk1
  rw [View.read_apply]
  show V c main_v8 _ = V c main_v8 _
  congr 1
  funext a
  apply Fin.ext
  match a with
  | ⟨0, _⟩ =>
    show win1_3.index t 0 * 1 + 1 * 0 = t.val
    rw [hi.1]; omega
  | ⟨1, _⟩ =>
    show win1_3.index t 1 * 1 + 1 * 0 = 0
    rw [hi.2.1]
  | ⟨2, _⟩ =>
    show win1_3.index t 2 * 2000 + 1 * i.val = i.val
    rw [hi.2.2]; omega

/-- The last step of each core is a grid point. -/
theorem last_lt (c' : Fin 2) : 25 * c'.val + 24 < cfg1.N := by
  have := c'.isLt
  rw [show cfg1.N = 50 from N_1]; omega

/-- The running outputs depend on the point only through its number. -/
theorem outsAt1_congr {n m : ℕ} (e : n = m) (hn : n < cfg1.N) (hm : m < cfg1.N) :
    outsAt1 V c n hn = outsAt1 V c m hm := by
  subst e; rfl

/-- The block index of result window 4 at every grid point is (core, 0, 0), and its block is never clipped. -/
theorem idx4 : ∀ t : Fin grid1.N, win1_4.index t 0 = t.val / 25 ∧ win1_4.index t 1 = 0 ∧ win1_4.index t 2 = 0 := by
  decide +kernel
theorem xsz4 : ∀ t : Fin grid1.N, win1_4.xsize (grid1.coords t) 0 = 1 ∧ win1_4.xsize (grid1.coords t) 1 = 1024
    ∧ win1_4.xsize (grid1.coords t) 2 = 1 := by
  decide +kernel

/-- The array whose row c' is the running output number 0 after the last step 25 c' + 24 of core c'. -/
def G4 : Vec Ideal S2x1024x1 .f32 := fun j =>
  ((outsAt1 V c (25 * (j 0).val + 24) (last_lt (j 0))).1 : Vec Ideal S1x1024x1 .f32) (ix3 (0 : Fin 1) (j 1) (0 : Fin 1))

/-- That array at an index whose row is the core of point n = 25 core + 24 reads the running output after point n. -/
theorem G4_apply (j : S2x1024x1.Idx) (n : ℕ) (hn : n < cfg1.N) (r : Fin 1024) (e0 : 25 * (j 0).val + 24 = n)
    (e1 : (j 1).val = r.val) :
    G4 V c j = ((outsAt1 V c n hn).1 : Vec Ideal S1x1024x1 .f32) (ix3 (0 : Fin 1) r (0 : Fin 1)) := by
  unfold G4
  rw [outsAt1_congr V c e0 _ hn]
  have e : (j 1 : Fin 1024) = r := Fin.ext e1
  rw [e]

/-- What a core's last point writes back is its block (row 'core') of that array. -/
theorem flushed_eq4 (t : Fin cfg1.N) (hf : (cfg1.win 4).flush t = true) :
    (dat1 V c).flushed 4 t = ((cfg1.win 4).blk t).view.read (Elt Ideal) (G4 V c) := by
  have h24 : t.val % 25 = 24 := (flush1_4 t).mp hf
  have hi := idx4 t
  show (cfg1.win 4).cut (grid1.coords t) ((dat1 V c).after 4 t) = _
  rw [after1_4]
  funext y
  rw [View.read_apply]
  obtain ⟨y0, y1, y2, rfl⟩ : ∃ (y0 : Fin 1) (y1 : Fin 1024) (y2 : Fin 1), y = ix3 y0 y1 y2 :=
    ⟨y 0, y 1, y 2, eq_ix3 (n0 := 1) (n1 := 1024) (n2 := 1) y⟩
  obtain rfl : y0 = 0 := Subsingleton.elim _ _
  obtain rfl : y2 = 0 := Subsingleton.elim _ _
  refine Eq.symm (G4_apply V c _ t.val t.isLt y1 ?_ ?_)
  · show 25 * (win1_4.index t 0 * 1 + 1 * 0) + 24 = t.val
    rw [hi.1]; omega
  · show win1_4.index t 1 * 1024 + 1 * y1.val = y1.val
    rw [hi.2.1]; omega

/-- Every index (c', r, 0) of the result array lies in the block written back by point 25 c' + 24. -/
theorem cover4 (i : S2x1024x1.Idx) :
    ∃ t : Fin cfg1.N, (cfg1.win 4).flush t = true ∧ i ∈ ((cfg1.win 4).blk t).view.set := by
  refine ⟨⟨25 * (i 0).val + 24, last_lt (i 0)⟩, (flush1_4 _).mpr (by show (25 * (i 0).val + 24) % 25 = 24; omega), ?_⟩
  have hi := idx4 ⟨25 * (i 0).val + 24, last_lt (i 0)⟩
  have hx := xsz4 ⟨25 * (i 0).val + 24, last_lt (i 0)⟩
  have h0 : (i 0 : ℕ) < 2 := (i 0).isLt
  have h1 : (i 1 : ℕ) < 1024 := (i 1).isLt
  have h2 : (i 2 : ℕ) < 1 := (i 2).isLt
  show i ∈ ((View.whole main_v9_0).slice (win1_4.rect ⟨25 * (i 0).val + 24, last_lt (i 0)⟩)).set
  rw [View.set_slice_whole, Rect.mem_set_unit]
  intro a
  match a with
  | ⟨0, _⟩ =>
    show win1_4.index ⟨25 * (i 0).val + 24, last_lt (i 0)⟩ 0 * 1 ≤ (i 0 : ℕ)
      ∧ (i 0 : ℕ) < win1_4.index ⟨25 * (i 0).val + 24, last_lt (i 0)⟩ 0 * 1 + win1_4.xsize (grid1.coords ⟨25 * (i 0).val + 24, last_lt (i 0)⟩) 0
    rw [hi.1, hx.1]; dsimp only; omega
  | ⟨1, _⟩ =>
    show win1_4.index ⟨25 * (i 0).val + 24, last_lt (i 0)⟩ 1 * 1024 ≤ (i 1 : ℕ)
      ∧ (i 1 : ℕ) < win1_4.index ⟨25 * (i 0).val + 24, last_lt (i 0)⟩ 1 * 1024 + win1_4.xsize (grid1.coords ⟨25 * (i 0).val + 24, last_lt (i 0)⟩) 1
    rw [hi.2.1, hx.2.1]; omega
  | ⟨2, _⟩ =>
    show win1_4.index ⟨25 * (i 0).val + 24, last_lt (i 0)⟩ 2 * 1 ≤ (i 2 : ℕ)
      ∧ (i 2 : ℕ) < win1_4.index ⟨25 * (i 0).val + 24, last_lt (i 0)⟩ 2 * 1 + win1_4.xsize (grid1.coords ⟨25 * (i 0).val + 24, last_lt (i 0)⟩) 2
    rw [hi.2.2, hx.2.2]; omega

/-- So the result array ends holding that array. -/
theorem arr4_eq : (dat1 V c).arrAt 4 cfg1.N = G4 V c :=
  (dat1 V c).arrAt_eq_of_cover 4 (G4 V c) (flushed_eq4 V c) (cover4)

theorem final_m (c' : Fin 2) (r : Fin 1024) (h : 25 * c'.val + 24 < cfg1.N) :
    ((dat1 V c).arrAt 4 cfg1.N : Vec Ideal S2x1024x1 .f32) (ix3 c' r (0 : Fin 1))
      = ((outsAt1 V c (25 * c'.val + 24) h).1 : Vec Ideal S1x1024x1 .f32) (ix3 (0 : Fin 1) r (0 : Fin 1)) := by
  rw [arr4_eq]
  rfl

/-- The block index of result window 5 at every grid point is (core, 0, 0), and its block is never clipped. -/
theorem idx5 : ∀ t : Fin grid1.N, win1_5.index t 0 = t.val / 25 ∧ win1_5.index t 1 = 0 ∧ win1_5.index t 2 = 0 := by
  decide +kernel
theorem xsz5 : ∀ t : Fin grid1.N, win1_5.xsize (grid1.coords t) 0 = 1 ∧ win1_5.xsize (grid1.coords t) 1 = 1024
    ∧ win1_5.xsize (grid1.coords t) 2 = 1 := by
  decide +kernel

/-- The array whose row c' is the running output number 1 after the last step 25 c' + 24 of core c'. -/
def G5 : Vec Ideal S2x1024x1 .f32 := fun j =>
  ((outsAt1 V c (25 * (j 0).val + 24) (last_lt (j 0))).2.1 : Vec Ideal S1x1024x1 .f32) (ix3 (0 : Fin 1) (j 1) (0 : Fin 1))

/-- That array at an index whose row is the core of point n = 25 core + 24 reads the running output after point n. -/
theorem G5_apply (j : S2x1024x1.Idx) (n : ℕ) (hn : n < cfg1.N) (r : Fin 1024) (e0 : 25 * (j 0).val + 24 = n)
    (e1 : (j 1).val = r.val) :
    G5 V c j = ((outsAt1 V c n hn).2.1 : Vec Ideal S1x1024x1 .f32) (ix3 (0 : Fin 1) r (0 : Fin 1)) := by
  unfold G5
  rw [outsAt1_congr V c e0 _ hn]
  have e : (j 1 : Fin 1024) = r := Fin.ext e1
  rw [e]

/-- What a core's last point writes back is its block (row 'core') of that array. -/
theorem flushed_eq5 (t : Fin cfg1.N) (hf : (cfg1.win 5).flush t = true) :
    (dat1 V c).flushed 5 t = ((cfg1.win 5).blk t).view.read (Elt Ideal) (G5 V c) := by
  have h24 : t.val % 25 = 24 := (flush1_5 t).mp hf
  have hi := idx5 t
  show (cfg1.win 5).cut (grid1.coords t) ((dat1 V c).after 5 t) = _
  rw [after1_5]
  funext y
  rw [View.read_apply]
  obtain ⟨y0, y1, y2, rfl⟩ : ∃ (y0 : Fin 1) (y1 : Fin 1024) (y2 : Fin 1), y = ix3 y0 y1 y2 :=
    ⟨y 0, y 1, y 2, eq_ix3 (n0 := 1) (n1 := 1024) (n2 := 1) y⟩
  obtain rfl : y0 = 0 := Subsingleton.elim _ _
  obtain rfl : y2 = 0 := Subsingleton.elim _ _
  refine Eq.symm (G5_apply V c _ t.val t.isLt y1 ?_ ?_)
  · show 25 * (win1_5.index t 0 * 1 + 1 * 0) + 24 = t.val
    rw [hi.1]; omega
  · show win1_5.index t 1 * 1024 + 1 * y1.val = y1.val
    rw [hi.2.1]; omega

/-- Every index (c', r, 0) of the result array lies in the block written back by point 25 c' + 24. -/
theorem cover5 (i : S2x1024x1.Idx) :
    ∃ t : Fin cfg1.N, (cfg1.win 5).flush t = true ∧ i ∈ ((cfg1.win 5).blk t).view.set := by
  refine ⟨⟨25 * (i 0).val + 24, last_lt (i 0)⟩, (flush1_5 _).mpr (by show (25 * (i 0).val + 24) % 25 = 24; omega), ?_⟩
  have hi := idx5 ⟨25 * (i 0).val + 24, last_lt (i 0)⟩
  have hx := xsz5 ⟨25 * (i 0).val + 24, last_lt (i 0)⟩
  have h0 : (i 0 : ℕ) < 2 := (i 0).isLt
  have h1 : (i 1 : ℕ) < 1024 := (i 1).isLt
  have h2 : (i 2 : ℕ) < 1 := (i 2).isLt
  show i ∈ ((View.whole main_v9_1).slice (win1_5.rect ⟨25 * (i 0).val + 24, last_lt (i 0)⟩)).set
  rw [View.set_slice_whole, Rect.mem_set_unit]
  intro a
  match a with
  | ⟨0, _⟩ =>
    show win1_5.index ⟨25 * (i 0).val + 24, last_lt (i 0)⟩ 0 * 1 ≤ (i 0 : ℕ)
      ∧ (i 0 : ℕ) < win1_5.index ⟨25 * (i 0).val + 24, last_lt (i 0)⟩ 0 * 1 + win1_5.xsize (grid1.coords ⟨25 * (i 0).val + 24, last_lt (i 0)⟩) 0
    rw [hi.1, hx.1]; dsimp only; omega
  | ⟨1, _⟩ =>
    show win1_5.index ⟨25 * (i 0).val + 24, last_lt (i 0)⟩ 1 * 1024 ≤ (i 1 : ℕ)
      ∧ (i 1 : ℕ) < win1_5.index ⟨25 * (i 0).val + 24, last_lt (i 0)⟩ 1 * 1024 + win1_5.xsize (grid1.coords ⟨25 * (i 0).val + 24, last_lt (i 0)⟩) 1
    rw [hi.2.1, hx.2.1]; omega
  | ⟨2, _⟩ =>
    show win1_5.index ⟨25 * (i 0).val + 24, last_lt (i 0)⟩ 2 * 1 ≤ (i 2 : ℕ)
      ∧ (i 2 : ℕ) < win1_5.index ⟨25 * (i 0).val + 24, last_lt (i 0)⟩ 2 * 1 + win1_5.xsize (grid1.coords ⟨25 * (i 0).val + 24, last_lt (i 0)⟩) 2
    rw [hi.2.2, hx.2.2]; omega

/-- So the result array ends holding that array. -/
theorem arr5_eq : (dat1 V c).arrAt 5 cfg1.N = G5 V c :=
  (dat1 V c).arrAt_eq_of_cover 5 (G5 V c) (flushed_eq5 V c) (cover5)

theorem final_l (c' : Fin 2) (r : Fin 1024) (h : 25 * c'.val + 24 < cfg1.N) :
    ((dat1 V c).arrAt 5 cfg1.N : Vec Ideal S2x1024x1 .f32) (ix3 c' r (0 : Fin 1))
      = ((outsAt1 V c (25 * c'.val + 24) h).2.1 : Vec Ideal S1x1024x1 .f32) (ix3 (0 : Fin 1) r (0 : Fin 1)) := by
  rw [arr5_eq]
  rfl

/-- The block index of result window 6 at every grid point is (core, 0, 0), and its block is never clipped. -/
theorem idx6 : ∀ t : Fin grid1.N, win1_6.index t 0 = t.val / 25 ∧ win1_6.index t 1 = 0 ∧ win1_6.index t 2 = 0 := by
  decide +kernel
theorem xsz6 : ∀ t : Fin grid1.N, win1_6.xsize (grid1.coords t) 0 = 1 ∧ win1_6.xsize (grid1.coords t) 1 = 1024
    ∧ win1_6.xsize (grid1.coords t) 2 = 1 := by
  decide +kernel

/-- The array whose row c' is the running output number 2 after the last step 25 c' + 24 of core c'. -/
def G6 : Vec Ideal S2x1024x1 .f32 := fun j =>
  ((outsAt1 V c (25 * (j 0).val + 24) (last_lt (j 0))).2.2 : Vec Ideal S1x1024x1 .f32) (ix3 (0 : Fin 1) (j 1) (0 : Fin 1))

/-- That array at an index whose row is the core of point n = 25 core + 24 reads the running output after point n. -/
theorem G6_apply (j : S2x1024x1.Idx) (n : ℕ) (hn : n < cfg1.N) (r : Fin 1024) (e0 : 25 * (j 0).val + 24 = n)
    (e1 : (j 1).val = r.val) :
    G6 V c j = ((outsAt1 V c n hn).2.2 : Vec Ideal S1x1024x1 .f32) (ix3 (0 : Fin 1) r (0 : Fin 1)) := by
  unfold G6
  rw [outsAt1_congr V c e0 _ hn]
  have e : (j 1 : Fin 1024) = r := Fin.ext e1
  rw [e]

/-- What a core's last point writes back is its block (row 'core') of that array. -/
theorem flushed_eq6 (t : Fin cfg1.N) (hf : (cfg1.win 6).flush t = true) :
    (dat1 V c).flushed 6 t = ((cfg1.win 6).blk t).view.read (Elt Ideal) (G6 V c) := by
  have h24 : t.val % 25 = 24 := (flush1_6 t).mp hf
  have hi := idx6 t
  show (cfg1.win 6).cut (grid1.coords t) ((dat1 V c).after 6 t) = _
  rw [after1_6]
  funext y
  rw [View.read_apply]
  obtain ⟨y0, y1, y2, rfl⟩ : ∃ (y0 : Fin 1) (y1 : Fin 1024) (y2 : Fin 1), y = ix3 y0 y1 y2 :=
    ⟨y 0, y 1, y 2, eq_ix3 (n0 := 1) (n1 := 1024) (n2 := 1) y⟩
  obtain rfl : y0 = 0 := Subsingleton.elim _ _
  obtain rfl : y2 = 0 := Subsingleton.elim _ _
  refine Eq.symm (G6_apply V c _ t.val t.isLt y1 ?_ ?_)
  · show 25 * (win1_6.index t 0 * 1 + 1 * 0) + 24 = t.val
    rw [hi.1]; omega
  · show win1_6.index t 1 * 1024 + 1 * y1.val = y1.val
    rw [hi.2.1]; omega

/-- Every index (c', r, 0) of the result array lies in the block written back by point 25 c' + 24. -/
theorem cover6 (i : S2x1024x1.Idx) :
    ∃ t : Fin cfg1.N, (cfg1.win 6).flush t = true ∧ i ∈ ((cfg1.win 6).blk t).view.set := by
  refine ⟨⟨25 * (i 0).val + 24, last_lt (i 0)⟩, (flush1_6 _).mpr (by show (25 * (i 0).val + 24) % 25 = 24; omega), ?_⟩
  have hi := idx6 ⟨25 * (i 0).val + 24, last_lt (i 0)⟩
  have hx := xsz6 ⟨25 * (i 0).val + 24, last_lt (i 0)⟩
  have h0 : (i 0 : ℕ) < 2 := (i 0).isLt
  have h1 : (i 1 : ℕ) < 1024 := (i 1).isLt
  have h2 : (i 2 : ℕ) < 1 := (i 2).isLt
  show i ∈ ((View.whole main_v9_2).slice (win1_6.rect ⟨25 * (i 0).val + 24, last_lt (i 0)⟩)).set
  rw [View.set_slice_whole, Rect.mem_set_unit]
  intro a
  match a with
  | ⟨0, _⟩ =>
    show win1_6.index ⟨25 * (i 0).val + 24, last_lt (i 0)⟩ 0 * 1 ≤ (i 0 : ℕ)
      ∧ (i 0 : ℕ) < win1_6.index ⟨25 * (i 0).val + 24, last_lt (i 0)⟩ 0 * 1 + win1_6.xsize (grid1.coords ⟨25 * (i 0).val + 24, last_lt (i 0)⟩) 0
    rw [hi.1, hx.1]; dsimp only; omega
  | ⟨1, _⟩ =>
    show win1_6.index ⟨25 * (i 0).val + 24, last_lt (i 0)⟩ 1 * 1024 ≤ (i 1 : ℕ)
      ∧ (i 1 : ℕ) < win1_6.index ⟨25 * (i 0).val + 24, last_lt (i 0)⟩ 1 * 1024 + win1_6.xsize (grid1.coords ⟨25 * (i 0).val + 24, last_lt (i 0)⟩) 1
    rw [hi.2.1, hx.2.1]; omega
  | ⟨2, _⟩ =>
    show win1_6.index ⟨25 * (i 0).val + 24, last_lt (i 0)⟩ 2 * 1 ≤ (i 2 : ℕ)
      ∧ (i 2 : ℕ) < win1_6.index ⟨25 * (i 0).val + 24, last_lt (i 0)⟩ 2 * 1 + win1_6.xsize (grid1.coords ⟨25 * (i 0).val + 24, last_lt (i 0)⟩) 2
    rw [hi.2.2, hx.2.2]; omega

/-- So the result array ends holding that array. -/
theorem arr6_eq : (dat1 V c).arrAt 6 cfg1.N = G6 V c :=
  (dat1 V c).arrAt_eq_of_cover 6 (G6 V c) (flushed_eq6 V c) (cover6)

theorem final_a (c' : Fin 2) (r : Fin 1024) (h : 25 * c'.val + 24 < cfg1.N) :
    ((dat1 V c).arrAt 6 cfg1.N : Vec Ideal S2x1024x1 .f32) (ix3 c' r (0 : Fin 1))
      = ((outsAt1 V c (25 * c'.val + 24) h).2.2 : Vec Ideal S1x1024x1 .f32) (ix3 (0 : Fin 1) r (0 : Fin 1)) := by
  rw [arr6_eq]
  rfl

end Cert.KernelIdeal.HeadBlocks

end
-- ==== Proof.HeadFold.lean ====
/-
  The streaming kernel's three result arrays, for real inputs, as partial sums over a core's 25 tiles.

  By induction on the grid point: after step k of core c' the running outputs of row r are a real shift M, the sum over
  the core's tiles so far of exp(score - M), and the same sum weighted by the values. The first step starts from
  (bottom, 0, 0): exp(bottom - M) = 0 kills the old state. A later step rescales by exp(M_old - M_new) and adds its tile.
  The shift itself is never identified: only that it is a real number.
-/
import proofs.«407580_j16338055594570_3_alg».proof.Proof.Gen.KernelIdeal.Frame
import proofs.«407580_j16338055594570_3_alg».proof.Proof.Spec
import proofs.«407580_j16338055594570_3_alg».proof.Proof.Consts
import proofs.«407580_j16338055594570_3_alg».proof.Proof.LibEReal
import proofs.«407580_j16338055594570_3_alg».proof.Proof.HeadStep
import proofs.«407580_j16338055594570_3_alg».proof.Proof.LibSoftmax
import proofs.«407580_j16338055594570_3_alg».proof.Proof.HeadTile
import proofs.«407580_j16338055594570_3_alg».proof.Proof.HeadBlocks
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.HeadFold

open Idealize.ShloMosaic Idealize.ShloMosaic.TcCoe Idealize.SL.Sem Idealize.ShloMosaic.ValueIdx
open Idealize.ShloMosaic.Pipeline (Dat)
open Cert.KernelIdeal Cert.KernelIdeal.Gen Cert.LibSoftmax Cert.HeadStep

/-! ## One tile on real data: the update of the state is the real recurrence -/

section Tile

open Cert.LibEReal

/-- A fold of max from bottom over a nonempty finite family of real numbers is a real number. -/
theorem fold_max_coe {ι : Type*} (S : Finset ι) (g : ι → ℝ) (hS : S.Nonempty) :
    ∃ Mt : ℝ, S.fold max (⊥ : EReal) (fun i => ((g i : ℝ) : EReal)) = (Mt : EReal) := by
  classical
  induction S using Finset.induction_on with
  | empty => exact absurd hS Finset.not_nonempty_empty
  | insert a S ha ih =>
    rw [Finset.fold_insert ha]
    rcases S.eq_empty_or_nonempty with rfl | hne
    · exact ⟨g a, by rw [Finset.fold_empty, max_comm, max_bot_coe]⟩
    · obtain ⟨Mt, hMt⟩ := ih hne
      exact ⟨max (g a) Mt, by rw [hMt, max_coe_coe]⟩

variable (x0 : A2 1024 256) (x1 : A2 2000 256) (x2 x3 : A3 1 1 2000)

/-- The score of a slot, for real data with the features held doubled: twice the inner product of the features with the
    key, less the key's square norm. -/
theorem sc_real (f : Fin 1024 → Fin 256 → ℝ) (K : Fin 2000 → Fin 256 → ℝ) (r : Fin 1024) (i : Fin 2000)
    (h0 : ∀ d : Fin 256, x0 (ix2 r d) = ((2 * f r d : ℝ) : EReal))
    (h1 : ∀ d : Fin 256, x1 (ix2 i d) = ((K i d : ℝ) : EReal))
    (h2 : x2 (ix3 (0 : Fin 1) (0 : Fin 1) i) = ((∑ d : Fin 256, K i d * K i d : ℝ) : EReal)) :
    sc x0 x1 x2 r i = ((2 * (∑ d : Fin 256, f r d * K i d) - ∑ d : Fin 256, K i d * K i d : ℝ) : EReal) := by
  unfold sc
  rw [h2]
  have e : (∑ d : Fin 256, x0 (ix2 r d) * x1 (ix2 i d)) = ((2 * (∑ d : Fin 256, f r d * K i d) : ℝ) : EReal) := by
    rw [Finset.mul_sum, coe_sum]
    refine Finset.sum_congr rfl fun d _ => ?_
    rw [h0 d, h1 d, ← EReal.coe_mul, mul_assoc]
  rw [e, ← EReal.coe_sub]

variable (s w : Fin 100000 → ℝ) (b : ℕ) (r : Fin 1024)

/-- The tile's largest score is a real number when the scores are. -/
theorem tileMax_real (hs : ∀ i : Fin 2000, sc x0 x1 x2 r i = ((s (slot b i) : ℝ) : EReal)) :
    ∃ Mt : ℝ, tileMax x0 x1 x2 r = (Mt : EReal) := by
  unfold tileMax
  rw [show (fun i => sc x0 x1 x2 r i) = fun i => ((s (slot b i) : ℝ) : EReal) from funext hs]
  exact fold_max_coe _ _ ⟨⟨0, by norm_num⟩, Finset.mem_univ _⟩

/-- The tile's weights exp(score - M'), summed, for real scores. -/
theorem sum_exp_coe (hs : ∀ i : Fin 2000, sc x0 x1 x2 r i = ((s (slot b i) : ℝ) : EReal)) (M' : ℝ) :
    (∑ i : Fin 2000, Ideal.exp (sc x0 x1 x2 r i - (M' : EReal)))
      = ((∑ i : Fin 2000, Real.exp (s (slot b i) - M') : ℝ) : EReal) := by
  rw [coe_sum]
  exact Finset.sum_congr rfl fun i _ => by rw [hs i, ← EReal.coe_sub, Ideal.exp_coe]

/-- The tile's weighted values exp(score - M') v, summed, for real scores and values. -/
theorem sum_exp_mul_coe (hs : ∀ i : Fin 2000, sc x0 x1 x2 r i = ((s (slot b i) : ℝ) : EReal))
    (hw : ∀ i : Fin 2000, x3 (ix3 (0 : Fin 1) (0 : Fin 1) i) = ((w (slot b i) : ℝ) : EReal)) (M' : ℝ) :
    (∑ i : Fin 2000, Ideal.exp (sc x0 x1 x2 r i - (M' : EReal)) * x3 (ix3 (0 : Fin 1) (0 : Fin 1) i))
      = ((∑ i : Fin 2000, Real.exp (s (slot b i) - M') * w (slot b i) : ℝ) : EReal) := by
  rw [coe_sum]
  exact Finset.sum_congr rfl fun i _ => by rw [hs i, hw i, ← EReal.coe_sub, Ideal.exp_coe, EReal.coe_mul]

/-- A later tile, from a real state (Mo, partial sums over tiles a .. b-1 at shift Mo): the new shift M' is real and
    the two sums become the partial sums over tiles a .. b at shift M'. -/
theorem step_later (a : ℕ) (hab : a ≤ b)
    (hs : ∀ i : Fin 2000, sc x0 x1 x2 r i = ((s (slot b i) : ℝ) : EReal))
    (hw : ∀ i : Fin 2000, x3 (ix3 (0 : Fin 1) (0 : Fin 1) i) = ((w (slot b i) : ℝ) : EReal))
    (mo lo ao : EReal) (Mo : ℝ) (hm : mo = (Mo : EReal))
    (hl : lo = ((part s (fun _ => 1) a b Mo : ℝ) : EReal)) (ha : ao = ((part s w a b Mo : ℝ) : EReal)) :
    ∃ M' : ℝ, upM x0 x1 x2 mo r = (M' : EReal)
      ∧ upL x0 x1 x2 mo lo r = ((part s (fun _ => 1) a (b + 1) M' : ℝ) : EReal)
      ∧ upA x0 x1 x2 x3 mo ao r = ((part s w a (b + 1) M' : ℝ) : EReal) := by
  subst hm hl ha
  obtain ⟨Mt, hMt⟩ := tileMax_real x0 x1 x2 s b r hs
  have hM : upM x0 x1 x2 (Mo : EReal) r = ((max Mo Mt : ℝ) : EReal) := by
    unfold upM; rw [hMt, max_coe_coe]
  refine ⟨max Mo Mt, hM, ?_, ?_⟩
  · have h1 := part_step s (fun _ => 1) a b hab Mo (max Mo Mt)
    simp only [mul_one] at h1
    unfold upL
    rw [hM, sum_exp_coe x0 x1 x2 s b r hs, ← EReal.coe_sub, Ideal.exp_coe, ← EReal.coe_mul, ← EReal.coe_add, h1]
  · unfold upA
    rw [hM, sum_exp_mul_coe x0 x1 x2 x3 s w b r hs hw, ← EReal.coe_sub, Ideal.exp_coe, ← EReal.coe_mul, ← EReal.coe_add,
      part_step s w a b hab Mo (max Mo Mt)]

/-- A core's first tile, from the state (bottom, 0, 0): exp(bottom - M') = 0 kills the old state, the new shift M' is the
    tile's largest score, a real, and the two sums are the tile's own. -/
theorem step_first
    (hs : ∀ i : Fin 2000, sc x0 x1 x2 r i = ((s (slot b i) : ℝ) : EReal))
    (hw : ∀ i : Fin 2000, x3 (ix3 (0 : Fin 1) (0 : Fin 1) i) = ((w (slot b i) : ℝ) : EReal)) :
    ∃ M' : ℝ, upM x0 x1 x2 ⊥ r = (M' : EReal)
      ∧ upL x0 x1 x2 ⊥ 0 r = ((part s (fun _ => 1) b (b + 1) M' : ℝ) : EReal)
      ∧ upA x0 x1 x2 x3 ⊥ 0 r = ((part s w b (b + 1) M' : ℝ) : EReal) := by
  obtain ⟨Mt, hMt⟩ := tileMax_real x0 x1 x2 s b r hs
  have hM : upM x0 x1 x2 ⊥ r = ((Mt : ℝ) : EReal) := by
    unfold upM; rw [hMt, max_bot_coe]
  refine ⟨Mt, hM, ?_, ?_⟩
  · have h1 := part_first s (fun _ => 1) b Mt
    simp only [mul_one] at h1
    unfold upL
    rw [hM, sum_exp_coe x0 x1 x2 s b r hs, bot_sub_coe, Ideal.exp_bot, zero_mul, zero_add, h1]
  · unfold upA
    rw [hM, sum_exp_mul_coe x0 x1 x2 x3 s w b r hs hw, bot_sub_coe, Ideal.exp_bot, zero_mul, zero_add, part_first s w b Mt]

end Tile

/-! ## The grid points -/

variable (V : (c : Dev nD) → (b : Ref sig .tc) → Buf (Elt Ideal) ((c : Thread nD τ).loc b)) (c : Dev nD)

section Points

/-- The four input blocks of grid point t: the features, the tile's keys, its key square norms and its values. -/
abbrev b0 (t : Fin cfg1.N) : Vec Ideal S1024x256 .bf16 := iblk1 V c 0 t
abbrev b1 (t : Fin cfg1.N) : Vec Ideal S2000x256 .bf16 := iblk1 V c 1 t
abbrev b2 (t : Fin cfg1.N) : Vec Ideal S1x1x2000 .f32 := iblk1 V c 2 t
abbrev b3 (t : Fin cfg1.N) : Vec Ideal S1x1x2000 .f32 := iblk1 V c 3 t

/-- The four input arrays are real: the features f held doubled, the keys, their square norms, the values. -/
structure RealIn (I : Cert.Spec.Inputs) (f : Fin 1024 → Fin 256 → ℝ) : Prop where
  phi : ∀ (r : Fin 1024) (d : Fin 256), V c main_v2 (ix2 r d) = ((2 * f r d : ℝ) : EReal)
  keys : ∀ (j : Fin 100000) (d : Fin 256), V c main_v6 (ix2 j d) = ((I.keys j d : ℝ) : EReal)
  ksq : ∀ (T : Fin 50) (i : Fin 2000), V c main_v5 (ix3 T (0 : Fin 1) i)
      = ((∑ d : Fin 256, I.keys (slot T.val i) d * I.keys (slot T.val i) d : ℝ) : EReal)
  vals : ∀ (T : Fin 50) (i : Fin 2000), V c main_v8 (ix3 T (0 : Fin 1) i) = ((I.vals (slot T.val i) : ℝ) : EReal)

/-- The state of row r after grid point n: a real shift Mk and the two partial sums, over the tiles of n's core up to n,
    relative to it. -/
def Inv (I : Cert.Spec.Inputs) (f : Fin 1024 → Fin 256 → ℝ) (n : ℕ) (hn : n < cfg1.N) (r : Fin 1024) (Mk : ℝ) : Prop :=
  ((outsAt1 V c n hn).1 : Vec Ideal S1x1024x1 .f32) (ix3 (0 : Fin 1) r (0 : Fin 1)) = ((Mk : ℝ) : EReal)
  ∧ ((outsAt1 V c n hn).2.1 : Vec Ideal S1x1024x1 .f32) (ix3 (0 : Fin 1) r (0 : Fin 1))
      = ((part (Cert.Spec.score I f r) (fun _ => 1) (25 * (n / 25)) (n + 1) Mk : ℝ) : EReal)
  ∧ ((outsAt1 V c n hn).2.2 : Vec Ideal S1x1024x1 .f32) (ix3 (0 : Fin 1) r (0 : Fin 1))
      = ((part (Cert.Spec.score I f r) I.vals (25 * (n / 25)) (n + 1) Mk : ℝ) : EReal)

variable {V c} {I : Cert.Spec.Inputs} {f : Fin 1024 → Fin 256 → ℝ} (H : RealIn V c I f)
include H

/-- At grid point t the score of slot i of the tile, for row r, is the real score of memory slot 2000 t + i. -/
theorem blk_sc (t : Fin cfg1.N) (r : Fin 1024) (i : Fin 2000) :
    sc (b0 V c t) (b1 V c t) (b2 V c t) r i = ((Cert.Spec.score I f r (slot t.val i) : ℝ) : EReal) :=
  sc_real (b0 V c t) (b1 V c t) (b2 V c t) f (fun i d => I.keys (slot t.val i) d) r i
    (fun d => (HeadBlocks.blk_phi V c t r d).trans (H.phi r d))
    (fun d => (HeadBlocks.blk_keys V c t i d).trans (H.keys (slot t.val i) d))
    ((HeadBlocks.blk_ksq V c t i).trans (H.ksq ⟨t.val, HeadBlocks.point_lt t⟩ i))

/-- At grid point t the value of slot i of the tile is the real value of memory slot 2000 t + i. -/
theorem blk_w (t : Fin cfg1.N) (i : Fin 2000) :
    (b3 V c t) (ix3 (0 : Fin 1) (0 : Fin 1) i) = ((I.vals (slot t.val i) : ℝ) : EReal) :=
  (HeadBlocks.blk_vals V c t i).trans (H.vals ⟨t.val, HeadBlocks.point_lt t⟩ i)

/-- A core's first point: the state is the first tile's own. -/
theorem inv_A (t : Fin cfg1.N) (h0 : t.val % 25 = 0) (r : Fin 1024) : ∃ Mk : ℝ, Inv V c I f t.val t.isLt r Mk := by
  obtain ⟨M', e1, e2, e3⟩ := step_first (b0 V c t) (b1 V c t) (b2 V c t) (b3 V c t) (Cert.Spec.score I f r) I.vals t.val r
    (blk_sc H t r) (blk_w H t)
  have ha : 25 * (t.val / 25) = t.val := by omega
  refine ⟨M', ?_⟩
  unfold Inv
  rw [outsAt1_A V c t h0, ha]
  dsimp only
  exact ⟨(HeadTile.first_m c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) ((hcond1_0 t).mpr h0) r).trans e1,
    (HeadTile.first_l c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) ((hcond1_0 t).mpr h0) r).trans e2,
    (HeadTile.first_a c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) ((hcond1_0 t).mpr h0) r).trans e3⟩

/-- A later point of a core: the state after the point before, rescaled to the new shift, plus the point's tile. -/
theorem inv_B (t : Fin cfg1.N) (hB : ¬t.val % 25 = 0)
    (ih : ∀ r : Fin 1024, ∃ Mk : ℝ, Inv V c I f (t.val - 1) (Nat.lt_of_le_of_lt (Nat.sub_le _ _) t.isLt) r Mk)
    (r : Fin 1024) : ∃ Mk : ℝ, Inv V c I f t.val t.isLt r Mk := by
  obtain ⟨Mo, i1, i2, i3⟩ := ih r
  have ha : 25 * ((t.val - 1) / 25) = 25 * (t.val / 25) := by omega
  have hb : t.val - 1 + 1 = t.val := by omega
  rw [ha, hb] at i2 i3
  obtain ⟨M', e1, e2, e3⟩ := step_later (b0 V c t) (b1 V c t) (b2 V c t) (b3 V c t) (Cert.Spec.score I f r) I.vals t.val r
    (25 * (t.val / 25)) (by omega) (blk_sc H t r) (blk_w H t) _ _ _ Mo i1 i2 i3
  refine ⟨M', ?_⟩
  unfold Inv
  rw [outsAt1_B V c t hB]
  dsimp only
  exact ⟨(HeadTile.later_m c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) (fun h => hB ((hcond1_0 t).mp h))
      (outsAt1 V c (t.val - 1) (Nat.lt_of_le_of_lt (Nat.sub_le _ _) t.isLt)).1
      (outsAt1 V c (t.val - 1) (Nat.lt_of_le_of_lt (Nat.sub_le _ _) t.isLt)).2.1
      (outsAt1 V c (t.val - 1) (Nat.lt_of_le_of_lt (Nat.sub_le _ _) t.isLt)).2.2 r).trans e1,
    (HeadTile.later_l c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) (fun h => hB ((hcond1_0 t).mp h))
      (outsAt1 V c (t.val - 1) (Nat.lt_of_le_of_lt (Nat.sub_le _ _) t.isLt)).1
      (outsAt1 V c (t.val - 1) (Nat.lt_of_le_of_lt (Nat.sub_le _ _) t.isLt)).2.1
      (outsAt1 V c (t.val - 1) (Nat.lt_of_le_of_lt (Nat.sub_le _ _) t.isLt)).2.2 r).trans e2,
    (HeadTile.later_a c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (b0 V c t) (b1 V c t) (b2 V c t) (b3 V c t) (fun h => hB ((hcond1_0 t).mp h))
      (outsAt1 V c (t.val - 1) (Nat.lt_of_le_of_lt (Nat.sub_le _ _) t.isLt)).1
      (outsAt1 V c (t.val - 1) (Nat.lt_of_le_of_lt (Nat.sub_le _ _) t.isLt)).2.1
      (outsAt1 V c (t.val - 1) (Nat.lt_of_le_of_lt (Nat.sub_le _ _) t.isLt)).2.2 r).trans e3⟩

/-- The invariant at every grid point, by induction on the point. -/
theorem inv : ∀ (n : ℕ) (hn : n < cfg1.N) (r : Fin 1024), ∃ Mk : ℝ, Inv V c I f n hn r Mk
  | 0, hn, r => inv_A H ⟨0, hn⟩ rfl r
  | n + 1, hn, r => by
    by_cases h0 : (n + 1) % 25 = 0
    · exact inv_A H ⟨n + 1, hn⟩ h0 r
    · exact inv_B H ⟨n + 1, hn⟩ h0 (fun r' => inv n (Nat.lt_of_succ_lt hn) r') r

end Points

/-- For real features f (held doubled), real keys, their square norms and real values, row c' of the three result arrays
    holds a real shift M c' r and the two partial sums of core c' relative to it. -/
theorem fold (I : Cert.Spec.Inputs) (f : Fin 1024 → Fin 256 → ℝ)
    (hphi : ∀ (r : Fin 1024) (d : Fin 256), V c main_v2 (ix2 r d) = ((2 * f r d : ℝ) : EReal))
    (hkeys : ∀ (j : Fin 100000) (d : Fin 256), V c main_v6 (ix2 j d) = ((I.keys j d : ℝ) : EReal))
    (hksq : ∀ (T : Fin 50) (i : Fin 2000), V c main_v5 (ix3 T (0 : Fin 1) i)
      = ((∑ d : Fin 256, I.keys (slot T.val i) d * I.keys (slot T.val i) d : ℝ) : EReal))
    (hvals : ∀ (T : Fin 50) (i : Fin 2000), V c main_v8 (ix3 T (0 : Fin 1) i) = ((I.vals (slot T.val i) : ℝ) : EReal)) :
    ∃ M : Fin 2 → Fin 1024 → ℝ, ∀ (c' : Fin 2) (r : Fin 1024),
      ((dat1 V c).arrAt 4 cfg1.N : Vec Ideal S2x1024x1 .f32) (ix3 c' r (0 : Fin 1)) = ((M c' r : ℝ) : EReal)
      ∧ ((dat1 V c).arrAt 5 cfg1.N : Vec Ideal S2x1024x1 .f32) (ix3 c' r (0 : Fin 1))
          = ((part (Cert.Spec.score I f r) (fun _ => 1) (25 * c'.val) (25 * c'.val + 25) (M c' r) : ℝ) : EReal)
      ∧ ((dat1 V c).arrAt 6 cfg1.N : Vec Ideal S2x1024x1 .f32) (ix3 c' r (0 : Fin 1))
          = ((part (Cert.Spec.score I f r) I.vals (25 * c'.val) (25 * c'.val + 25) (M c' r) : ℝ) : EReal) := by
  have H : RealIn V c I f := ⟨hphi, hkeys, hksq, hvals⟩
  have hN : cfg1.N = 50 := N_1
  have hlt : ∀ c' : Fin 2, 25 * c'.val + 24 < cfg1.N := fun c' => by rw [hN]; have := c'.isLt; omega
  choose M hM using fun (c' : Fin 2) (r : Fin 1024) => inv H (25 * c'.val + 24) (hlt c') r
  refine ⟨M, fun c' r => ?_⟩
  obtain ⟨e1, e2, e3⟩ := hM c' r
  have ha : 25 * ((25 * c'.val + 24) / 25) = 25 * c'.val := by omega
  have hb : 25 * c'.val + 24 + 1 = 25 * c'.val + 25 := by omega
  rw [ha, hb] at e2 e3
  exact ⟨(HeadBlocks.final_m V c c' r (hlt c')).trans e1, (HeadBlocks.final_l V c c' r (hlt c')).trans e2,
    (HeadBlocks.final_a V c c' r (hlt c')).trans e3⟩

end Cert.KernelIdeal.HeadFold

end
-- ==== Proof.KernelHost.lean ====
/-
  The kernel program's host operations read at an index: the two row slices of W that feed the first kernel; the key
  norms (row sums of squares, reshaped to 50 rows of 2000), the keys themselves and the values (reshaped likewise) that
  feed the second. Last, the merge of the two cores' partial states is defined: with mm the larger shift, the weights
  exp(m_c - mm) combine the sums and the weighted sums, and the result is their quotient.
-/
import proofs.«407580_j16338055594570_3_alg».proof.Proof.Gen.KernelIdeal.Frame
import proofs.«407580_j16338055594570_3_alg».proof.Proof.Consts
import proofs.«407580_j16338055594570_3_alg».proof.Proof.LibEReal
import proofs.«407580_j16338055594570_3_alg».proof.Proof.LibSoftmax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.LibSoftmax

variable (m : (ℓ : Loc nD τ sig) → Buf (Elt Ideal) ℓ) (ρ : Dev nD → PrngReg) (c : Dev nD)

/-! ## What the first kernel is entered with -/

theorem V1_obs : V1 m ρ c main_arg0 = m ((c : Thread nD τ).loc main_arg0) := by
  show StableHlo.after hostOps0 (W0 m ρ c) (Proc.devRef .tc main_arg0) = _
  after_results
theorem V1_act : V1 m ρ c main_arg1 = m ((c : Thread nD τ).loc main_arg1) := by
  show StableHlo.after hostOps0 (W0 m ρ c) (Proc.devRef .tc main_arg1) = _
  after_results
theorem V1_b : V1 m ρ c main_arg3 = m ((c : Thread nD τ).loc main_arg3) := by
  show StableHlo.after hostOps0 (W0 m ρ c) (Proc.devRef .tc main_arg3) = _
  after_results
theorem V1_gamma : V1 m ρ c main_arg4 = m ((c : Thread nD τ).loc main_arg4) := by
  show StableHlo.after hostOps0 (W0 m ρ c) (Proc.devRef .tc main_arg4) = _
  after_results
theorem V1_beta : V1 m ρ c main_arg5 = m ((c : Thread nD τ).loc main_arg5) := by
  show StableHlo.after hostOps0 (W0 m ρ c) (Proc.devRef .tc main_arg5) = _
  after_results
/-- The top 64 rows of W. -/
theorem V1_wobs (k : Fin 64) (d : Fin 256) :
    V1 m ρ c main_v0 (ix2 k d) = m ((c : Thread nD τ).loc main_arg2) (ix2 (⟨k.val, lt_of_lt_of_le k.isLt (by norm_num)⟩ : Fin 76) d) := by
  have e : (V1 m ρ c main_v0 : S64x256.Idx → EReal)
      = extractStridedSlice S64x256 ![0, 0] (m ((c : Thread nD τ).loc main_arg2)) slices_S76x256_S64x256_0_0 := by
    show StableHlo.after hostOps0 (W0 m ρ c) (Proc.devRef .tc main_v0) = _
    after_results
  rw [e]
  exact slice2_axis0_apply 0 _ _ k d _ (by simp)
/-- The bottom 12 rows of W. -/
theorem V1_wact (k : Fin 12) (d : Fin 256) :
    V1 m ρ c main_v1 (ix2 k d) = m ((c : Thread nD τ).loc main_arg2) (ix2 (⟨64 + k.val, by have := k.isLt; omega⟩ : Fin 76) d) := by
  have e : (V1 m ρ c main_v1 : S12x256.Idx → EReal)
      = extractStridedSlice S12x256 ![64, 0] (m ((c : Thread nD τ).loc main_arg2)) slices_S76x256_S12x256_64_0 := by
    show StableHlo.after hostOps0 (W0 m ρ c) (Proc.devRef .tc main_v1) = _
    after_results
  rw [e]
  exact slice2_axis0_apply 64 _ _ k d _ rfl

/-! ## What the second kernel is entered with -/

/-- The key bank and the values are as launched when the second kernel is entered: nothing before it writes them. -/
theorem W2_keys : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
theorem W2_vals : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-- Position 2000 T + i of a flat array of 100000 is entry (T, 0, i) of the same array cut into 50 rows of 2000. -/
theorem rowMajor_slot (T : Fin 50) (i : Fin 2000) :
    (S100000.rowMajor (ix1 (slot T.val i))).val = (S50x1x2000.rowMajor (ix3 T (0 : Fin 1) i)).val := by
  have hs := slot_val T.val T.isLt i
  rw [Shape.rowMajor_val_one, Shape.rowMajor_val_three]
  show (slot T.val i).val = (T.val * 1 + 0) * 2000 + i.val
  omega

/-- The features are what the first kernel left. -/
theorem V3_phi : V3 m ρ c main_v2 = (dat0 (V1 m ρ) c).arrAt 7 cfg0.N := by
  show StableHlo.after hostOps1 (W2 m ρ c) (Proc.devRef .tc main_v2) = _
  after_results
  exact W2_arr m ρ c 7

theorem V3_keys (j : Fin 100000) (d : Fin 256) :
    V3 m ρ c main_v6 (ix2 j d) = m ((c : Thread nD τ).loc main_arg6) (ix2 j d) := by
  have e : (V3 m ρ c main_v6 : S100000x256.Idx → EReal)
      = truncf (F := Ideal) .bf16 (W2 m ρ c (Proc.devRef .tc main_arg6)) bitsLt_bf16_f32 := by
    show StableHlo.after hostOps1 (W2 m ρ c) (Proc.devRef .tc main_v6) = _
    after_results
  rw [e, truncf_apply, W2_keys]

/-- The key bank as launched, as an array of extended reals. -/
abbrev keysArr : (⟨2, ![100000, 256]⟩ : Shape).Idx → EReal := m ((c : Thread nD τ).loc main_arg6)

/-- Row T, lane i of the key norms: the sum of squares of key row 2000 T + i. -/
theorem V3_ksq (T : Fin 50) (i : Fin 2000) :
    V3 m ρ c main_v5 (ix3 T (0 : Fin 1) i)
      = 0 + ∑ d : Fin 256, keysArr m c (ix2 (slot T.val i) d) * keysArr m c (ix2 (slot T.val i) d) := by
  have e : (V3 m ρ c main_v5 : S50x1x2000.Idx → EReal)
      = shapeCast S50x1x2000
          (Host.reduceAdd (F := Ideal)
            (mulf (F := Ideal) (W2 m ρ c (Proc.devRef .tc main_arg6)) (W2 m ρ c (Proc.devRef .tc main_arg6)) : FVec Ideal S100000x256 .f32)
            (constant (F := Ideal) S_ .f32 0x00000000#32) reducesTo_S100000x256_S100000_d1 h_S_)
          shapeCasts_S100000_S50x1x2000 := by
    show StableHlo.after hostOps1 (W2 m ρ c) (Proc.devRef .tc main_v5) = _
    after_results
    rfl
  have hR : S100000x256.Reduces [1] S100000 := by decide
  have hl : ∀ d : Fin 256, hR.lift (ix1 (slot T.val i)) d = ix2 (slot T.val i) d := by
    intro d
    funext a
    match a with
    | ⟨0, _⟩ => exact Fin.ext rfl
    | ⟨1, _⟩ => exact Fin.ext rfl
  rw [e, W2_keys]
  refine (shapeCast_apply _ _ (ix3 T (0 : Fin 1) i) (ix1 (slot T.val i)) (rowMajor_slot T i)).trans ?_
  refine (Ideal.hostReduceAdd_single reducesTo_S100000x256_S100000_d1 hR _ _ _).trans ?_
  refine congrArg₂ (· + ·) Ideal.ofBits_zero_f32 (Finset.sum_congr rfl fun d _ => ?_)
  rw [mulf_apply, hl d]

theorem V3_vals (T : Fin 50) (i : Fin 2000) :
    V3 m ρ c main_v8 (ix3 T (0 : Fin 1) i) = m ((c : Thread nD τ).loc main_arg7) (ix2 (slot T.val i) (0 : Fin 1)) := by
  have e : (V3 m ρ c main_v8 : S50x1x2000.Idx → EReal)
      = shapeCast S50x1x2000 (shapeCast S100000 (W2 m ρ c (Proc.devRef .tc main_arg7)) shapeCasts_S100000x1_S100000)
          shapeCasts_S100000_S50x1x2000 := by
    show StableHlo.after hostOps1 (W2 m ρ c) (Proc.devRef .tc main_v8) = _
    after_results
    rfl
  rw [e, W2_vals]
  refine (shapeCast_apply _ _ (ix3 T (0 : Fin 1) i) (ix1 (slot T.val i)) (rowMajor_slot T i)).trans ?_
  refine shapeCast_apply _ _ (ix1 (slot T.val i)) (ix2 (slot T.val i) (0 : Fin 1)) ?_
  rw [Shape.rowMajor_val_one, Shape.rowMajor_val_two]
  show (slot T.val i).val * 1 + 0 = (slot T.val i).val
  omega

/-! ## The merge of the two cores' states -/

/-- The three result arrays of the second kernel, as arrays of extended reals. -/
abbrev outM : (⟨3, ![2, 1024, 1]⟩ : Shape).Idx → EReal := (dat1 (V3 m ρ) c).arrAt 4 cfg1.N
abbrev outL : (⟨3, ![2, 1024, 1]⟩ : Shape).Idx → EReal := (dat1 (V3 m ρ) c).arrAt 5 cfg1.N
abbrev outA : (⟨3, ![2, 1024, 1]⟩ : Shape).Idx → EReal := (dat1 (V3 m ρ) c).arrAt 6 cfg1.N

/-- The merge at row r of two partial states (shift, sum of weights, weighted sum), one per core: both are brought to
    the larger shift and the weighted sums' total is divided by the weights' total. -/
def mergeQ (M L A : (⟨3, ![2, 1024, 1]⟩ : Shape).Idx → EReal) (r : Fin 1024) : EReal :=
  Ideal.div
    (Ideal.exp (M (ix3 (0 : Fin 2) r (0 : Fin 1)) - max (M (ix3 (0 : Fin 2) r (0 : Fin 1))) (M (ix3 (1 : Fin 2) r (0 : Fin 1))))
        * A (ix3 (0 : Fin 2) r (0 : Fin 1))
      + Ideal.exp (M (ix3 (1 : Fin 2) r (0 : Fin 1)) - max (M (ix3 (0 : Fin 2) r (0 : Fin 1))) (M (ix3 (1 : Fin 2) r (0 : Fin 1))))
        * A (ix3 (1 : Fin 2) r (0 : Fin 1)))
    (Ideal.exp (M (ix3 (0 : Fin 2) r (0 : Fin 1)) - max (M (ix3 (0 : Fin 2) r (0 : Fin 1))) (M (ix3 (1 : Fin 2) r (0 : Fin 1))))
        * L (ix3 (0 : Fin 2) r (0 : Fin 1))
      + Ideal.exp (M (ix3 (1 : Fin 2) r (0 : Fin 1)) - max (M (ix3 (0 : Fin 2) r (0 : Fin 1))) (M (ix3 (1 : Fin 2) r (0 : Fin 1))))
        * L (ix3 (1 : Fin 2) r (0 : Fin 1)))

end Cert.KernelIdeal.Host

end
-- ==== Proof.KernelTail.lean ====
/-
  The merge of the two cores' partial states by the last host stretch. Each of the three two-row result arrays
  (shifts M, sums of weights L, weighted sums A) is cut into its two rows, each row reshaped to a column; with
  mm = max (m0, m1) and weights w0 = exp (m0 - mm), w1 = exp (m1 - mm), the result is
  (w0 * a0 + w1 * a1) / (w0 * l0 + w1 * l1), elementwise. Read at row r, that is the merge of the two states at row r.
-/
import proofs.«407580_j16338055594570_3_alg».proof.Proof.Gen.KernelIdeal.Frame
import proofs.«407580_j16338055594570_3_alg».proof.Proof.KernelHost
import proofs.«407580_j16338055594570_3_alg».proof.Proof.Consts
import proofs.«407580_j16338055594570_3_alg».proof.Proof.LibEReal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

open scoped BigOperators

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen

/-- A rank-3 array cut along its first axis from o reads, at (j, b, e), the source at (k, b, e) with k = o + j. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row 0 of a two-row array, as a one-row array reshaped to a column. -/
theorem row0_apply (X : (⟨3, ![2, 1024, 1]⟩ : Shape).Idx → EReal) (h) (h') (r : Fin 1024) :
    shapeCast S1024x1 (extractStridedSlice S1x1024x1 ![0, 0, 0] X h) h' (ix2 r (0 : Fin 1)) = X (ix3 (0 : Fin 2) r (0 : Fin 1)) := by
  rw [shapeCast_1ab_ab_apply]
  exact slice3_axis0_apply 0 X h (0 : Fin 1) r (0 : Fin 1) (0 : Fin 2) rfl

/-- Row 1 of a two-row array, as a one-row array reshaped to a column. -/
theorem row1_apply (X : (⟨3, ![2, 1024, 1]⟩ : Shape).Idx → EReal) (h) (h') (r : Fin 1024) :
    shapeCast S1024x1 (extractStridedSlice S1x1024x1 ![1, 0, 0] X h) h' (ix2 r (0 : Fin 1)) = X (ix3 (1 : Fin 2) r (0 : Fin 1)) := by
  rw [shapeCast_1ab_ab_apply]
  exact slice3_axis0_apply 1 X h (0 : Fin 1) r (0 : Fin 1) (1 : Fin 2) rfl

/-- The last host stretch as one function of the three two-row result arrays M (shifts), L (sums of weights) and
    A (weighted sums): with m0, m1, l0, l1, a0, a1 their rows as columns and mm = max m0 m1, it is
    (exp (m0 - mm) * a0 + exp (m1 - mm) * a1) / (exp (m0 - mm) * l0 + exp (m1 - mm) * l1), elementwise. -/
def tailQ (M L A : FVec Ideal S2x1024x1 .f32) : FVec Ideal S1024x1 .f32 :=
  let m0 : FVec Ideal S1024x1 .f32 := shapeCast S1024x1 (extractStridedSlice S1x1024x1 ![0, 0, 0] M slices_S2x1024x1_S1x1024x1_0_0_0) shapeCasts_S1x1024x1_S1024x1
  let m1 : FVec Ideal S1024x1 .f32 := shapeCast S1024x1 (extractStridedSlice S1x1024x1 ![1, 0, 0] M slices_S2x1024x1_S1x1024x1_1_0_0) shapeCasts_S1x1024x1_S1024x1
  let l0 : FVec Ideal S1024x1 .f32 := shapeCast S1024x1 (extractStridedSlice S1x1024x1 ![0, 0, 0] L slices_S2x1024x1_S1x1024x1_0_0_0) shapeCasts_S1x1024x1_S1024x1
  let l1 : FVec Ideal S1024x1 .f32 := shapeCast S1024x1 (extractStridedSlice S1x1024x1 ![1, 0, 0] L slices_S2x1024x1_S1x1024x1_1_0_0) shapeCasts_S1x1024x1_S1024x1
  let a0 : FVec Ideal S1024x1 .f32 := shapeCast S1024x1 (extractStridedSlice S1x1024x1 ![0, 0, 0] A slices_S2x1024x1_S1x1024x1_0_0_0) shapeCasts_S1x1024x1_S1024x1
  let a1 : FVec Ideal S1024x1 .f32 := shapeCast S1024x1 (extractStridedSlice S1x1024x1 ![1, 0, 0] A slices_S2x1024x1_S1x1024x1_1_0_0) shapeCasts_S1x1024x1_S1024x1
  let mm : FVec Ideal S1024x1 .f32 := maximumf m0 m1
  let w0 : FVec Ideal S1024x1 .f32 := Host.exp (subf m0 mm)
  let w1 : FVec Ideal S1024x1 .f32 := Host.exp (subf m1 mm)
  Host.divf (addf (mulf w0 a0) (mulf w1 a1)) (addf (mulf w0 l0) (mulf w1 l1))

/-- At row r that function is the merge of the two cores' states (shift, sum of weights, weighted sum) at row r. -/
theorem tailQ_apply (M L A : FVec Ideal S2x1024x1 .f32) (r : Fin 1024) :
    tailQ M L A (ix2 r (0 : Fin 1)) = Cert.KernelIdeal.Host.mergeQ M L A r := by
  unfold tailQ Cert.KernelIdeal.Host.mergeQ
  simp only [hostDivf_apply, addf_apply, mulf_apply, subf_apply, maximumf_apply, Host.exp, Ideal.hostUnary_exp_def,
    row0_apply, row1_apply]

/-- The program's result array is that function of the second kernel's three result arrays. -/
theorem W5_eq (m : (ℓ : Loc nD τ sig) → Buf (Elt Ideal) ℓ) (ρ : Dev nD → PrngReg) (c : Dev nD) :
    (W5 m ρ c (Proc.devRef .tc main_v33) : FVec Ideal S1024x1 .f32)
      = tailQ (Cert.KernelIdeal.Host.outM m ρ c) (Cert.KernelIdeal.Host.outL m ρ c) (Cert.KernelIdeal.Host.outA m ρ c) := by
  have h4 : W4 m ρ c (Proc.devRef .tc main_v9_0) = Cert.KernelIdeal.Host.outM m ρ c := W4_arr m ρ c 4
  have h5 : W4 m ρ c (Proc.devRef .tc main_v9_1) = Cert.KernelIdeal.Host.outL m ρ c := W4_arr m ρ c 5
  have h6 : W4 m ρ c (Proc.devRef .tc main_v9_2) = Cert.KernelIdeal.Host.outA m ρ c := W4_arr m ρ c 6
  show StableHlo.after hostOps2 (W4 m ρ c) (Proc.devRef .tc main_v33) = _
  dsimp only [hostOps2]
  after_results_simp
  rw [h4, h5, h6]
  rfl

theorem W5_result (m : (ℓ : Loc nD τ sig) → Buf (Elt Ideal) ℓ) (ρ : Dev nD → PrngReg) (c : Dev nD) (r : Fin 1024) :
    W5 m ρ c (Proc.devRef .tc main_v33) (ix2 r (0 : Fin 1))
      = Cert.KernelIdeal.Host.mergeQ (Cert.KernelIdeal.Host.outM m ρ c) (Cert.KernelIdeal.Host.outL m ρ c) (Cert.KernelIdeal.Host.outA m ρ c) r :=
  (congrFun (W5_eq m ρ c) (ix2 r (0 : Fin 1))).trans (tailQ_apply _ _ _ r)

end Cert.KernelIdeal.Tail

end
-- ==== Proof.KernelValue.lean ====
/-
  The kernel program's result, for real inputs, is the real weighted average Spec.Q.

  The first kernel leaves twice the features; the host stretch before the second kernel computes the keys' square norms
  and lays norms and values out in 50 rows of 2000; the second kernel leaves per core a shift and two partial sums
  relative to it; the last host stretch brings both cores to the larger shift and divides. Over the reals this is the
  weighted average at any shift, hence at shift zero.
-/
import proofs.«407580_j16338055594570_3_alg».proof.Proof.Gen.KernelIdeal.Frame
import proofs.«407580_j16338055594570_3_alg».proof.Proof.Spec
import proofs.«407580_j16338055594570_3_alg».proof.Proof.Consts
import proofs.«407580_j16338055594570_3_alg».proof.Proof.LibEReal
import proofs.«407580_j16338055594570_3_alg».proof.Proof.LibSoftmax
import proofs.«407580_j16338055594570_3_alg».proof.Proof.TrunkKernel
import proofs.«407580_j16338055594570_3_alg».proof.Proof.HeadFold
import proofs.«407580_j16338055594570_3_alg».proof.Proof.KernelHost
import proofs.«407580_j16338055594570_3_alg».proof.Proof.KernelTail
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.LibSoftmax

variable (m : (ℓ : Loc nD τ sig) → Buf (Elt Ideal) ℓ) (ρ : Dev nD → PrngReg) (c : Dev nD)

/-- The denominator of the merged quotient is a sum of exponentials over all slots: positive. -/
theorem merged_den_pos (s : Fin 100000 → ℝ) (M0 M1 : ℝ) :
    0 < Real.exp (M0 - max M0 M1) * part s (fun _ => 1) 0 25 M0 + Real.exp (M1 - max M0 M1) * part s (fun _ => 1) 25 50 M1 := by
  rw [part_rescale, part_rescale, part_merge]
  exact Finset.sum_pos (fun j _ => by positivity) ⟨⟨0, by norm_num⟩, Finset.mem_univ _⟩

theorem result_val (I : Cert.Spec.Inputs)
    (hA : Cert.Spec.Agrees I
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)))
    (r : Fin 1024) :
    W5 m ρ c (Proc.devRef .tc main_v33) (ix2 r (0 : Fin 1)) = ((Cert.Spec.Q I r : ℝ) : EReal) := by
  -- the features, doubled, as the second kernel finds them
  have hphi : ∀ (r : Fin 1024) (d : Fin 256), V3 m ρ c main_v2 (ix2 r d) = ((2 * Cert.Spec.phi I r d : ℝ) : EReal) := by
    intro r d
    rw [Cert.KernelIdeal.Host.V3_phi]
    exact Cert.KernelIdeal.Trunk.trunk_val (V1 m ρ) c I
      (fun r k => by rw [Cert.KernelIdeal.Host.V1_obs]; exact hA.obs r k)
      (fun r k => by rw [Cert.KernelIdeal.Host.V1_act]; exact hA.act r k)
      (fun k d => by rw [Cert.KernelIdeal.Host.V1_wobs]; exact hA.W _ d)
      (fun k d => by rw [Cert.KernelIdeal.Host.V1_wact]; exact hA.W _ d)
      (fun d => by rw [Cert.KernelIdeal.Host.V1_b]; exact hA.b d)
      (fun d => by rw [Cert.KernelIdeal.Host.V1_gamma]; exact hA.gamma d)
      (fun d => by rw [Cert.KernelIdeal.Host.V1_beta]; exact hA.beta d) r d
  have hkeys : ∀ (j : Fin 100000) (d : Fin 256), V3 m ρ c main_v6 (ix2 j d) = ((I.keys j d : ℝ) : EReal) := by
    intro j d
    rw [Cert.KernelIdeal.Host.V3_keys]; exact hA.keys j d
  have hksq : ∀ (T : Fin 50) (i : Fin 2000), V3 m ρ c main_v5 (ix3 T (0 : Fin 1) i)
      = ((∑ d : Fin 256, I.keys (slot T.val i) d * I.keys (slot T.val i) d : ℝ) : EReal) := by
    intro T i
    refine (Cert.KernelIdeal.Host.V3_ksq m ρ c T i).trans ?_
    show (0 : EReal) + ∑ d : Fin 256, Cert.KernelIdeal.Host.keysArr m c (ix2 (slot T.val i) d)
      * Cert.KernelIdeal.Host.keysArr m c (ix2 (slot T.val i) d) = _
    rw [zero_add, Cert.LibEReal.coe_sum]
    refine Finset.sum_congr rfl fun d _ => ?_
    have hk : Cert.KernelIdeal.Host.keysArr m c (ix2 (slot T.val i) d) = ((I.keys (slot T.val i) d : ℝ) : EReal) :=
      hA.keys _ d
    rw [hk, EReal.coe_mul]
  have hvals : ∀ (T : Fin 50) (i : Fin 2000), V3 m ρ c main_v8 (ix3 T (0 : Fin 1) i) = ((I.vals (slot T.val i) : ℝ) : EReal) := by
    intro T i
    rw [Cert.KernelIdeal.Host.V3_vals]; exact hA.vals _
  obtain ⟨M, hM⟩ := Cert.KernelIdeal.HeadFold.fold (V3 m ρ) c I (Cert.Spec.phi I) hphi hkeys hksq hvals
  have e0m : Cert.KernelIdeal.Host.outM m ρ c (ix3 (0 : Fin 2) r (0 : Fin 1)) = ((M 0 r : ℝ) : EReal) := (hM 0 r).1
  have e1m : Cert.KernelIdeal.Host.outM m ρ c (ix3 (1 : Fin 2) r (0 : Fin 1)) = ((M 1 r : ℝ) : EReal) := (hM 1 r).1
  have e0l : Cert.KernelIdeal.Host.outL m ρ c (ix3 (0 : Fin 2) r (0 : Fin 1))
      = ((part (Cert.Spec.score I (Cert.Spec.phi I) r) (fun _ => 1) 0 25 (M 0 r) : ℝ) : EReal) := (hM 0 r).2.1
  have e1l : Cert.KernelIdeal.Host.outL m ρ c (ix3 (1 : Fin 2) r (0 : Fin 1))
      = ((part (Cert.Spec.score I (Cert.Spec.phi I) r) (fun _ => 1) 25 50 (M 1 r) : ℝ) : EReal) := (hM 1 r).2.1
  have e0a : Cert.KernelIdeal.Host.outA m ρ c (ix3 (0 : Fin 2) r (0 : Fin 1))
      = ((part (Cert.Spec.score I (Cert.Spec.phi I) r) I.vals 0 25 (M 0 r) : ℝ) : EReal) := (hM 0 r).2.2
  have e1a : Cert.KernelIdeal.Host.outA m ρ c (ix3 (1 : Fin 2) r (0 : Fin 1))
      = ((part (Cert.Spec.score I (Cert.Spec.phi I) r) I.vals 25 50 (M 1 r) : ℝ) : EReal) := (hM 1 r).2.2
  rw [Cert.KernelIdeal.Tail.W5_result]
  unfold Cert.KernelIdeal.Host.mergeQ
  rw [e0m, e1m, e0l, e1l, e0a, e1a]
  rw [Cert.LibEReal.max_coe_coe, ← EReal.coe_sub, ← EReal.coe_sub, Ideal.exp_coe, Ideal.exp_coe,
    ← EReal.coe_mul, ← EReal.coe_mul, ← EReal.coe_mul, ← EReal.coe_mul, ← EReal.coe_add, ← EReal.coe_add,
    Cert.LibEReal.div_coe_coe _ _ (merged_den_pos _ _ _).ne']
  refine congrArg _ ?_
  unfold Cert.Spec.Q Cert.Spec.avg
  exact merged_avg (Cert.Spec.score I (Cert.Spec.phi I) r) I.vals (M 0 r) (M 1 r)

end Cert.KernelIdeal.Value

end
-- ==== Proof.Finite.lean ====
/-
  Finite inputs are real: when every entry of the eight argument arrays has absolute value below +inf, each array is,
  entry by entry, an array of real numbers.

  The precondition is a conjunction of eight statements "every entry x of the array has max x (-x) < +inf", each a
  conjunction over all indices of the array. An extended real x with max x (-x) < +inf is neither +inf (then max x (-x)
  is +inf) nor -inf (then -x is +inf), so it is a real number. Choosing that real for every entry of every array gives
  the eight real arrays, and each extended-real entry is the embedding of its chosen real.
-/
import proofs.«407580_j16338055594570_3_alg».proof.Defs
import proofs.«407580_j16338055594570_3_alg».proof.Proof.Spec
import Idealize.ShloMosaic.Lib.ValueIdx
import Idealize.ShloMosaic.Lib.ReduceAll

noncomputable section

open scoped BigOperators

namespace Cert.Finite

open Idealize.ShloMosaic Idealize.ShloMosaic.TcCoe Idealize.SL.Sem Idealize.ShloMosaic.ValueIdx

/-- The word the precondition compares against denotes +inf, the top of the extended reals. -/
theorem ofBits_inf : Ideal.ofBits .f32 0x7F800000#32 = (⊤ : EReal) := by
  simp [Ideal.ofBits, Ideal.ieee]

/-- An extended real whose absolute value max x (-x) is strictly below +inf is a real number: at -inf the negation is
    +inf, at +inf the number itself is, and in both cases the maximum is +inf, which is not below itself. -/
theorem real_of_abs_lt_top (x : EReal) (h : Ideal.cmp .olt (max x (-x)) ⊤ = 1#1) : ∃ y : ℝ, x = (y : EReal) := by
  induction x using EReal.rec with
  | bot => simp [Ideal.cmp] at h
  | coe y => exact ⟨y, rfl⟩
  | top => simp [Ideal.cmp] at h

/-- The result of a conjunction over all axes has exactly one index. -/
instance : Subsingleton Cert.Pre_finite_inputs.S_.Idx := ⟨fun a b => funext fun d => d.elim0⟩

/-- One array, of any shape: if the conjunction over all its indices of "max x (-x) < +inf" holds, then every entry
    of the array is a real number. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          (constantI Cert.Pre_finite_inputs.S_ 1 1#1) hr hu ix0 = 1#1)
    (i : s.Idx) : ∃ y : ℝ, x i = (y : EReal) := by
  have h := Host.reduce_andi_all _ _ hr hu ix0 e i
  refine real_of_abs_lt_top (x i) ?_
  rw [← ofBits_inf]
  exact h

/-- Under the precondition the kernel program's eight argument arrays are real arrays. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ I : Cert.Spec.Inputs, Cert.Spec.Agrees I
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨e0, e1⟩, e2⟩, e3⟩, e4⟩, e5⟩, e6⟩, e7⟩ := h0
  choose f0 hf0 using all_real _ _ _ _ e0
  choose f1 hf1 using all_real _ _ _ _ e1
  choose f2 hf2 using all_real _ _ _ _ e2
  choose f3 hf3 using all_real _ _ _ _ e3
  choose f4 hf4 using all_real _ _ _ _ e4
  choose f5 hf5 using all_real _ _ _ _ e5
  choose f6 hf6 using all_real _ _ _ _ e6
  choose f7 hf7 using all_real _ _ _ _ e7
  exact ⟨⟨fun r k => f0 (ix2 r k), fun r k => f1 (ix2 r k), fun k d => f2 (ix2 k d), fun d => f3 (ix1 d),
      fun d => f4 (ix1 d), fun d => f5 (ix1 d), fun j d => f6 (ix2 j d), fun j => f7 (ix2 j (0 : Fin 1))⟩,
    ⟨fun r k => hf0 _, fun r k => hf1 _, fun k d => hf2 _, fun d => hf3 _, fun d => hf4 _, fun d => hf5 _,
      fun j d => hf6 _, fun j => hf7 _⟩⟩

end Cert.Finite

end
-- ==== Proof.RefTrunkTerm.lean ====
/-
  The reference's feature map, as terms over the float instance.

  lin: a row of the concatenation [obs | act] is multiplied by W and shifted by b.
  norm: the mean of a row is its sum over the 256 columns divided by 256; the variance is the sum of the squared
  deviations from that mean, divided by 256 - 0 (the count of degrees of freedom removed is the integer 0, read
  as a float), kept where 256 - 0 > 0 and replaced by a not-a-number word elsewhere; the row minus its mean is
  multiplied by the reciprocal square root of variance + eps, by gamma, shifted by beta, and passed through tanh.
  trunk: norm after lin.
  Every operation and every literal is the one the printed program spells, each value substituted where the
  program reads it.
-/
import proofs.«407580_j16338055594570_3_alg».proof.ReferenceIdeal

noncomputable section

namespace Cert.ReferenceIdeal.Terms

open Idealize.ShloMosaic Idealize.SL.Sem
open Cert.ReferenceIdeal
open Cert.ReferenceIdeal.Facts₀ Cert.ReferenceIdeal.Facts

variable {F : FTy → Type} [FloatOps F] [Facts]

/-- The affine layer [obs | act] W + b: statements %0 .. %4 of the reference
    (%0 the concatenation, %1 the product, %2 and %3 the two broadcasts of b, %4 the sum). -/
def lin (obs : FVec F S1024x64 .f32) (act : FVec F S1024x12 .f32) (W : FVec F S76x256 .f32)
    (b : FVec F S256 .f32) : FVec F S1024x256 .f32 :=
  addf
    (Host.dotGeneral dot_S1024x76_S76x256_S1024x256_1_0_0_1_n_n none
      (concatenate S1024x76 1 [⟨S1024x64, obs⟩, ⟨S1024x12, act⟩] concatenates_S1024x64_S1024x12_S1024x76_d1) W)
    (broadcastInDim S1024x256 ![0, 1] bcast_S1x256_S1024x256_0_1 (broadcastInDim S1x256 ![1] bcast_S256_S1x256_1 b))

/-- tanh(LayerNorm(h) gamma + beta): statements %cst, %5 .. %23 of the reference read at h = %4.
    %5 .. %8 the mean (sum over the columns, broadcast, divided by the broadcast 256);
    %9 the variance, the called function's statements in their order with arg0 := h and arg1 := the integer 0:
    its own mean (%0 .. %3), the deviation (%4, %5) and its square (%6), the integer read as a float (%7),
    256 minus it (%8), the sum of the squares (%9, %10) divided by that difference broadcast (%11, %12),
    the comparison of the difference with 0 (%13), and the select of the quotient against the broadcast
    not-a-number word (the inner function's %0 .. %2);
    %10, %11 the deviation from the mean; %12 .. %15 the reciprocal square root of variance + eps, broadcast;
    %16 their product; %17 .. %19 times gamma; %20 .. %22 plus beta; %23 tanh. -/
def norm (h : FVec F S1024x256 .f32) (g be : FVec F S256 .f32) : FVec F S1024x256 .f32 :=
  Host.tanh
    (addf
      (mulf
        (mulf
          (subf h
            (broadcastInDim S1024x256 ![0, 1] bcast_S1024x1_S1024x256_0_1
              (Host.divf
                (broadcastInDim S1024x1 ![0] bcast_S1024_S1024x1_0
                  (Host.reduceAdd h (constant S_ .f32 0x00000000#32) reducesTo_S1024x256_S1024_d1 h_S_))
                (broadcastInDim S1024x1 ![] bcast_S_S1024x1 (constant S_ .f32 0x43800000#32)))))
          (broadcastInDim S1024x256 ![0, 1] bcast_S1024x1_S1024x256_0_1
            (Host.rsqrt
              (addf
                (select (broadcastInDim S1024x1 ![] bcast_S_S1024x1
                  (cmpf (F := F) .ogt
                    (subf (constant S_ .f32 0x43800000#32) (sitofp .f32 (constantI S_ 32 0#32))) (constant S_ .f32 0x00000000#32)))
                  (Host.divf
                    (broadcastInDim S1024x1 ![0] bcast_S1024_S1024x1_0
                      (Host.reduceAdd
                        (mulf
                          (subf h
                            (broadcastInDim S1024x256 ![0, 1] bcast_S1024x1_S1024x256_0_1
                              (Host.divf
                                (broadcastInDim S1024x1 ![0] bcast_S1024_S1024x1_0
                                  (Host.reduceAdd h (constant S_ .f32 0x00000000#32) reducesTo_S1024x256_S1024_d1 h_S_))
                                (broadcastInDim S1024x1 ![] bcast_S_S1024x1 (constant S_ .f32 0x43800000#32)))))
                          (subf h
                            (broadcastInDim S1024x256 ![0, 1] bcast_S1024x1_S1024x256_0_1
                              (Host.divf
                                (broadcastInDim S1024x1 ![0] bcast_S1024_S1024x1_0
                                  (Host.reduceAdd h (constant S_ .f32 0x00000000#32) reducesTo_S1024x256_S1024_d1 h_S_))
                                (broadcastInDim S1024x1 ![] bcast_S_S1024x1 (constant S_ .f32 0x43800000#32)))))) (constant S_ .f32 0x00000000#32) reducesTo_S1024x256_S1024_d1 h_S_))
                    (broadcastInDim S1024x1 ![] bcast_S_S1024x1
                      (subf (constant S_ .f32 0x43800000#32) (sitofp .f32 (constantI S_ 32 0#32)))))
                  (broadcastInDim S1024x1 ![] bcast_S_S1024x1 (id (constant S_ .f32 0x7FC00000#32))))
                (broadcastInDim S1024x1 ![] bcast_S_S1024x1 (constant S_ .f32 0x3727C5AC#32))))))
        (broadcastInDim S1024x256 ![0, 1] bcast_S1x256_S1024x256_0_1 (broadcastInDim S1x256 ![1] bcast_S256_S1x256_1 g)))
      (broadcastInDim S1024x256 ![0, 1] bcast_S1x256_S1024x256_0_1 (broadcastInDim S1x256 ![1] bcast_S256_S1x256_1 be)))

/-- The features phi = tanh(LayerNorm([obs | act] W + b) gamma + beta): statements %0 .. %23. -/
def trunk (obs : FVec F S1024x64 .f32) (act : FVec F S1024x12 .f32) (W : FVec F S76x256 .f32)
    (b g be : FVec F S256 .f32) : FVec F S1024x256 .f32 :=
  norm (lin obs act W b) g be

end Cert.ReferenceIdeal.Terms

end
-- ==== Proof.RefHeadTerm.lean ====
/-
  The memory read of the reference, as one term over the float instance: from a block of 1024 feature rows phi, a bank
  of 100000 keys K and one value per key, the squared distances d2 = sum(phi^2) - 2 phi K^T + sum(K^2), their negation
  divided by the temperature 1, the row maximum m (started from -inf), the weights e = exp(x - m), their row sums, the
  normalised weights and the weighted sum of the values. One binding per operation, in the order and with the literals
  of the printed program's statements %24 .. %52 (the statements %53 .. %81 are the same operations again).
-/
import proofs.«407580_j16338055594570_3_alg».proof.ReferenceIdeal

noncomputable section

namespace Cert.ReferenceIdeal.Terms

open Idealize.ShloMosaic Idealize.SL.Sem
open Cert.ReferenceIdeal
open Cert.ReferenceIdeal.Facts₀ Cert.ReferenceIdeal.Facts

variable {F : FTy → Type} [FloatOps F] [Facts]

/-- Statements %24 .. %52: the softmax-weighted average of the values under the negated squared distances. -/
def head (phi : FVec F S1024x256 .f32) (K : FVec F S100000x256 .f32) (v : FVec F S100000x1 .f32) : FVec F S1024x1 .f32 :=
  let v24 : FVec F S1024x256 .f32 := mulf phi phi
  let cst_2 : FVec F S_ .f32 := constant S_ .f32 0x00000000#32
  let v25 : FVec F S1024 .f32 := Host.reduceAdd v24 cst_2 reducesTo_S1024x256_S1024_d1 h_S_
  let v26 : FVec F S1024x1 .f32 := broadcastInDim S1024x1 ![0] bcast_S1024_S1024x1_0 v25
  let v27 : FVec F S256x100000 .f32 := transpose S256x100000 [1, 0] K transposes_S100000x256_S256x100000_1_0
  let v28 : FVec F S1024x100000 .f32 := Host.dotGeneral dot_S1024x256_S256x100000_S1024x100000_1_0_0_1_n_n none phi v27
  let cst_3 : FVec F S_ .f32 := constant S_ .f32 0x40000000#32
  let v29 : FVec F S1024x100000 .f32 := broadcastInDim S1024x100000 ![] bcast_S_S1024x100000 cst_3
  let v30 : FVec F S1024x100000 .f32 := mulf v29 v28
  let v31 : FVec F S1024x100000 .f32 := broadcastInDim S1024x100000 ![0, 1] bcast_S1024x1_S1024x100000_0_1 v26
  let v32 : FVec F S1024x100000 .f32 := subf v31 v30
  let v33 : FVec F S100000x256 .f32 := mulf K K
  let cst_4 : FVec F S_ .f32 := constant S_ .f32 0x00000000#32
  let v34 : FVec F S100000 .f32 := Host.reduceAdd v33 cst_4 reducesTo_S100000x256_S100000_d1 h_S_
  let v35 : FVec F S1x100000 .f32 := broadcastInDim S1x100000 ![1] bcast_S100000_S1x100000_1 v34
  let v36 : FVec F S1024x100000 .f32 := broadcastInDim S1024x100000 ![0, 1] bcast_S1x100000_S1024x100000_0_1 v35
  let v37 : FVec F S1024x100000 .f32 := addf v32 v36
  let v38 : FVec F S1024x100000 .f32 := Host.negf v37
  let cst_5 : FVec F S_ .f32 := constant S_ .f32 0x3F800000#32
  let v39 : FVec F S1024x100000 .f32 := broadcastInDim S1024x100000 ![] bcast_S_S1024x100000 cst_5
  let v40 : FVec F S1024x100000 .f32 := Host.divf v38 v39
  let cst_6 : FVec F S_ .f32 := constant S_ .f32 0xFF800000#32
  let v41 : FVec F S1024 .f32 := Host.reduce FloatOps.maximumf v40 cst_6 reducesTo_S1024x100000_S1024_d1 h_S_
  let cst_7 : FVec F S_ .f32 := constant S_ .f32 0xFF800000#32
  let v42 : FVec F S1024 .f32 := broadcastInDim S1024 ![] bcast_S_S1024 cst_7
  let v43 : FVec F S1024 .f32 := maximumf v42 v41
  let v44 : FVec F S1024x1 .f32 := broadcastInDim S1024x1 ![0] bcast_S1024_S1024x1_0 v43
  let v45 : FVec F S1024x100000 .f32 := broadcastInDim S1024x100000 ![0, 1] bcast_S1024x1_S1024x100000_0_1 v44
  let v46 : FVec F S1024x100000 .f32 := subf v40 v45
  let v47 : FVec F S1024x100000 .f32 := Host.exp v46
  let cst_8 : FVec F S_ .f32 := constant S_ .f32 0x00000000#32
  let v48 : FVec F S1024 .f32 := Host.reduceAdd v47 cst_8 reducesTo_S1024x100000_S1024_d1 h_S_
  let v49 : FVec F S1024x1 .f32 := broadcastInDim S1024x1 ![0] bcast_S1024_S1024x1_0 v48
  let v50 : FVec F S1024x100000 .f32 := broadcastInDim S1024x100000 ![0, 1] bcast_S1024x1_S1024x100000_0_1 v49
  let v51 : FVec F S1024x100000 .f32 := Host.divf v47 v50
  Host.dotGeneral dot_S1024x100000_S100000x1_S1024x1_1_0_0_1_n_n none v51 v

end Cert.ReferenceIdeal.Terms

end
-- ==== Proof.ReferenceRun.lean ====
/-
  The reference program as one straight line of 122 whole-array operations, and what every buffer
  holds after it.

  The program computes the features  phi = tanh(LayerNorm(concat(obs, act) · W + b) · gamma + beta)
  (50 operations: 5 for the affine layer and 7 more of the caller, then the 23 of the variance — row mean, centred squares, their row
  sum divided by 256 − 0, the selection against a not-a-number word under 256 − 0 > 0 —, then 15 more),
  and then twice the same 36 operations on phi, the keys K and the values v:
  d2 = Σ phi² − 2 phi Kᵀ + Σ K², x = −d2 / 1, m = max(−∞, max_j x), e = exp(x − m), w = e / Σ_j e, q = w · v.

  Stated here: the program IS the sequence of these operations in order; every buffer ends holding the
  fold of the operations over the launch contents; the fold at the feature buffer is the trunk term of
  the six inputs, the fold at each of the two result buffers is the head term of that trunk term, the
  keys and the values; the eight inputs are unchanged.
-/
import proofs.«407580_j16338055594570_3_alg».proof.Proof.Gen.ReferenceIdeal
import proofs.«407580_j16338055594570_3_alg».proof.Proof.RefTrunkTerm
import proofs.«407580_j16338055594570_3_alg».proof.Proof.RefHeadTerm
import Idealize.ShloMosaic.Lib.StableHlo.Run
import Idealize.ShloMosaic.Lib.Pipeline.Frame

noncomputable section

namespace Cert.ReferenceIdeal.Run

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

set_option maxHeartbeats 4000000 in
/-- The affine layer's five operations: the two inputs joined along axis 1, the product with the weight matrix, the bias broadcast to a row and then to every row, and the sum. -/
abbrev opsA1 : List (HloOp τ sig (Elt F)) :=
  [ StableHlo.binary main_arg0 main_arg1 main_v0 ((fun a b => concatenate S1024x76 1 [⟨S1024x64, a⟩, ⟨S1024x12, b⟩] concatenates_S1024x64_S1024x12_S1024x76_d1) : (⟨S1024x64, .f32⟩ : BufTy).Contents (Elt F) → (⟨S1024x12, .f32⟩ : BufTy).Contents (Elt F) → (⟨S1024x76, .f32⟩ : BufTy).Contents (Elt F)),
    StableHlo.binary main_v0 main_arg2 main_v1 ((fun l r => Host.dotGeneral dot_S1024x76_S76x256_S1024x256_1_0_0_1_n_n none l r) : (⟨S1024x76, .f32⟩ : BufTy).Contents (Elt F) → (⟨S76x256, .f32⟩ : BufTy).Contents (Elt F) → (⟨S1024x256, .f32⟩ : BufTy).Contents (Elt F)),
    StableHlo.unary main_arg3 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S1024x256 ![0, 1] bcast_S1x256_S1024x256_0_1 : (⟨S1x256, .f32⟩ : BufTy).Contents (Elt F) → (⟨S1024x256, .f32⟩ : BufTy).Contents (Elt F)),
    StableHlo.binary main_v1 main_v3 main_v4 (addf : (⟨S1024x256, .f32⟩ : BufTy).Contents (Elt F) → (⟨S1024x256, .f32⟩ : BufTy).Contents (Elt F) → (⟨S1024x256, .f32⟩ : BufTy).Contents (Elt F)) ]

set_option maxHeartbeats 4000000 in
/-- Seven operations: the row sums of the pre-activation and their quotient by 256 (the row means), and the integer zero the variance takes as its degrees-of-freedom correction. -/
abbrev opsA2 : List (HloOp τ sig (Elt F)) :=
  [ StableHlo.nullary main_cst (constant S_ .f32 0x00000000#32),
    StableHlo.binary main_v4 main_cst main_v5 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v5 main_v6 (broadcastInDim S1024x1 ![0] bcast_S1024_S1024x1_0 : (⟨S1024, .f32⟩ : BufTy).Contents (Elt F) → (⟨S1024x1, .f32⟩ : BufTy).Contents (Elt F)),
    StableHlo.nullary main_cst_0 (constant S_ .f32 0x43800000#32),
    StableHlo.unary main_cst_0 main_v7 (broadcastInDim S1024x1 ![] bcast_S_S1024x1 : (⟨S_, .f32⟩ : BufTy).Contents (Elt F) → (⟨S1024x1, .f32⟩ : BufTy).Contents (Elt F)),
    StableHlo.binary main_v6 main_v7 main_v8 (Host.divf : (⟨S1024x1, .f32⟩ : BufTy).Contents (Elt F) → (⟨S1024x1, .f32⟩ : BufTy).Contents (Elt F) → (⟨S1024x1, .f32⟩ : BufTy).Contents (Elt F)),
    StableHlo.nullary main_c (constantI S_ 32 0#32) ]

set_option maxHeartbeats 4000000 in
/-- The variance's twenty-three operations, in place of its call: row sums over 256 columns, the row means, the centred array and its square, the divisor 256 minus the converted integer zero, the row sums of squares divided by it, the comparison of the divisor with zero, and the selection between the quotient and the not-a-number word broadcast. -/
abbrev opsB : List (HloOp τ sig (Elt F)) :=
  [ StableHlo.TRef.nullary main_call0.cst (constant S_ .f32 0x00000000#32),
    StableHlo.TRef.binary (.of main_v4) main_call0.cst main_call0.v0 (fun x v => Host.reduceAdd x v reducesTo_S1024x256_S1024_d1 h_S_),
    StableHlo.TRef.unary main_call0.v0 main_call0.v1 (broadcastInDim S1024x1 ![0] bcast_S1024_S1024x1_0),
    StableHlo.TRef.nullary main_call0.cst_0 (constant S_ .f32 0x43800000#32),
    StableHlo.TRef.unary main_call0.cst_0 main_call0.v2 (broadcastInDim S1024x1 ![] bcast_S_S1024x1),
    StableHlo.TRef.binary main_call0.v1 main_call0.v2 main_call0.v3 Host.divf,
    StableHlo.TRef.unary main_call0.v3 main_call0.v4 (broadcastInDim S1024x256 ![0, 1] bcast_S1024x1_S1024x256_0_1),
    StableHlo.TRef.binary (.of main_v4) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1024x256_S1024_d1 h_S_),
    StableHlo.TRef.unary main_call0.v9 main_call0.v10 (broadcastInDim S1024x1 ![0] bcast_S1024_S1024x1_0),
    StableHlo.TRef.unary main_call0.v8 main_call0.v11 (broadcastInDim S1024x1 ![] bcast_S_S1024x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024x1 ![] bcast_S_S1024x1),
    StableHlo.TRef.ternary main_call0.v13 main_call0.v12 main_call0.call0.v1 main_call0.call0.v2 (fun p a b => select (broadcastInDim S1024x1 ![] bcast_S_S1024x1 p) a b) ]

set_option maxHeartbeats 4000000 in
/-- The fifteen operations that end the features: the centred pre-activation, the small constant added to the variance, the reciprocal square root, the scale and shift rows, and the hyperbolic tangent. -/
abbrev opsC : List (HloOp τ sig (Elt F)) :=
  [ StableHlo.unary main_v8 main_v10 (broadcastInDim S1024x256 ![0, 1] bcast_S1024x1_S1024x256_0_1 : (⟨S1024x1, .f32⟩ : BufTy).Contents (Elt F) → (⟨S1024x256, .f32⟩ : BufTy).Contents (Elt F)),
    StableHlo.binary main_v4 main_v10 main_v11 (subf : (⟨S1024x256, .f32⟩ : BufTy).Contents (Elt F) → (⟨S1024x256, .f32⟩ : BufTy).Contents (Elt F) → (⟨S1024x256, .f32⟩ : BufTy).Contents (Elt F)),
    StableHlo.nullary main_cst_1 (constant S_ .f32 0x3727C5AC#32),
    StableHlo.unary main_cst_1 main_v12 (broadcastInDim S1024x1 ![] bcast_S_S1024x1 : (⟨S_, .f32⟩ : BufTy).Contents (Elt F) → (⟨S1024x1, .f32⟩ : BufTy).Contents (Elt F)),
    StableHlo.binary main_v9 main_v12 main_v13 (addf : (⟨S1024x1, .f32⟩ : BufTy).Contents (Elt F) → (⟨S1024x1, .f32⟩ : BufTy).Contents (Elt F) → (⟨S1024x1, .f32⟩ : BufTy).Contents (Elt F)),
    StableHlo.unary main_v13 main_v14 (Host.rsqrt : (⟨S1024x1, .f32⟩ : BufTy).Contents (Elt F) → (⟨S1024x1, .f32⟩ : BufTy).Contents (Elt F)),
    StableHlo.unary main_v14 main_v15 (broadcastInDim S1024x256 ![0, 1] bcast_S1024x1_S1024x256_0_1 : (⟨S1024x1, .f32⟩ : BufTy).Contents (Elt F) → (⟨S1024x256, .f32⟩ : BufTy).Contents (Elt F)),
    StableHlo.binary main_v11 main_v15 main_v16 (mulf : (⟨S1024x256, .f32⟩ : BufTy).Contents (Elt F) → (⟨S1024x256, .f32⟩ : BufTy).Contents (Elt F) → (⟨S1024x256, .f32⟩ : BufTy).Contents (Elt F)),
    StableHlo.unary main_arg4 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S1024x256 ![0, 1] bcast_S1x256_S1024x256_0_1 : (⟨S1x256, .f32⟩ : BufTy).Contents (Elt F) → (⟨S1024x256, .f32⟩ : BufTy).Contents (Elt F)),
    StableHlo.binary main_v16 main_v18 main_v19 (mulf : (⟨S1024x256, .f32⟩ : BufTy).Contents (Elt F) → (⟨S1024x256, .f32⟩ : BufTy).Contents (Elt F) → (⟨S1024x256, .f32⟩ : BufTy).Contents (Elt F)),
    StableHlo.unary main_arg5 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S1024x256 ![0, 1] bcast_S1x256_S1024x256_0_1 : (⟨S1x256, .f32⟩ : BufTy).Contents (Elt F) → (⟨S1024x256, .f32⟩ : BufTy).Contents (Elt F)),
    StableHlo.binary main_v19 main_v21 main_v22 (addf : (⟨S1024x256, .f32⟩ : BufTy).Contents (Elt F) → (⟨S1024x256, .f32⟩ : BufTy).Contents (Elt F) → (⟨S1024x256, .f32⟩ : BufTy).Contents (Elt F)),
    StableHlo.unary main_v22 main_v23 (Host.tanh : (⟨S1024x256, .f32⟩ : BufTy).Contents (Elt F) → (⟨S1024x256, .f32⟩ : BufTy).Contents (Elt F)) ]

set_option maxHeartbeats 4000000 in
/-- The first thirty-two operations of the first attention read: the squared norms of the feature rows, the product with the transposed keys doubled, the squared norms of the keys, the negated squared distance divided by one, the row maximum joined with minus infinity, the exponential of the difference and its row sums. -/
abbrev opsD : List (HloOp τ sig (Elt F)) :=
  [ StableHlo.binary main_v23 main_v23 main_v24 (mulf : (⟨S1024x256, .f32⟩ : BufTy).Contents (Elt F) → (⟨S1024x256, .f32⟩ : BufTy).Contents (Elt F) → (⟨S1024x256, .f32⟩ : BufTy).Contents (Elt F)),
    StableHlo.nullary main_cst_2 (constant S_ .f32 0x00000000#32),
    StableHlo.binary main_v24 main_cst_2 main_v25 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v25 main_v26 (broadcastInDim S1024x1 ![0] bcast_S1024_S1024x1_0 : (⟨S1024, .f32⟩ : BufTy).Contents (Elt F) → (⟨S1024x1, .f32⟩ : BufTy).Contents (Elt F)),
    StableHlo.unary main_arg6 main_v27 ((transpose S256x100000 [1, 0] · transposes_S100000x256_S256x100000_1_0) : (⟨S100000x256, .f32⟩ : BufTy).Contents (Elt F) → (⟨S256x100000, .f32⟩ : BufTy).Contents (Elt F)),
    StableHlo.binary main_v23 main_v27 main_v28 ((fun l r => Host.dotGeneral dot_S1024x256_S256x100000_S1024x100000_1_0_0_1_n_n none l r) : (⟨S1024x256, .f32⟩ : BufTy).Contents (Elt F) → (⟨S256x100000, .f32⟩ : BufTy).Contents (Elt F) → (⟨S1024x100000, .f32⟩ : BufTy).Contents (Elt F)),
    StableHlo.nullary main_cst_3 (constant S_ .f32 0x40000000#32),
    StableHlo.unary main_cst_3 main_v29 (broadcastInDim S1024x100000 ![] bcast_S_S1024x100000 : (⟨S_, .f32⟩ : BufTy).Contents (Elt F) → (⟨S1024x100000, .f32⟩ : BufTy).Contents (Elt F)),
    StableHlo.binary main_v29 main_v28 main_v30 (mulf : (⟨S1024x100000, .f32⟩ : BufTy).Contents (Elt F) → (⟨S1024x100000, .f32⟩ : BufTy).Contents (Elt F) → (⟨S1024x100000, .f32⟩ : BufTy).Contents (Elt F)),
    StableHlo.unary main_v26 main_v31 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v31 main_v30 main_v32 (subf : (⟨S1024x100000, .f32⟩ : BufTy).Contents (Elt F) → (⟨S1024x100000, .f32⟩ : BufTy).Contents (Elt F) → (⟨S1024x100000, .f32⟩ : BufTy).Contents (Elt F)),
    StableHlo.binary main_arg6 main_arg6 main_v33 (mulf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x00000000#32),
    StableHlo.binary main_v33 main_cst_4 main_v34 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    StableHlo.unary main_v34 main_v35 (broadcastInDim S1x100000 ![1] bcast_S100000_S1x100000_1 : (⟨S100000, .f32⟩ : BufTy).Contents (Elt F) → (⟨S1x100000, .f32⟩ : BufTy).Contents (Elt F)),
    StableHlo.unary main_v35 main_v36 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v32 main_v36 main_v37 (addf : (⟨S1024x100000, .f32⟩ : BufTy).Contents (Elt F) → (⟨S1024x100000, .f32⟩ : BufTy).Contents (Elt F) → (⟨S1024x100000, .f32⟩ : BufTy).Contents (Elt F)),
    StableHlo.unary main_v37 main_v38 (Host.negf : (⟨S1024x100000, .f32⟩ : BufTy).Contents (Elt F) → (⟨S1024x100000, .f32⟩ : BufTy).Contents (Elt F)),
    StableHlo.nullary main_cst_5 (constant S_ .f32 0x3F800000#32),
    StableHlo.unary main_cst_5 main_v39 (broadcastInDim S1024x100000 ![] bcast_S_S1024x100000 : (⟨S_, .f32⟩ : BufTy).Contents (Elt F) → (⟨S1024x100000, .f32⟩ : BufTy).Contents (Elt F)),
    StableHlo.binary main_v38 main_v39 main_v40 (Host.divf : (⟨S1024x100000, .f32⟩ : BufTy).Contents (Elt F) → (⟨S1024x100000, .f32⟩ : BufTy).Contents (Elt F) → (⟨S1024x100000, .f32⟩ : BufTy).Contents (Elt F)),
    StableHlo.nullary main_cst_6 (constant S_ .f32 0xFF800000#32),
    StableHlo.binary main_v40 main_cst_6 main_v41 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    StableHlo.nullary main_cst_7 (constant S_ .f32 0xFF800000#32),
    StableHlo.unary main_cst_7 main_v42 (broadcastInDim S1024 ![] bcast_S_S1024 : (⟨S_, .f32⟩ : BufTy).Contents (Elt F) → (⟨S1024, .f32⟩ : BufTy).Contents (Elt F)),
    StableHlo.binary main_v42 main_v41 main_v43 (maximumf : (⟨S1024, .f32⟩ : BufTy).Contents (Elt F) → (⟨S1024, .f32⟩ : BufTy).Contents (Elt F) → (⟨S1024, .f32⟩ : BufTy).Contents (Elt F)),
    StableHlo.unary main_v43 main_v44 (broadcastInDim S1024x1 ![0] bcast_S1024_S1024x1_0 : (⟨S1024, .f32⟩ : BufTy).Contents (Elt F) → (⟨S1024x1, .f32⟩ : BufTy).Contents (Elt F)),
    StableHlo.unary main_v44 main_v45 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v40 main_v45 main_v46 (subf : (⟨S1024x100000, .f32⟩ : BufTy).Contents (Elt F) → (⟨S1024x100000, .f32⟩ : BufTy).Contents (Elt F) → (⟨S1024x100000, .f32⟩ : BufTy).Contents (Elt F)),
    StableHlo.unary main_v46 main_v47 (Host.exp : (⟨S1024x100000, .f32⟩ : BufTy).Contents (Elt F) → (⟨S1024x100000, .f32⟩ : BufTy).Contents (Elt F)),
    StableHlo.nullary main_cst_8 (constant S_ .f32 0x00000000#32),
    StableHlo.binary main_v47 main_cst_8 main_v48 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)) ]

set_option maxHeartbeats 4000000 in
/-- The last four operations of the first attention read: the row sums broadcast, the quotient, and the product with the values. -/
abbrev opsE : List (HloOp τ sig (Elt F)) :=
  [ StableHlo.unary main_v48 main_v49 (broadcastInDim S1024x1 ![0] bcast_S1024_S1024x1_0 : (⟨S1024, .f32⟩ : BufTy).Contents (Elt F) → (⟨S1024x1, .f32⟩ : BufTy).Contents (Elt F)),
    StableHlo.unary main_v49 main_v50 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v47 main_v50 main_v51 (Host.divf : (⟨S1024x100000, .f32⟩ : BufTy).Contents (Elt F) → (⟨S1024x100000, .f32⟩ : BufTy).Contents (Elt F) → (⟨S1024x100000, .f32⟩ : BufTy).Contents (Elt F)),
    StableHlo.binary main_v51 main_arg7 main_v52 ((fun l r => Host.dotGeneral dot_S1024x100000_S100000x1_S1024x1_1_0_0_1_n_n none l r) : (⟨S1024x100000, .f32⟩ : BufTy).Contents (Elt F) → (⟨S100000x1, .f32⟩ : BufTy).Contents (Elt F) → (⟨S1024x1, .f32⟩ : BufTy).Contents (Elt F)) ]

set_option maxHeartbeats 4000000 in
/-- The thirty-six operations of the second attention read: the same chain over fresh buffers. -/
abbrev opsF : List (HloOp τ sig (Elt F)) :=
  [ StableHlo.binary main_v23 main_v23 main_v53 (mulf : (⟨S1024x256, .f32⟩ : BufTy).Contents (Elt F) → (⟨S1024x256, .f32⟩ : BufTy).Contents (Elt F) → (⟨S1024x256, .f32⟩ : BufTy).Contents (Elt F)),
    StableHlo.nullary main_cst_9 (constant S_ .f32 0x00000000#32),
    StableHlo.binary main_v53 main_cst_9 main_v54 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v54 main_v55 (broadcastInDim S1024x1 ![0] bcast_S1024_S1024x1_0 : (⟨S1024, .f32⟩ : BufTy).Contents (Elt F) → (⟨S1024x1, .f32⟩ : BufTy).Contents (Elt F)),
    StableHlo.unary main_arg6 main_v56 ((transpose S256x100000 [1, 0] · transposes_S100000x256_S256x100000_1_0) : (⟨S100000x256, .f32⟩ : BufTy).Contents (Elt F) → (⟨S256x100000, .f32⟩ : BufTy).Contents (Elt F)),
    StableHlo.binary main_v23 main_v56 main_v57 ((fun l r => Host.dotGeneral dot_S1024x256_S256x100000_S1024x100000_1_0_0_1_n_n none l r) : (⟨S1024x256, .f32⟩ : BufTy).Contents (Elt F) → (⟨S256x100000, .f32⟩ : BufTy).Contents (Elt F) → (⟨S1024x100000, .f32⟩ : BufTy).Contents (Elt F)),
    StableHlo.nullary main_cst_10 (constant S_ .f32 0x40000000#32),
    StableHlo.unary main_cst_10 main_v58 (broadcastInDim S1024x100000 ![] bcast_S_S1024x100000 : (⟨S_, .f32⟩ : BufTy).Contents (Elt F) → (⟨S1024x100000, .f32⟩ : BufTy).Contents (Elt F)),
    StableHlo.binary main_v58 main_v57 main_v59 (mulf : (⟨S1024x100000, .f32⟩ : BufTy).Contents (Elt F) → (⟨S1024x100000, .f32⟩ : BufTy).Contents (Elt F) → (⟨S1024x100000, .f32⟩ : BufTy).Contents (Elt F)),
    StableHlo.unary main_v55 main_v60 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v60 main_v59 main_v61 (subf : (⟨S1024x100000, .f32⟩ : BufTy).Contents (Elt F) → (⟨S1024x100000, .f32⟩ : BufTy).Contents (Elt F) → (⟨S1024x100000, .f32⟩ : BufTy).Contents (Elt F)),
    StableHlo.binary main_arg6 main_arg6 main_v62 (mulf : (⟨S100000x256, .f32⟩ : BufTy).Contents (Elt F) → (⟨S100000x256, .f32⟩ : BufTy).Contents (Elt F) → (⟨S100000x256, .f32⟩ : BufTy).Contents (Elt F)),
    StableHlo.nullary main_cst_11 (constant S_ .f32 0x00000000#32),
    StableHlo.binary main_v62 main_cst_11 main_v63 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    StableHlo.unary main_v63 main_v64 (broadcastInDim S1x100000 ![1] bcast_S100000_S1x100000_1 : (⟨S100000, .f32⟩ : BufTy).Contents (Elt F) → (⟨S1x100000, .f32⟩ : BufTy).Contents (Elt F)),
    StableHlo.unary main_v64 main_v65 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v61 main_v65 main_v66 (addf : (⟨S1024x100000, .f32⟩ : BufTy).Contents (Elt F) → (⟨S1024x100000, .f32⟩ : BufTy).Contents (Elt F) → (⟨S1024x100000, .f32⟩ : BufTy).Contents (Elt F)),
    StableHlo.unary main_v66 main_v67 (Host.negf : (⟨S1024x100000, .f32⟩ : BufTy).Contents (Elt F) → (⟨S1024x100000, .f32⟩ : BufTy).Contents (Elt F)),
    StableHlo.nullary main_cst_12 (constant S_ .f32 0x3F800000#32),
    StableHlo.unary main_cst_12 main_v68 (broadcastInDim S1024x100000 ![] bcast_S_S1024x100000 : (⟨S_, .f32⟩ : BufTy).Contents (Elt F) → (⟨S1024x100000, .f32⟩ : BufTy).Contents (Elt F)),
    StableHlo.binary main_v67 main_v68 main_v69 (Host.divf : (⟨S1024x100000, .f32⟩ : BufTy).Contents (Elt F) → (⟨S1024x100000, .f32⟩ : BufTy).Contents (Elt F) → (⟨S1024x100000, .f32⟩ : BufTy).Contents (Elt F)),
    StableHlo.nullary main_cst_13 (constant S_ .f32 0xFF800000#32),
    StableHlo.binary main_v69 main_cst_13 main_v70 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    StableHlo.nullary main_cst_14 (constant S_ .f32 0xFF800000#32),
    StableHlo.unary main_cst_14 main_v71 (broadcastInDim S1024 ![] bcast_S_S1024 : (⟨S_, .f32⟩ : BufTy).Contents (Elt F) → (⟨S1024, .f32⟩ : BufTy).Contents (Elt F)),
    StableHlo.binary main_v71 main_v70 main_v72 (maximumf : (⟨S1024, .f32⟩ : BufTy).Contents (Elt F) → (⟨S1024, .f32⟩ : BufTy).Contents (Elt F) → (⟨S1024, .f32⟩ : BufTy).Contents (Elt F)),
    StableHlo.unary main_v72 main_v73 (broadcastInDim S1024x1 ![0] bcast_S1024_S1024x1_0 : (⟨S1024, .f32⟩ : BufTy).Contents (Elt F) → (⟨S1024x1, .f32⟩ : BufTy).Contents (Elt F)),
    StableHlo.unary main_v73 main_v74 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v69 main_v74 main_v75 (subf : (⟨S1024x100000, .f32⟩ : BufTy).Contents (Elt F) → (⟨S1024x100000, .f32⟩ : BufTy).Contents (Elt F) → (⟨S1024x100000, .f32⟩ : BufTy).Contents (Elt F)),
    StableHlo.unary main_v75 main_v76 (Host.exp : (⟨S1024x100000, .f32⟩ : BufTy).Contents (Elt F) → (⟨S1024x100000, .f32⟩ : BufTy).Contents (Elt F)),
    StableHlo.nullary main_cst_15 (constant S_ .f32 0x00000000#32),
    StableHlo.binary main_v76 main_cst_15 main_v77 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    StableHlo.unary main_v77 main_v78 (broadcastInDim S1024x1 ![0] bcast_S1024_S1024x1_0 : (⟨S1024, .f32⟩ : BufTy).Contents (Elt F) → (⟨S1024x1, .f32⟩ : BufTy).Contents (Elt F)),
    StableHlo.unary main_v78 main_v79 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v76 main_v79 main_v80 (Host.divf : (⟨S1024x100000, .f32⟩ : BufTy).Contents (Elt F) → (⟨S1024x100000, .f32⟩ : BufTy).Contents (Elt F) → (⟨S1024x100000, .f32⟩ : BufTy).Contents (Elt F)),
    StableHlo.binary main_v80 main_arg7 main_v81 ((fun l r => Host.dotGeneral dot_S1024x100000_S100000x1_S1024x1_1_0_0_1_n_n none l r) : (⟨S1024x100000, .f32⟩ : BufTy).Contents (Elt F) → (⟨S100000x1, .f32⟩ : BufTy).Contents (Elt F) → (⟨S1024x1, .f32⟩ : BufTy).Contents (Elt F)) ]

/-- The whole line: 122 operations. -/
abbrev ops : List (HloOp τ sig (Elt F)) := opsA1 ++ opsA2 ++ opsB ++ opsC ++ opsD ++ opsE ++ opsF

/-! ## The program is the line -/

set_option maxRecDepth 4096 in
set_option maxHeartbeats 4000000 in
/-- The first window: the caller's twelve, the variance's twenty-three in place of its call, fifteen more to the
    features, and thirty-two of the first attention read. -/
theorem main_part0_eq (c : Dev nD) : main_part0 (F := F) c = seq (opsA1 ++ opsA2 ++ opsB ++ opsC ++ opsD) := by
  simp only [main_part0, fn_var.body, fn_where.body, bind_assoc, pure_bind]
  rfl

set_option maxRecDepth 4096 in
set_option maxHeartbeats 4000000 in
/-- The second window: the last four of the first attention read and the thirty-six of the second. -/
theorem main_part1_eq (c : Dev nD) : main_part1 (F := F) c = seq (opsE ++ opsF) := rfl

set_option maxRecDepth 4096 in
/-- The program is the line of its 122 operations. -/
theorem main_eq (c : Dev nD) : main (F := F) c = seq ops := by
  have h : (ops : List (HloOp τ sig (Elt F))) = (opsA1 ++ opsA2 ++ opsB ++ opsC ++ opsD) ++ (opsE ++ opsF) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches tensor buffers only, and determines what it writes -/

theorem opsA1_sub : (opsA1 : List (HloOp τ sig (Elt F))).Forall fun op => op.bufs ⊆ tcRefs τ sig :=
  ⟨binary_bufs_sub .., binary_bufs_sub .., unary_bufs_sub .., unary_bufs_sub .., binary_bufs_sub ..⟩

theorem opsA2_sub : (opsA2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..⟩

theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..⟩

theorem opsC_sub : (opsC : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub ..⟩

theorem opsD_sub : (opsD : List (HloOp τ sig (Elt F))).Forall fun op => op.bufs ⊆ tcRefs τ sig :=
  ⟨binary_bufs_sub .., nullary_bufs_sub .., binary_bufs_sub .., unary_bufs_sub .., unary_bufs_sub .., binary_bufs_sub ..,
    nullary_bufs_sub .., unary_bufs_sub .., binary_bufs_sub .., unary_bufs_sub .., binary_bufs_sub .., binary_bufs_sub ..,
    nullary_bufs_sub .., binary_bufs_sub .., unary_bufs_sub .., unary_bufs_sub .., binary_bufs_sub .., unary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub ..⟩

theorem opsE_sub : (opsE : List (HloOp τ sig (Elt F))).Forall fun op => op.bufs ⊆ tcRefs τ sig :=
  ⟨unary_bufs_sub .., unary_bufs_sub .., binary_bufs_sub .., binary_bufs_sub ..⟩

theorem opsF_sub : (opsF : List (HloOp τ sig (Elt F))).Forall fun op => op.bufs ⊆ tcRefs τ sig :=
  ⟨binary_bufs_sub .., nullary_bufs_sub .., binary_bufs_sub .., unary_bufs_sub .., unary_bufs_sub .., binary_bufs_sub ..,
    nullary_bufs_sub .., unary_bufs_sub .., binary_bufs_sub .., unary_bufs_sub .., binary_bufs_sub .., binary_bufs_sub ..,
    nullary_bufs_sub .., binary_bufs_sub .., unary_bufs_sub .., unary_bufs_sub .., binary_bufs_sub .., unary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..⟩

theorem opsA1_fresh : ∀ op ∈ (opsA1 : List (HloOp τ sig (Elt F))), op.fresh = ∅ := by
  intro _ h; (repeat (cases h with | head => rfl | tail _ h => ?_)); exact nomatch h

theorem opsA2_fresh : ∀ op ∈ (opsA2 : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem opsE_fresh : ∀ op ∈ (opsE : List (HloOp τ sig (Elt F))), op.fresh = ∅ := by
  intro _ h; (repeat (cases h with | head => rfl | tail _ h => ?_)); exact nomatch h

theorem opsF_fresh : ∀ op ∈ (opsF : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h) | h
    exacts [List.forall_iff_forall_mem.mp opsA1_sub op h,
      List.forall_iff_forall_mem.mp opsA2_sub op h,
      List.forall_iff_forall_mem.mp opsB_sub op h,
      List.forall_iff_forall_mem.mp opsC_sub op h,
      List.forall_iff_forall_mem.mp opsD_sub op h,
      List.forall_iff_forall_mem.mp opsE_sub op h,
      List.forall_iff_forall_mem.mp opsF_sub op h]

theorem ops_fresh : ∀ op ∈ (ops : List (HloOp τ sig (Elt F))), op.fresh = ∅ := by
  intro op h
  simp only [ops, List.mem_append] at h
  rcases h with (((((h | h) | h) | h) | h) | h) | h
  exacts [opsA1_fresh op h, opsA2_fresh op h, opsB_fresh op h, opsC_fresh op h, opsD_fresh op h, opsE_fresh op h, opsF_fresh op h]

/-! ## The run -/

/-- From any memory with zero counters every weakly fair execution of the program terminates, and every buffer of
    every device ends at the fold of the 122 operations over what the device held at launch. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the line leaves in the buffers that matter -/

set_option maxRecDepth 8192 in
set_option maxHeartbeats 4000000 in
/-- The affine layer, over any contents: its five operations leave in their last buffer the affine term of what the
    first four input buffers hold. -/
theorem lin_eq (V : Valuation τ sig (Elt F)) :
    after opsA1 V (main_v4 : DevRef τ sig)
      = Terms.lin (V (main_arg0 : DevRef τ sig)) (V (main_arg1 : DevRef τ sig)) (V (main_arg2 : DevRef τ sig))
          (V (main_arg3 : DevRef τ sig)) := by
  after_results_simp
  rfl

set_option maxRecDepth 8192 in
set_option maxHeartbeats 4000000 in
/-- The normalisation, over any contents: the forty-five operations after the affine layer leave in the feature buffer
    the normalisation term of what the pre-activation buffer and the scale and shift input buffers hold. The variance's
    operations move their values between a buffer's own type and the tensor type they are stated at: the identity. -/
theorem norm_eq (W : Valuation τ sig (Elt F)) :
    after (opsA2 ++ opsB ++ opsC) W (main_v23 : DevRef τ sig)
      = Terms.norm (W (main_v4 : DevRef τ sig)) (W (main_arg4 : DevRef τ sig)) (W (main_arg5 : DevRef τ sig)) := by
  simp only [after_append]
  after_results_simp
  simp only [TRef.ofBuf, TRef.toBuf, cast_eq]
  rfl

set_option maxRecDepth 8192 in
set_option maxHeartbeats 4000000 in
/-- The first attention read, over any contents: its thirty-six operations leave in their last buffer the head term of
    what the feature buffer, the key buffer and the value buffer hold. -/
theorem head1_eq (W : Valuation τ sig (Elt F)) :
    after (opsD ++ opsE) W (main_v52 : DevRef τ sig)
      = Terms.head (W (main_v23 : DevRef τ sig)) (W (main_arg6 : DevRef τ sig)) (W (main_arg7 : DevRef τ sig)) := by
  simp only [after_append]
  after_results_simp
  rfl

set_option maxRecDepth 8192 in
set_option maxHeartbeats 4000000 in
/-- The second attention read, over any contents: the same term, left in its own last buffer. -/
theorem head2_eq (W : Valuation τ sig (Elt F)) :
    after opsF W (main_v81 : DevRef τ sig)
      = Terms.head (W (main_v23 : DevRef τ sig)) (W (main_arg6 : DevRef τ sig)) (W (main_arg7 : DevRef τ sig)) := by
  after_results_simp
  rfl

/-! ## What each stretch does not touch -/

set_option maxRecDepth 8192 in
set_option maxHeartbeats 4000000 in
/-- The second attention read writes none of the first's buffers: the first result stays. -/
theorem opsF_v52 (W : Valuation τ sig (Elt F)) :
    after opsF W (main_v52 : DevRef τ sig) = W (main_v52 : DevRef τ sig) := by
  after_results_simp

set_option maxRecDepth 8192 in
set_option maxHeartbeats 4000000 in
/-- The first attention read leaves the feature buffer as it was. -/
theorem opsDE_v23 (W : Valuation τ sig (Elt F)) :
    after (opsD ++ opsE) W (main_v23 : DevRef τ sig) = W (main_v23 : DevRef τ sig) := by
  simp only [after_append]
  after_results_simp

set_option maxRecDepth 8192 in
set_option maxHeartbeats 4000000 in
/-- The first attention read leaves input 6 as it was. -/
theorem opsDE_arg6 (W : Valuation τ sig (Elt F)) :
    after (opsD ++ opsE) W (main_arg6 : DevRef τ sig) = W (main_arg6 : DevRef τ sig) := by
  simp only [after_append]
  after_results_simp

set_option maxRecDepth 8192 in
set_option maxHeartbeats 4000000 in
/-- The normalisation leaves input 6 as it was. -/
theorem opsN_arg6 (W : Valuation τ sig (Elt F)) :
    after (opsA2 ++ opsB ++ opsC) W (main_arg6 : DevRef τ sig) = W (main_arg6 : DevRef τ sig) := by
  simp only [after_append]
  after_results_simp

set_option maxRecDepth 8192 in
set_option maxHeartbeats 4000000 in
/-- The first attention read leaves input 7 as it was. -/
theorem opsDE_arg7 (W : Valuation τ sig (Elt F)) :
    after (opsD ++ opsE) W (main_arg7 : DevRef τ sig) = W (main_arg7 : DevRef τ sig) := by
  simp only [after_append]
  after_results_simp

set_option maxRecDepth 8192 in
set_option maxHeartbeats 4000000 in
/-- The normalisation leaves input 7 as it was. -/
theorem opsN_arg7 (W : Valuation τ sig (Elt F)) :
    after (opsA2 ++ opsB ++ opsC) W (main_arg7 : DevRef τ sig) = W (main_arg7 : DevRef τ sig) := by
  simp only [after_append]
  after_results_simp

set_option maxRecDepth 8192 in
set_option maxHeartbeats 4000000 in
/-- The affine layer leaves input 4 as it was. -/
theorem opsA1_arg4 (V : Valuation τ sig (Elt F)) :
    after opsA1 V (main_arg4 : DevRef τ sig) = V (main_arg4 : DevRef τ sig) := by
  after_results_simp

set_option maxRecDepth 8192 in
set_option maxHeartbeats 4000000 in
/-- The affine layer leaves input 5 as it was. -/
theorem opsA1_arg5 (V : Valuation τ sig (Elt F)) :
    after opsA1 V (main_arg5 : DevRef τ sig) = V (main_arg5 : DevRef τ sig) := by
  after_results_simp

set_option maxRecDepth 8192 in
set_option maxHeartbeats 4000000 in
/-- The affine layer leaves input 6 as it was. -/
theorem opsA1_arg6 (V : Valuation τ sig (Elt F)) :
    after opsA1 V (main_arg6 : DevRef τ sig) = V (main_arg6 : DevRef τ sig) := by
  after_results_simp

set_option maxRecDepth 8192 in
set_option maxHeartbeats 4000000 in
/-- The affine layer leaves input 7 as it was. -/
theorem opsA1_arg7 (V : Valuation τ sig (Elt F)) :
    after opsA1 V (main_arg7 : DevRef τ sig) = V (main_arg7 : DevRef τ sig) := by
  after_results_simp

set_option maxRecDepth 8192 in
set_option maxHeartbeats 4000000 in
/-- No operation of the line writes input 0. -/
theorem ops_arg0 (V : Valuation τ sig (Elt F)) :
    after ops V (main_arg0 : DevRef τ sig) = V (main_arg0 : DevRef τ sig) := by
  simp only [ops, after_append]
  after_results_simp

set_option maxRecDepth 8192 in
set_option maxHeartbeats 4000000 in
/-- No operation of the line writes input 1. -/
theorem ops_arg1 (V : Valuation τ sig (Elt F)) :
    after ops V (main_arg1 : DevRef τ sig) = V (main_arg1 : DevRef τ sig) := by
  simp only [ops, after_append]
  after_results_simp

set_option maxRecDepth 8192 in
set_option maxHeartbeats 4000000 in
/-- No operation of the line writes input 2. -/
theorem ops_arg2 (V : Valuation τ sig (Elt F)) :
    after ops V (main_arg2 : DevRef τ sig) = V (main_arg2 : DevRef τ sig) := by
  simp only [ops, after_append]
  after_results_simp

set_option maxRecDepth 8192 in
set_option maxHeartbeats 4000000 in
/-- No operation of the line writes input 3. -/
theorem ops_arg3 (V : Valuation τ sig (Elt F)) :
    after ops V (main_arg3 : DevRef τ sig) = V (main_arg3 : DevRef τ sig) := by
  simp only [ops, after_append]
  after_results_simp

set_option maxRecDepth 8192 in
set_option maxHeartbeats 4000000 in
/-- No operation of the line writes input 4. -/
theorem ops_arg4 (V : Valuation τ sig (Elt F)) :
    after ops V (main_arg4 : DevRef τ sig) = V (main_arg4 : DevRef τ sig) := by
  simp only [ops, after_append]
  after_results_simp

set_option maxRecDepth 8192 in
set_option maxHeartbeats 4000000 in
/-- No operation of the line writes input 5. -/
theorem ops_arg5 (V : Valuation τ sig (Elt F)) :
    after ops V (main_arg5 : DevRef τ sig) = V (main_arg5 : DevRef τ sig) := by
  simp only [ops, after_append]
  after_results_simp

set_option maxRecDepth 8192 in
set_option maxHeartbeats 4000000 in
/-- No operation of the line writes input 6. -/
theorem ops_arg6 (V : Valuation τ sig (Elt F)) :
    after ops V (main_arg6 : DevRef τ sig) = V (main_arg6 : DevRef τ sig) := by
  simp only [ops, after_append]
  after_results_simp

set_option maxRecDepth 8192 in
set_option maxHeartbeats 4000000 in
/-- No operation of the line writes input 7. -/
theorem ops_arg7 (V : Valuation τ sig (Elt F)) :
    after ops V (main_arg7 : DevRef τ sig) = V (main_arg7 : DevRef τ sig) := by
  simp only [ops, after_append]
  after_results_simp

/-! ## The two results -/

/-- The line as the affine layer's five operations, the normalisation's forty-five, the first read's thirty-six, then
    the second's. -/
theorem ops_split : (ops : List (HloOp τ sig (Elt F)))
    = opsA1 ++ ((opsA2 ++ opsB ++ opsC) ++ ((opsD ++ opsE) ++ opsF)) := by
  simp only [ops, List.append_assoc]

/-- After the whole line the first result buffer holds the head term of the trunk term of the six inputs, the keys and
    the values. -/
theorem out52_eq (V : Valuation τ sig (Elt F)) :
    after ops V (main_v52 : DevRef τ sig)
      = Terms.head (Terms.trunk (V (main_arg0 : DevRef τ sig)) (V (main_arg1 : DevRef τ sig)) (V (main_arg2 : DevRef τ sig))
          (V (main_arg3 : DevRef τ sig)) (V (main_arg4 : DevRef τ sig)) (V (main_arg5 : DevRef τ sig)))
          (V (main_arg6 : DevRef τ sig)) (V (main_arg7 : DevRef τ sig)) := by
  rw [ops_split, after_append, after_append, after_append, opsF_v52, head1_eq, norm_eq, lin_eq, opsA1_arg4, opsA1_arg5,
    opsN_arg6, opsA1_arg6, opsN_arg7, opsA1_arg7]
  rfl

/-- After the whole line the second result buffer holds the same term. -/
theorem out81_eq (V : Valuation τ sig (Elt F)) :
    after ops V (main_v81 : DevRef τ sig)
      = Terms.head (Terms.trunk (V (main_arg0 : DevRef τ sig)) (V (main_arg1 : DevRef τ sig)) (V (main_arg2 : DevRef τ sig))
          (V (main_arg3 : DevRef τ sig)) (V (main_arg4 : DevRef τ sig)) (V (main_arg5 : DevRef τ sig)))
          (V (main_arg6 : DevRef τ sig)) (V (main_arg7 : DevRef τ sig)) := by
  rw [ops_split, after_append, after_append, after_append, head2_eq, opsDE_v23, opsDE_arg6, opsDE_arg7, norm_eq, lin_eq,
    opsA1_arg4, opsA1_arg5, opsN_arg6, opsA1_arg6, opsN_arg7, opsA1_arg7]
  rfl

/-- From any memory with zero counters every weakly fair execution of the reference terminates; both result buffers
    end holding the head term of the trunk term of the six feature inputs, the keys and the values, and the eight
    inputs end as they started. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v52) = Terms.head (Terms.trunk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_v81) = Terms.head (Terms.trunk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v52).trans (out52_eq _), (h c main_v81).trans (out81_eq _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _)⟩)
    (run_after m ρ)

end Cert.ReferenceIdeal.Run

end
-- ==== Proof.RefLin.lean ====
/-
  The reference's affine layer, for real inputs: the specification's.

  Its row r of the concatenation [obs | act] holds obs below position 64 and act from there on; the product with W at
  (r, d) is the sum over the 76 positions of row entry times W entry; the bias, laid out as one row and repeated over
  the 1024 rows, reads its entry d. With real inputs each of these is a real number, and their combination is the
  affine layer of the specification.
-/
import proofs.«407580_j16338055594570_3_alg».proof.Proof.RefTrunkTerm
import proofs.«407580_j16338055594570_3_alg».proof.Proof.Gen.ReferenceIdeal
import proofs.«407580_j16338055594570_3_alg».proof.Proof.Spec
import proofs.«407580_j16338055594570_3_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefLin

open Idealize.ShloMosaic Idealize.SL.Sem Idealize.ShloMosaic.ValueIdx
open Cert.ReferenceIdeal

/-! ## The affine layer's operations at an index -/

section Ops

variable [Facts₀]
open Facts₀

/-- The concatenation [obs | act] at (r, k), k below 64: the obs entry. -/
theorem cat_left (obs : FVec Ideal S1024x64 .f32) (act : FVec Ideal S1024x12 .f32)
    (h : Shape.Concatenates [S1024x64, S1024x12] S1024x76 1) (r : Fin 1024) (k : Fin 76) (hk : k.val < 64) :
    concatenate S1024x76 1 [⟨S1024x64, obs⟩, ⟨S1024x12, act⟩] h (ix2 r k) = obs (ix2 r ⟨k.val, hk⟩) :=
  concatenate_pair_apply_left 1 obs act h (ix2 r k) rfl (ix2 r ⟨k.val, hk⟩)
    (fun b => match b with | ⟨0, _⟩ => rfl | ⟨1, _⟩ => rfl)

/-- The concatenation [obs | act] at (r, k), k from 64 on: the act entry at k - 64. -/
theorem cat_right (obs : FVec Ideal S1024x64 .f32) (act : FVec Ideal S1024x12 .f32)
    (h : Shape.Concatenates [S1024x64, S1024x12] S1024x76 1) (r : Fin 1024) (k : Fin 76) (hk : ¬ k.val < 64) :
    concatenate S1024x76 1 [⟨S1024x64, obs⟩, ⟨S1024x12, act⟩] h (ix2 r k)
      = act (ix2 r ⟨k.val - 64, by have := k.isLt; omega⟩) :=
  concatenate_pair_apply_right 1 obs act h (ix2 r k) rfl rfl (ix2 r ⟨k.val - 64, by have := k.isLt; omega⟩)
    (fun b => match b with | ⟨0, _⟩ => fun _ => rfl | ⟨1, _⟩ => fun hb => absurd rfl hb)
    (by show k.val - 64 + 64 = k.val; omega)

/-- A vector of 256 laid out as one row reads, at (u, d), entry d. -/
theorem bcRow_apply {α : Type} (b : (⟨1, ![256]⟩ : Shape).Idx → α) (h : S256.BroadcastsInDim S1x256 (![1] : Fin 1 → Fin S1x256.rank))
    (u : Fin 1) (d : Fin 256) : broadcastInDim S1x256 ![1] h b (ix2 u d) = b (ix1 d) :=
  broadcastInDim_apply _ h b (ix2 u d) (ix1 d) fun a => match a with
    | ⟨0, _⟩ => rfl

/-- One row repeated over 1024 rows reads, at (r, d), the row's entry d. -/
theorem bcRows_apply {α : Type} (v : (⟨2, ![1, 256]⟩ : Shape).Idx → α)
    (h : S1x256.BroadcastsInDim S1024x256 (![0, 1] : Fin 2 → Fin S1024x256.rank)) (r : Fin 1024) (d : Fin 256) :
    broadcastInDim S1024x256 ![0, 1] h v (ix2 r d) = v (ix2 (0 : Fin 1) d) :=
  broadcastInDim_apply _ h v (ix2 r d) (ix2 (0 : Fin 1) d) fun a => match a with
    | ⟨0, _⟩ => rfl
    | ⟨1, _⟩ => rfl

/-! The 76-term product: operand indices at an output index and a contraction position, axis by axis. -/

theorem lhs_0 (j : S1024x256.Idx) (k : dot_S1024x76_S76x256_S1024x256_1_0_0_1_n_n.contr.Idx) :
    (dot_S1024x76_S76x256_S1024x256_1_0_0_1_n_n.lhsIdx j k (0 : Fin 2)).val = (j 0).val := rfl
theorem lhs_1 (j : S1024x256.Idx) (k : dot_S1024x76_S76x256_S1024x256_1_0_0_1_n_n.contr.Idx) :
    (dot_S1024x76_S76x256_S1024x256_1_0_0_1_n_n.lhsIdx j k (1 : Fin 2)).val = (k ⟨0, Nat.one_pos⟩).val :=
  DotDims.lhsIdx_val_of_single _ rfl j k
theorem rhs_0 (j : S1024x256.Idx) (k : dot_S1024x76_S76x256_S1024x256_1_0_0_1_n_n.contr.Idx) :
    (dot_S1024x76_S76x256_S1024x256_1_0_0_1_n_n.rhsIdx j k (0 : Fin 2)).val = (k ⟨0, Nat.one_pos⟩).val :=
  DotDims.rhsIdx_val_of_single _ rfl j k
theorem rhs_1 (j : S1024x256.Idx) (k : dot_S1024x76_S76x256_S1024x256_1_0_0_1_n_n.contr.Idx) :
    (dot_S1024x76_S76x256_S1024x256_1_0_0_1_n_n.rhsIdx j k (1 : Fin 2)).val = (j 1).val := rfl

/-- The product at (r, d): the sum over the 76 inner positions of the operands' products. -/
theorem dg_apply (l : FVec Ideal S1024x76 .f32) (w : FVec Ideal S76x256 .f32) (r : Fin 1024) (d : Fin 256) :
    Host.dotGeneral dot_S1024x76_S76x256_S1024x256_1_0_0_1_n_n none l w (ix2 r d)
      = ∑ k : Fin 76, l (ix2 r k) * w (ix2 k d) := by
  refine (Ideal.dotGeneral_apply dot_S1024x76_S76x256_S1024x256_1_0_0_1_n_n none .single l w (ix2 r d)).trans ?_
  rw [← Equiv.sum_comp (contrEquiv1 dot_S1024x76_S76x256_S1024x256_1_0_0_1_n_n 76 rfl rfl).symm]
  refine Finset.sum_congr rfl fun k _ => ?_
  have hk := contrEquiv1_symm_val dot_S1024x76_S76x256_S1024x256_1_0_0_1_n_n 76 rfl rfl k
  have e1 : dot_S1024x76_S76x256_S1024x256_1_0_0_1_n_n.lhsIdx (ix2 r d)
      ((contrEquiv1 dot_S1024x76_S76x256_S1024x256_1_0_0_1_n_n 76 rfl rfl).symm k) = ix2 r k :=
    funext fun ax => Fin.ext (match ax with
      | ⟨0, _⟩ => lhs_0 _ _
      | ⟨1, _⟩ => (lhs_1 _ _).trans hk)
  have e2 : dot_S1024x76_S76x256_S1024x256_1_0_0_1_n_n.rhsIdx (ix2 r d)
      ((contrEquiv1 dot_S1024x76_S76x256_S1024x256_1_0_0_1_n_n 76 rfl rfl).symm k) = ix2 k d :=
    funext fun ax => Fin.ext (match ax with
      | ⟨0, _⟩ => (rhs_0 _ _).trans hk
      | ⟨1, _⟩ => rhs_1 _ _)
  rw [e1, e2]

end Ops

/-! ## Real inputs -/

section Reals

variable (I : Cert.Spec.Inputs) (obs : FVec Ideal S1024x64 .f32) (act : FVec Ideal S1024x12 .f32)
  (hobs : ∀ (r : Fin 1024) (k : Fin 64), obs (ix2 r k) = ((I.obs r k : ℝ) : EReal))
  (hact : ∀ (r : Fin 1024) (k : Fin 12), act (ix2 r k) = ((I.act r k : ℝ) : EReal))

include hobs hact in
/-- The concatenation of real rows is the specification's concatenated row. -/
theorem cat_val (h : Shape.Concatenates [S1024x64, S1024x12] S1024x76 1) (r : Fin 1024) (k : Fin 76) :
    concatenate S1024x76 1 [⟨S1024x64, obs⟩, ⟨S1024x12, act⟩] h (ix2 r k) = ((Cert.Spec.cat I r k : ℝ) : EReal) := by
  unfold Cert.Spec.cat
  by_cases hk : k.val < 64
  · rw [dif_pos hk, cat_left obs act h r k hk, hobs]
  · rw [dif_neg hk, cat_right obs act h r k hk, hact]

end Reals

/-! ## The affine layer for real inputs -/

theorem lin_val (I : Cert.Spec.Inputs) (obs : FVec Ideal S1024x64 .f32) (act : FVec Ideal S1024x12 .f32) (W : FVec Ideal S76x256 .f32) (b : FVec Ideal S256 .f32)
    (hobs : ∀ (r : Fin 1024) (k : Fin 64), obs (ix2 r k) = ((I.obs r k : ℝ) : EReal)) (hact : ∀ (r : Fin 1024) (k : Fin 12), act (ix2 r k) = ((I.act r k : ℝ) : EReal))
    (hW : ∀ (k : Fin 76) (d : Fin 256), W (ix2 k d) = ((I.W k d : ℝ) : EReal)) (hb : ∀ d : Fin 256, b (ix1 d) = ((I.b d : ℝ) : EReal)) (r : Fin 1024) (d : Fin 256) :
    Cert.ReferenceIdeal.Terms.lin (F := Ideal) obs act W b (ix2 r d) = ((Cert.Spec.lin I r d : ℝ) : EReal) := by
  unfold Cert.ReferenceIdeal.Terms.lin Cert.Spec.lin
  rw [addf_apply, dg_apply, bcRows_apply, bcRow_apply, hb, EReal.coe_add, Cert.LibEReal.coe_sum]
  refine congrArg₂ (· + ·) (Finset.sum_congr rfl fun k _ => ?_) rfl
  rw [cat_val I obs act hobs hact, hW, EReal.coe_mul]

end Cert.ReferenceIdeal.RefLin

end
-- ==== Proof.RefNorm.lean ====
/-
  The reference's normalisation of a row of the affine layer, read at one entry on extended reals.

  When every entry of the layer is a real number, the row mean is the real mean (the sum over the 256 columns divided
  by 256), the variance is the real biased variance (the divisor 256 - 0 is 256, it is positive, so the guard keeps
  the quotient and the not-a-number word is never read), variance + eps is positive, so its reciprocal square root is
  the real one, and the scaled, shifted, squashed entry is the real number the specification names phi.
-/
import proofs.«407580_j16338055594570_3_alg».proof.Proof.RefTrunkTerm
import proofs.«407580_j16338055594570_3_alg».proof.Proof.Gen.ReferenceIdeal
import proofs.«407580_j16338055594570_3_alg».proof.Proof.Spec
import proofs.«407580_j16338055594570_3_alg».proof.Proof.Consts
import proofs.«407580_j16338055594570_3_alg».proof.Proof.LibEReal
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

open scoped BigOperators

namespace Cert.ReferenceIdeal.RefNorm

open Idealize.ShloMosaic Idealize.ShloMosaic.ValueIdx Idealize.SL.Sem
open Cert.ReferenceIdeal

/-! ## Broadcasts read at an entry -/

section Layout
variable {α : Type}

/-- A vector of a entries stood up as the column a x 1 reads, at (r, u), the vector at r. -/
theorem bcast_col_apply {a : ℕ} (hb : (⟨1, ![a]⟩ : Shape).BroadcastsInDim ⟨2, ![a, 1]⟩ ![0])
    (v : (⟨1, ![a]⟩ : Shape).Idx → α) (r : Fin a) (u : Fin 1) :
    broadcastInDim ⟨2, ![a, 1]⟩ ![0] hb v (ix2 r u) = v (ix1 r) := by
  refine broadcastInDim_apply ![0] hb v (ix2 r u) (ix1 r) fun ax => ?_
  match ax with
  | ⟨0, _⟩ =>
    show r.val = if a = 1 then 0 else r.val
    split
    · have := r.isLt; omega
    · rfl

/-- A column a x 1 repeated along b columns reads, at (r, d), the column at r. -/
theorem bcast_colrep_apply {a b : ℕ} (hb : (⟨2, ![a, 1]⟩ : Shape).BroadcastsInDim ⟨2, ![a, b]⟩ ![0, 1])
    (v : (⟨2, ![a, 1]⟩ : Shape).Idx → α) (r : Fin a) (d : Fin b) :
    broadcastInDim ⟨2, ![a, b]⟩ ![0, 1] hb v (ix2 r d) = v (ix2 r (0 : Fin 1)) := by
  refine broadcastInDim_apply ![0, 1] hb v (ix2 r d) (ix2 r (0 : Fin 1)) fun ax => ?_
  match ax with
  | ⟨0, _⟩ =>
    show r.val = if a = 1 then 0 else r.val
    split
    · have := r.isLt; omega
    · rfl
  | ⟨1, _⟩ => rfl

/-- A vector of b entries laid down as the one row 1 x b reads, at (u, d), the vector at d. -/
theorem bcast_row_apply {b : ℕ} (hb : (⟨1, ![b]⟩ : Shape).BroadcastsInDim ⟨2, ![1, b]⟩ ![1])
    (v : (⟨1, ![b]⟩ : Shape).Idx → α) (u : Fin 1) (d : Fin b) :
    broadcastInDim ⟨2, ![1, b]⟩ ![1] hb v (ix2 u d) = v (ix1 d) := by
  refine broadcastInDim_apply ![1] hb v (ix2 u d) (ix1 d) fun ax => ?_
  match ax with
  | ⟨0, _⟩ =>
    show d.val = if b = 1 then 0 else d.val
    split
    · have := d.isLt; omega
    · rfl

end Layout

/-! ## Sums along a row, and the constants -/

/-- The index over r with column d put back is (r, d). -/
theorem lift_row (hR : S1024x256.Reduces [1] S1024) (r : Fin 1024) (d : Fin 256) : hR.lift (ix1 r) d = ix2 r d :=
  funext fun a => match a with
    | ⟨0, _⟩ => Fin.ext rfl
    | ⟨1, _⟩ => Fin.ext rfl

/-- The sum of a row from the zero word: the sum over the 256 columns. -/
theorem rowSum_apply (x : FVec Ideal S1024x256 .f32) (hr : S1024x256.ReducesTo [1] S1024) (hS : 0 < S_.numel) (r : Fin 1024) :
    Host.reduceAdd x (constant (F := Ideal) S_ .f32 0x00000000#32) hr hS (ix1 r) = ∑ d : Fin 256, x (ix2 r d) := by
  have hR : S1024x256.Reduces [1] S1024 := by decide
  refine (Ideal.hostReduceAdd_single hr hR x _ (ix1 r)).trans ?_
  show Ideal.ofBits .f32 0x00000000#32 + _ = _
  rw [Ideal.ofBits_zero_f32, zero_add]
  exact Finset.sum_congr rfl fun d _ => congrArg x (lift_row hR r d)

/-- The integer word 0 read as a float is the real 0, so the divisor 256 - 0 is the real 256. -/
theorem divisor_val :
    subf (constant (F := Ideal) S_ .f32 0x43800000#32) (sitofp .f32 (constantI S_ 32 0#32)) ix0 = ((256 : ℝ) : EReal) := by
  show Ideal.ofBits .f32 0x43800000#32 - ((((0#32 : BitVec 32).toInt : ℝ)) : EReal) = _
  rw [Cert.Consts.ofBits_256, show (0#32 : BitVec 32).toInt = 0 from by decide]
  simp

/-- The divisor is positive: the guard's bit is 1. -/
theorem guard_val :
    cmpf .ogt (subf (constant (F := Ideal) S_ .f32 0x43800000#32) (sitofp .f32 (constantI S_ 32 0#32)))
      (constant (F := Ideal) S_ .f32 0x00000000#32) ix0 = 1#1 := by
  show Ideal.cmp .ogt (subf (constant (F := Ideal) S_ .f32 0x43800000#32) (sitofp .f32 (constantI S_ 32 0#32)) ix0)
      (Ideal.ofBits .f32 0x00000000#32) = 1#1
  rw [divisor_val, Ideal.ofBits_zero_f32]
  unfold Ideal.cmp
  have h : (0 : EReal) < ((256 : ℝ) : EReal) := by exact_mod_cast (by norm_num : (0 : ℝ) < 256)
  simp [h]

/-! ## The stages of the normalisation at real entries -/

/-- The variance is not negative. -/
theorem var_nonneg (I : Cert.Spec.Inputs) (r : Fin 1024) : 0 ≤ Cert.Spec.var I r := by
  unfold Cert.Spec.var
  exact div_nonneg (Finset.sum_nonneg fun d _ => mul_self_nonneg _) (by norm_num)

section Stages
variable (I : Cert.Spec.Inputs) (h : FVec Ideal S1024x256 .f32)
  (hh : ∀ (r : Fin 1024) (d : Fin 256), h (ix2 r d) = ((Cert.Spec.lin I r d : ℝ) : EReal))
  (hr : S1024x256.ReducesTo [1] S1024) (hS : 0 < S_.numel)
  (hb0 : S1024.BroadcastsInDim S1024x1 (![0] : Fin 1 → Fin S1024x1.rank))
  (hbs : S_.BroadcastsInDim S1024x1 (![] : Fin 0 → Fin S1024x1.rank))
  (hbc : S1024x1.BroadcastsInDim S1024x256 (![0, 1] : Fin 2 → Fin S1024x256.rank))
include hh

/-- The row mean, as a column: the real mean. -/
theorem mean_apply (r : Fin 1024) (u : Fin 1) :
    Host.divf (broadcastInDim S1024x1 ![0] hb0 (Host.reduceAdd h (constant (F := Ideal) S_ .f32 0x00000000#32) hr hS))
        (broadcastInDim S1024x1 ![] hbs (constant (F := Ideal) S_ .f32 0x43800000#32)) (ix2 r u)
      = ((Cert.Spec.mean I r : ℝ) : EReal) := by
  refine (hostDivf_apply _ _ _).trans ?_
  rw [bcast_col_apply, broadcastInDim_scalar_apply, rowSum_apply]
  show Ideal.div (∑ d : Fin 256, h (ix2 r d)) (Ideal.ofBits .f32 0x43800000#32) = _
  rw [Cert.Consts.ofBits_256, Finset.sum_congr rfl (fun d _ => hh r d), ← Cert.LibEReal.coe_sum,
    Cert.LibEReal.div_coe_coe _ _ (by norm_num)]
  rfl

/-- An entry less its row mean: the real deviation. -/
theorem dev_apply (r : Fin 1024) (d : Fin 256) :
    subf h (broadcastInDim S1024x256 ![0, 1] hbc
        (Host.divf (broadcastInDim S1024x1 ![0] hb0 (Host.reduceAdd h (constant (F := Ideal) S_ .f32 0x00000000#32) hr hS))
          (broadcastInDim S1024x1 ![] hbs (constant (F := Ideal) S_ .f32 0x43800000#32)))) (ix2 r d)
      = ((Cert.Spec.lin I r d - Cert.Spec.mean I r : ℝ) : EReal) := by
  refine (subf_apply _ _ _).trans ?_
  rw [bcast_colrep_apply, mean_apply I h hh hr hS hb0 hbs r (0 : Fin 1), hh r d, ← EReal.coe_sub]

end Stages

section Stages2
variable (I : Cert.Spec.Inputs) (h : FVec Ideal S1024x256 .f32)
  (hh : ∀ (r : Fin 1024) (d : Fin 256), h (ix2 r d) = ((Cert.Spec.lin I r d : ℝ) : EReal))
  (hr : S1024x256.ReducesTo [1] S1024) (hS : 0 < S_.numel)
  (hb0 : S1024.BroadcastsInDim S1024x1 (![0] : Fin 1 → Fin S1024x1.rank))
  (hbs : S_.BroadcastsInDim S1024x1 (![] : Fin 0 → Fin S1024x1.rank))
  (hbc : S1024x1.BroadcastsInDim S1024x256 (![0, 1] : Fin 2 → Fin S1024x256.rank))
include hh

/-- The variance, as a column: the guard keeps the quotient, which is the real biased variance. -/
theorem var_apply (r : Fin 1024) (u : Fin 1) :
    select (broadcastInDim S1024x1 ![] hbs
        (cmpf (F := Ideal) .ogt
          (subf (constant S_ .f32 0x43800000#32) (sitofp .f32 (constantI S_ 32 0#32))) (constant S_ .f32 0x00000000#32)))
      (Host.divf
        (broadcastInDim S1024x1 ![0] hb0
          (Host.reduceAdd
            (mulf
              (subf h (broadcastInDim S1024x256 ![0, 1] hbc
                (Host.divf (broadcastInDim S1024x1 ![0] hb0 (Host.reduceAdd h (constant (F := Ideal) S_ .f32 0x00000000#32) hr hS))
                  (broadcastInDim S1024x1 ![] hbs (constant (F := Ideal) S_ .f32 0x43800000#32)))))
              (subf h (broadcastInDim S1024x256 ![0, 1] hbc
                (Host.divf (broadcastInDim S1024x1 ![0] hb0 (Host.reduceAdd h (constant (F := Ideal) S_ .f32 0x00000000#32) hr hS))
                  (broadcastInDim S1024x1 ![] hbs (constant (F := Ideal) S_ .f32 0x43800000#32))))))
            (constant (F := Ideal) S_ .f32 0x00000000#32) hr hS))
        (broadcastInDim S1024x1 ![] hbs
          (subf (constant (F := Ideal) S_ .f32 0x43800000#32) (sitofp .f32 (constantI S_ 32 0#32)))))
      (broadcastInDim S1024x1 ![] hbs (id (constant (F := Ideal) S_ .f32 0x7FC00000#32))) (ix2 r u)
      = ((Cert.Spec.var I r : ℝ) : EReal) := by
  refine (select_apply _ _ _ _).trans ?_
  rw [broadcastInDim_scalar_apply, guard_val, select_one]
  refine (hostDivf_apply _ _ _).trans ?_
  rw [bcast_col_apply, broadcastInDim_scalar_apply, divisor_val, rowSum_apply]
  have e : ∀ d : Fin 256, mulf
      (subf h (broadcastInDim S1024x256 ![0, 1] hbc
        (Host.divf (broadcastInDim S1024x1 ![0] hb0 (Host.reduceAdd h (constant (F := Ideal) S_ .f32 0x00000000#32) hr hS))
          (broadcastInDim S1024x1 ![] hbs (constant (F := Ideal) S_ .f32 0x43800000#32)))))
      (subf h (broadcastInDim S1024x256 ![0, 1] hbc
        (Host.divf (broadcastInDim S1024x1 ![0] hb0 (Host.reduceAdd h (constant (F := Ideal) S_ .f32 0x00000000#32) hr hS))
          (broadcastInDim S1024x1 ![] hbs (constant (F := Ideal) S_ .f32 0x43800000#32))))) (ix2 r d)
      = (((Cert.Spec.lin I r d - Cert.Spec.mean I r) * (Cert.Spec.lin I r d - Cert.Spec.mean I r) : ℝ) : EReal) := fun d => by
    refine (mulf_apply _ _ _).trans ?_
    rw [dev_apply I h hh hr hS hb0 hbs hbc r d, ← EReal.coe_mul]
  rw [Finset.sum_congr rfl (fun d _ => e d), ← Cert.LibEReal.coe_sum, Cert.LibEReal.div_coe_coe _ _ (by norm_num)]
  rfl

end Stages2

/-- The reciprocal square root of variance + eps is the real one: variance + eps is positive. -/
theorem rsqrt_val (I : Cert.Spec.Inputs) (r : Fin 1024) :
    Ideal.rsqrt (((Cert.Spec.var I r : ℝ) : EReal) + Ideal.ofBits .f32 0x3727C5AC#32)
      = (((Real.sqrt (Cert.Spec.var I r + Cert.Spec.eps))⁻¹ : ℝ) : EReal) := by
  rw [Cert.Consts.ofBits_eps, ← EReal.coe_add]
  exact Cert.LibEReal.rsqrt_coe_pos _ (add_pos_of_nonneg_of_pos (var_nonneg I r) Cert.Consts.eps_pos)

/-! ## The normalised, scaled, shifted and squashed entry -/

/-- At real entries of the layer, of gamma and of beta, the reference's features are the real features. -/
theorem norm_val (I : Cert.Spec.Inputs) (h : FVec Ideal S1024x256 .f32) (g be : FVec Ideal S256 .f32) (hh : ∀ (r : Fin 1024) (d : Fin 256), h (ix2 r d) = ((Cert.Spec.lin I r d : ℝ) : EReal)) (hg : ∀ d : Fin 256, g (ix1 d) = ((I.gamma d : ℝ) : EReal)) (hbe : ∀ d : Fin 256, be (ix1 d) = ((I.beta d : ℝ) : EReal)) (r : Fin 1024) (d : Fin 256) : Cert.ReferenceIdeal.Terms.norm (F := Ideal) h g be (ix2 r d) = ((Cert.Spec.phi I r d : ℝ) : EReal) := by
  unfold Cert.ReferenceIdeal.Terms.norm
  show Ideal.tanh _ = _
  refine (congrArg Ideal.tanh ?_).trans (Ideal.tanh_coe (Cert.Spec.normed I r d))
  have hdev := dev_apply I h hh Cert.ReferenceIdeal.Facts₀.reducesTo_S1024x256_S1024_d1 Cert.ReferenceIdeal.Facts₀.h_S_
    Cert.ReferenceIdeal.Facts₀.bcast_S1024_S1024x1_0 Cert.ReferenceIdeal.Facts₀.bcast_S_S1024x1
    Cert.ReferenceIdeal.Facts₀.bcast_S1024x1_S1024x256_0_1 r d
  have hvar := var_apply I h hh Cert.ReferenceIdeal.Facts₀.reducesTo_S1024x256_S1024_d1 Cert.ReferenceIdeal.Facts₀.h_S_
    Cert.ReferenceIdeal.Facts₀.bcast_S1024_S1024x1_0 Cert.ReferenceIdeal.Facts₀.bcast_S_S1024x1
    Cert.ReferenceIdeal.Facts₀.bcast_S1024x1_S1024x256_0_1 r (0 : Fin 1)
  have hfin : ((Cert.Spec.normed I r d : ℝ) : EReal)
      = ((Cert.Spec.lin I r d - Cert.Spec.mean I r : ℝ) : EReal) * (((Real.sqrt (Cert.Spec.var I r + Cert.Spec.eps))⁻¹ : ℝ) : EReal)
        * ((I.gamma d : ℝ) : EReal) + ((I.beta d : ℝ) : EReal) := by
    unfold Cert.Spec.normed
    rw [EReal.coe_add, EReal.coe_mul, EReal.coe_mul]
  rw [hfin]
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) hdev ?_
      refine (bcast_colrep_apply _ _ r d).trans ?_
      show Ideal.rsqrt _ = _
      refine (congrArg Ideal.rsqrt ?_).trans (rsqrt_val I r)
      refine (addf_apply _ _ _).trans ?_
      exact congrArg₂ (· + ·) hvar (broadcastInDim_scalar_apply _ _ _)
    · exact (broadcastInDim_oneRow_apply _ _ r d).trans ((bcast_row_apply _ g (0 : Fin 1) d).trans (hg d))
  · exact (broadcastInDim_oneRow_apply _ _ r d).trans ((bcast_row_apply _ be (0 : Fin 1) d).trans (hbe d))

end Cert.ReferenceIdeal.RefNorm

end
-- ==== Proof.RefTrunk.lean ====
/-
  The reference's features are the specification's: the affine layer of the reference, read entry by entry, is the
  real affine layer [obs | act] W + b, and the normalisation, scaling, shift and tanh applied to an array that is
  entrywise the real affine layer give, entry by entry, the real features phi. The features of the reference are the
  second applied to the first.
-/
import proofs.«407580_j16338055594570_3_alg».proof.Proof.RefTrunkTerm
import proofs.«407580_j16338055594570_3_alg».proof.Proof.Spec
import proofs.«407580_j16338055594570_3_alg».proof.Proof.RefLin
import proofs.«407580_j16338055594570_3_alg».proof.Proof.RefNorm

noncomputable section

namespace Cert.ReferenceIdeal.RefTrunk

open Idealize.ShloMosaic Idealize.ShloMosaic.ValueIdx
open Cert.ReferenceIdeal

variable [Cert.ReferenceIdeal.Facts]

/-- Entry (r, d) of the reference's features, over arrays that are entrywise the real inputs, is the real
    feature phi r d: the normalised affine layer, whose entries are the real affine layer's. -/
theorem trunk_val (I : Cert.Spec.Inputs) (obs : FVec Ideal S1024x64 .f32) (act : FVec Ideal S1024x12 .f32)
    (W : FVec Ideal S76x256 .f32) (b g be : FVec Ideal S256 .f32)
    (hobs : ∀ (r : Fin 1024) (k : Fin 64), obs (ix2 r k) = ((I.obs r k : ℝ) : EReal))
    (hact : ∀ (r : Fin 1024) (k : Fin 12), act (ix2 r k) = ((I.act r k : ℝ) : EReal))
    (hW : ∀ (k : Fin 76) (d : Fin 256), W (ix2 k d) = ((I.W k d : ℝ) : EReal))
    (hb : ∀ d : Fin 256, b (ix1 d) = ((I.b d : ℝ) : EReal))
    (hg : ∀ d : Fin 256, g (ix1 d) = ((I.gamma d : ℝ) : EReal))
    (hbe : ∀ d : Fin 256, be (ix1 d) = ((I.beta d : ℝ) : EReal)) (r : Fin 1024) (d : Fin 256) :
    Cert.ReferenceIdeal.Terms.trunk (F := Ideal) obs act W b g be (ix2 r d) = ((Cert.Spec.phi I r d : ℝ) : EReal) := by
  unfold Cert.ReferenceIdeal.Terms.trunk
  exact Cert.ReferenceIdeal.RefNorm.norm_val I _ g be
    (fun r d => Cert.ReferenceIdeal.RefLin.lin_val I obs act W b hobs hact hW hb r d) hg hbe r d

end Cert.ReferenceIdeal.RefTrunk

end
-- ==== Proof.RefHead.lean ====
/-
  The memory read of the reference, evaluated at the ideal values. For one row r of features f (real numbers), keys and
  values the real arrays of the specification: the squared norm of the row, the products with every key and the squared
  norms of the keys combine to x j = -(|f r|^2 - 2 <f r, K j> + |K j|^2), which is score j - |f r|^2; the row maximum m of
  the x j, taken from -inf over a nonempty row of real numbers, is a real number; the weights are exp(x j - m), their sum
  is positive, and the result sum_j (e j / S) v j is (sum_j e j v j) / S. A common shift of the scores (here by
  |f r|^2 + m) leaves that quotient unchanged, so the result is the specification's weighted average.
-/
import proofs.«407580_j16338055594570_3_alg».proof.Proof.RefHeadTerm
import proofs.«407580_j16338055594570_3_alg».proof.Proof.Gen.ReferenceIdeal
import proofs.«407580_j16338055594570_3_alg».proof.Proof.Spec
import proofs.«407580_j16338055594570_3_alg».proof.Proof.Consts
import proofs.«407580_j16338055594570_3_alg».proof.Proof.LibEReal
import proofs.«407580_j16338055594570_3_alg».proof.Proof.LibSoftmax
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.StackMember

noncomputable section

open scoped BigOperators

namespace Cert.ReferenceIdeal.RefHead

open Idealize.ShloMosaic Idealize.ShloMosaic.ValueIdx Cert.ReferenceIdeal
open Cert.ReferenceIdeal.Facts₀ Cert.ReferenceIdeal.Facts

/-! ## Layout operations of a matrix read at (row, column) -/

section Layout
variable {α : Type} {m n : ℕ}

/-- A column [m, 1] copied along n columns reads, at (r, j), the column at (r, 0). -/
theorem bcast_col_apply (h : (⟨2, ![m, 1]⟩ : Shape).BroadcastsInDim ⟨2, ![m, n]⟩ ![0, 1])
    (y : (⟨2, ![m, 1]⟩ : Shape).Idx → α) (r : Fin m) (j : Fin n) :
    broadcastInDim ⟨2, ![m, n]⟩ ![0, 1] h y (ix2 r j) = y (ix2 r (0 : Fin 1)) := by
  refine broadcastInDim_apply ![0, 1] h y (ix2 r j) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else j.val
    simp

/-- A vector [m] stood up as a column [m, 1] reads, at (r, c), the vector at r. -/
theorem bcast_vec_col_apply (h : (⟨1, ![m]⟩ : Shape).BroadcastsInDim ⟨2, ![m, 1]⟩ ![0])
    (y : (⟨1, ![m]⟩ : Shape).Idx → α) (r : Fin m) (c : Fin 1) :
    broadcastInDim ⟨2, ![m, 1]⟩ ![0] h y (ix2 r c) = y (ix1 r) := by
  refine broadcastInDim_apply ![0] h y (ix2 r c) (ix1 r) ?_
  intro a
  match a with
  | ⟨0, _⟩ =>
    show r.val = if m = 1 then 0 else r.val
    split
    · have := r.isLt; omega
    · rfl

/-- A vector [n] laid down as a row [1, n] reads, at (c, j), the vector at j. -/
theorem bcast_vec_row_apply (h : (⟨1, ![n]⟩ : Shape).BroadcastsInDim ⟨2, ![1, n]⟩ ![1])
    (y : (⟨1, ![n]⟩ : Shape).Idx → α) (c : Fin 1) (j : Fin n) :
    broadcastInDim ⟨2, ![1, n]⟩ ![1] h y (ix2 c j) = y (ix1 j) := by
  refine broadcastInDim_apply ![1] h y (ix2 c j) (ix1 j) ?_
  intro a
  match a with
  | ⟨0, _⟩ =>
    show j.val = if n = 1 then 0 else j.val
    split
    · have := j.isLt; omega
    · rfl

end Layout

/-! ## Row reductions of a matrix -/

section Rows
variable {m n : ℕ}

/-- The sum along each row, read at row r: the initial value plus the sum of the row's entries. -/
theorem rowSum_apply {u : Shape} (X : FVec Ideal ⟨2, ![m, n]⟩ .f32) (init : u.Idx → Ideal .f32)
    (h' : (⟨2, ![m, n]⟩ : Shape).ReducesTo [1] ⟨1, ![m]⟩) (hu : 0 < u.numel) (r : Fin m) :
    Host.reduceAdd X init h' hu (ix1 r) = init (Shape.Idx.first hu) + ∑ d : Fin n, X (ix2 r d) := by
  have h : (⟨2, ![m, n]⟩ : Shape).Reduces [1] ⟨1, ![m]⟩ := ⟨h'.1, Nat.one_pos, h'.2⟩
  show Ideal.hostReduceAdd h' X _ (ix1 r) = _
  rw [Ideal.hostReduceAdd_single h' h]
  refine congrArg (_ + ·) (Finset.sum_congr rfl fun k _ => ?_)
  refine congrArg X (funext fun a => Fin.ext ?_)
  match a with
  | ⟨0, _⟩ => rfl
  | ⟨1, _⟩ => rfl

/-- The maximum along each row, read at row r: the fold of max from the initial value over the row's entries. -/
theorem rowMax_apply {u : Shape} (X : FVec Ideal ⟨2, ![m, n]⟩ .f32) (init : u.Idx → Ideal .f32)
    (h' : (⟨2, ![m, n]⟩ : Shape).ReducesTo [1] ⟨1, ![m]⟩) (hu : 0 < u.numel) (r : Fin m) :
    Host.reduce FloatOps.maximumf X init h' hu (ix1 r)
      = (Finset.univ : Finset (Fin n)).fold max (init (Shape.Idx.first hu)) (fun j => X (ix2 r j)) := by
  have h : (⟨2, ![m, n]⟩ : Shape).Reduces [1] ⟨1, ![m]⟩ := ⟨h'.1, Nat.one_pos, h'.2⟩
  rw [Host.reduce_eq_fold_single FloatOps.maximumf X init h' h hu]
  have hf : (X ∘ h.lift (ix1 r)) = fun k : Fin n => X (ix2 r k) :=
    funext fun k => congrArg X (funext fun a => Fin.ext (by
      match a with
      | ⟨0, _⟩ => rfl
      | ⟨1, _⟩ => rfl))
  exact congrArg (fun g => Finset.fold max (init (Shape.Idx.first hu)) g (Finset.univ : Finset (Fin n))) hf

end Rows

/-- The maximum, started from bottom, of a nonempty finite family of real numbers is a real number. -/
theorem fold_max_bot_coe {ι : Type*} (s : Finset ι) (hs : s.Nonempty) (g : ι → ℝ) :
    ∃ M : ℝ, s.fold max (⊥ : EReal) (fun j => ((g j : ℝ) : EReal)) = ((M : ℝ) : EReal) := by
  induction hs using Finset.Nonempty.cons_induction with
  | singleton a =>
    refine ⟨g a, ?_⟩
    rw [Finset.fold_singleton]
    exact max_eq_left bot_le
  | cons a s ha hs ih =>
    obtain ⟨M, hM⟩ := ih
    refine ⟨max (g a) M, ?_⟩
    rw [Finset.fold_cons, hM]
    exact Cert.LibEReal.max_coe_coe _ _

/-! ## The two matrix products read at an entry -/

/-- The features times the transposed keys, at (r, j): the sum over the 256 coordinates. -/
theorem dot_keys_apply (A : FVec Ideal S1024x256 .f32) (B : FVec Ideal S256x100000 .f32) (r : Fin 1024) (j : Fin 100000) :
    Host.dotGeneral dot_S1024x256_S256x100000_S1024x100000_1_0_0_1_n_n none A B (ix2 r j)
      = ∑ d : Fin 256, A (ix2 r d) * B (ix2 d j) := by
  have e : dot_S1024x256_S256x100000_S1024x100000_1_0_0_1_n_n = DotDims.plain 1024 256 100000 := rfl
  rw [e]
  exact StackMember.dotGeneral_plain_apply none A B r j

/-- The weights times the column of values, at (r, 0): the sum over the 100000 slots. -/
theorem dot_vals_apply (A : FVec Ideal S1024x100000 .f32) (B : FVec Ideal S100000x1 .f32) (r : Fin 1024) (c : Fin 1) :
    Host.dotGeneral dot_S1024x100000_S100000x1_S1024x1_1_0_0_1_n_n none A B (ix2 r c)
      = ∑ j : Fin 100000, A (ix2 r j) * B (ix2 j c) := by
  have e : dot_S1024x100000_S100000x1_S1024x1_1_0_0_1_n_n = DotDims.plain 1024 100000 1 := rfl
  rw [e]
  exact StackMember.dotGeneral_plain_apply none A B r c

/-! ## The term in three stages -/

section Stages
variable {F : FTy → Type} [FloatOps F]

/-- Statements %24 .. %40: the negated squared distances divided by the temperature 1. -/
def xT (phi : FVec F S1024x256 .f32) (K : FVec F S100000x256 .f32) : FVec F S1024x100000 .f32 :=
  Host.divf
    (Host.negf
      (addf
        (subf
          (broadcastInDim S1024x100000 ![0, 1] bcast_S1024x1_S1024x100000_0_1
            (broadcastInDim S1024x1 ![0] bcast_S1024_S1024x1_0
              (Host.reduceAdd (mulf phi phi) (constant S_ .f32 0x00000000#32) reducesTo_S1024x256_S1024_d1 h_S_)))
          (mulf (broadcastInDim S1024x100000 ![] bcast_S_S1024x100000 (constant S_ .f32 0x40000000#32))
            (Host.dotGeneral dot_S1024x256_S256x100000_S1024x100000_1_0_0_1_n_n none phi
              (transpose S256x100000 [1, 0] K transposes_S100000x256_S256x100000_1_0))))
        (broadcastInDim S1024x100000 ![0, 1] bcast_S1x100000_S1024x100000_0_1
          (broadcastInDim S1x100000 ![1] bcast_S100000_S1x100000_1
            (Host.reduceAdd (mulf K K) (constant S_ .f32 0x00000000#32) reducesTo_S100000x256_S100000_d1 h_S_)))))
    (broadcastInDim S1024x100000 ![] bcast_S_S1024x100000 (constant S_ .f32 0x3F800000#32))

/-- Statements %41 .. %47 over x = %40: exp(x - row maximum). -/
def eT (x : FVec F S1024x100000 .f32) : FVec F S1024x100000 .f32 :=
  Host.exp (subf x
    (broadcastInDim S1024x100000 ![0, 1] bcast_S1024x1_S1024x100000_0_1
      (broadcastInDim S1024x1 ![0] bcast_S1024_S1024x1_0
        (maximumf (broadcastInDim S1024 ![] bcast_S_S1024 (constant S_ .f32 0xFF800000#32))
          (Host.reduce FloatOps.maximumf x (constant S_ .f32 0xFF800000#32) reducesTo_S1024x100000_S1024_d1 h_S_)))))

/-- Statements %48 .. %52 over e = %47: the weights normalised by their row sum, times the values. -/
def qT (e : FVec F S1024x100000 .f32) (v : FVec F S100000x1 .f32) : FVec F S1024x1 .f32 :=
  Host.dotGeneral dot_S1024x100000_S100000x1_S1024x1_1_0_0_1_n_n none
    (Host.divf e
      (broadcastInDim S1024x100000 ![0, 1] bcast_S1024x1_S1024x100000_0_1
        (broadcastInDim S1024x1 ![0] bcast_S1024_S1024x1_0
          (Host.reduceAdd e (constant S_ .f32 0x00000000#32) reducesTo_S1024x100000_S1024_d1 h_S_))))
    v

/-- The term is its three stages composed. -/
theorem head_eq (phi : FVec F S1024x256 .f32) (K : FVec F S100000x256 .f32) (v : FVec F S100000x1 .f32) :
    Cert.ReferenceIdeal.Terms.head phi K v = qT (eT (xT phi K)) v := rfl

end Stages

/-! ## Pointwise host operations at an index, at the ideal values -/

/-- The host's negation at an index negates the element. -/
theorem hostNegf_apply {s : Shape} (a : FVec Ideal s .f32) (i : s.Idx) : Host.negf a i = -(a i) := rfl
/-- The host's exponential at an index is the exponential of the element. -/
theorem hostExp_apply {s : Shape} (a : FVec Ideal s .f32) (i : s.Idx) : Host.exp a i = Ideal.exp (a i) := rfl

/-- The sum of squares along a row of real numbers, from the zero word: the real sum of squares. -/
theorem sqnorm_apply {m n : ℕ} (X : FVec Ideal ⟨2, ![m, n]⟩ .f32) (g : Fin m → Fin n → ℝ)
    (hX : ∀ (r : Fin m) (d : Fin n), X (ix2 r d) = ((g r d : ℝ) : EReal))
    (h' : (⟨2, ![m, n]⟩ : Shape).ReducesTo [1] ⟨1, ![m]⟩) (hu : 0 < S_.numel) (r : Fin m) :
    Host.reduceAdd (mulf X X) (constant S_ .f32 0x00000000#32) h' hu (ix1 r)
      = ((∑ d : Fin n, g r d * g r d : ℝ) : EReal) := by
  rw [rowSum_apply]
  show Ideal.ofBits .f32 0x00000000#32 + _ = _
  rw [Ideal.ofBits_zero_f32, zero_add, Cert.LibEReal.coe_sum]
  refine Finset.sum_congr rfl fun d _ => ?_
  rw [mulf_apply, hX, EReal.coe_mul]

/-! ## The three stages at a row of real numbers -/

/-- The negated squared distance of row r to key j is the score of j minus the squared norm of the row. -/
theorem xT_val (I : Cert.Spec.Inputs) (f : Fin 1024 → Fin 256 → ℝ) (P : FVec Ideal S1024x256 .f32)
    (K : FVec Ideal S100000x256 .f32)
    (hP : ∀ (r : Fin 1024) (d : Fin 256), P (ix2 r d) = ((f r d : ℝ) : EReal))
    (hK : ∀ (j : Fin 100000) (d : Fin 256), K (ix2 j d) = ((I.keys j d : ℝ) : EReal)) (r : Fin 1024) (j : Fin 100000) :
    xT (F := Ideal) P K (ix2 r j) = ((Cert.Spec.score I f r j - ∑ d : Fin 256, f r d * f r d : ℝ) : EReal) := by
  have hA : broadcastInDim S1024x100000 ![0, 1] bcast_S1024x1_S1024x100000_0_1
      (broadcastInDim S1024x1 ![0] bcast_S1024_S1024x1_0
        (Host.reduceAdd (mulf P P) (constant S_ .f32 0x00000000#32) reducesTo_S1024x256_S1024_d1 h_S_)) (ix2 r j)
      = ((∑ d : Fin 256, f r d * f r d : ℝ) : EReal) := by
    rw [bcast_col_apply, bcast_vec_col_apply]
    exact sqnorm_apply P f hP _ _ r
  have hB : broadcastInDim S1024x100000 ![0, 1] bcast_S1x100000_S1024x100000_0_1
      (broadcastInDim S1x100000 ![1] bcast_S100000_S1x100000_1
        (Host.reduceAdd (mulf K K) (constant S_ .f32 0x00000000#32) reducesTo_S100000x256_S100000_d1 h_S_)) (ix2 r j)
      = ((∑ d : Fin 256, I.keys j d * I.keys j d : ℝ) : EReal) := by
    rw [broadcastInDim_oneRow_apply, bcast_vec_row_apply]
    exact sqnorm_apply K I.keys hK _ _ j
  have hD : Host.dotGeneral dot_S1024x256_S256x100000_S1024x100000_1_0_0_1_n_n none P
      (transpose S256x100000 [1, 0] K transposes_S100000x256_S256x100000_1_0) (ix2 r j)
      = ((∑ d : Fin 256, f r d * I.keys j d : ℝ) : EReal) := by
    rw [dot_keys_apply, Cert.LibEReal.coe_sum]
    refine Finset.sum_congr rfl fun d _ => ?_
    rw [transpose_ix2_apply, hP, hK, EReal.coe_mul]
  have h2 : broadcastInDim S1024x100000 ![] bcast_S_S1024x100000 (constant (F := Ideal) S_ .f32 0x40000000#32) (ix2 r j)
      = ((2 : ℝ) : EReal) := by
    rw [broadcastInDim_scalar_apply]
    exact Cert.Consts.ofBits_two
  have h1 : broadcastInDim S1024x100000 ![] bcast_S_S1024x100000 (constant (F := Ideal) S_ .f32 0x3F800000#32) (ix2 r j)
      = ((1 : ℝ) : EReal) := by
    rw [broadcastInDim_scalar_apply]
    exact Cert.Consts.ofBits_one
  unfold xT
  rw [hostDivf_apply, hostNegf_apply, addf_apply, subf_apply, mulf_apply, hA, hB, hD, h2, h1]
  rw [← EReal.coe_mul, ← EReal.coe_sub, ← EReal.coe_add, ← EReal.coe_neg,
    Cert.LibEReal.div_coe_coe _ _ one_ne_zero]
  refine congrArg Real.toEReal ?_
  unfold Cert.Spec.score
  ring

/-- The weights of row r: for some real number M (the row's maximum), exp(x j - M). -/
theorem eT_val (X : FVec Ideal S1024x100000 .f32) (r : Fin 1024) (xr : Fin 100000 → ℝ)
    (hX : ∀ j : Fin 100000, X (ix2 r j) = ((xr j : ℝ) : EReal)) :
    ∃ M : ℝ, ∀ j : Fin 100000, eT (F := Ideal) X (ix2 r j) = ((Real.exp (xr j - M) : ℝ) : EReal) := by
  obtain ⟨M, hM⟩ := fold_max_bot_coe (Finset.univ : Finset (Fin 100000)) Finset.univ_nonempty xr
  refine ⟨M, fun j => ?_⟩
  have hm : broadcastInDim S1024x100000 ![0, 1] bcast_S1024x1_S1024x100000_0_1
      (broadcastInDim S1024x1 ![0] bcast_S1024_S1024x1_0
        (maximumf (broadcastInDim S1024 ![] bcast_S_S1024 (constant S_ .f32 0xFF800000#32))
          (Host.reduce FloatOps.maximumf X (constant S_ .f32 0xFF800000#32) reducesTo_S1024x100000_S1024_d1 h_S_)))
      (ix2 r j) = ((M : ℝ) : EReal) := by
    rw [bcast_col_apply, bcast_vec_col_apply, maximumf_apply, broadcastInDim_scalar_apply, rowMax_apply]
    show max (Ideal.ofBits .f32 0xFF800000#32)
      (Finset.fold max (Ideal.ofBits .f32 0xFF800000#32) (fun j => X (ix2 r j)) (Finset.univ : Finset (Fin 100000))) = _
    have hfun : (fun j : Fin 100000 => X (ix2 r j)) = fun j => ((xr j : ℝ) : EReal) := funext hX
    rw [Cert.Consts.ofBits_neg_inf, hfun, hM]
    exact Cert.LibEReal.max_bot_coe M
  unfold eT
  rw [hostExp_apply, subf_apply, hm, hX, ← EReal.coe_sub, Ideal.exp_coe]

/-- The normalised weights of row r times the values: the weighted sum over the sum of the weights. -/
theorem qT_val (E : FVec Ideal S1024x100000 .f32) (v : FVec Ideal S100000x1 .f32) (r : Fin 1024)
    (er vr : Fin 100000 → ℝ) (hE : ∀ j : Fin 100000, E (ix2 r j) = ((er j : ℝ) : EReal))
    (hv : ∀ j : Fin 100000, v (ix2 j (0 : Fin 1)) = ((vr j : ℝ) : EReal)) (hpos : 0 < ∑ j, er j) :
    qT (F := Ideal) E v (ix2 r (0 : Fin 1)) = (((∑ j, er j * vr j) / (∑ j, er j) : ℝ) : EReal) := by
  have hS : ∀ j : Fin 100000, broadcastInDim S1024x100000 ![0, 1] bcast_S1024x1_S1024x100000_0_1
      (broadcastInDim S1024x1 ![0] bcast_S1024_S1024x1_0
        (Host.reduceAdd E (constant S_ .f32 0x00000000#32) reducesTo_S1024x100000_S1024_d1 h_S_)) (ix2 r j)
      = ((∑ k, er k : ℝ) : EReal) := by
    intro j
    rw [bcast_col_apply, bcast_vec_col_apply, rowSum_apply]
    show Ideal.ofBits .f32 0x00000000#32 + _ = _
    rw [Ideal.ofBits_zero_f32, zero_add, Cert.LibEReal.coe_sum]
    exact Finset.sum_congr rfl fun k _ => hE k
  unfold qT
  rw [dot_vals_apply]
  trans ∑ j : Fin 100000, (((er j / ∑ k, er k) * vr j : ℝ) : EReal)
  · refine Finset.sum_congr rfl fun j _ => ?_
    rw [hostDivf_apply, hS j, hE j, hv j, Cert.LibEReal.div_coe_coe _ _ hpos.ne', ← EReal.coe_mul]
  · rw [← Cert.LibEReal.coe_sum]
    refine congrArg Real.toEReal ?_
    rw [Finset.sum_div]
    exact Finset.sum_congr rfl fun j _ => by ring

/-! ## The term at a row -/

/-- At features, keys and values that are real numbers, the memory read of row r is the specification's weighted
    average of the values under exp(score). -/
theorem head_val (I : Cert.Spec.Inputs) (f : Fin 1024 → Fin 256 → ℝ) (P : FVec Ideal S1024x256 .f32) (K : FVec Ideal S100000x256 .f32) (v : FVec Ideal S100000x1 .f32)
    (hP : ∀ (r : Fin 1024) (d : Fin 256), P (ix2 r d) = ((f r d : ℝ) : EReal)) (hK : ∀ (j : Fin 100000) (d : Fin 256), K (ix2 j d) = ((I.keys j d : ℝ) : EReal))
    (hv : ∀ j : Fin 100000, v (ix2 j (0 : Fin 1)) = ((I.vals j : ℝ) : EReal)) (r : Fin 1024) :
    Cert.ReferenceIdeal.Terms.head (F := Ideal) P K v (ix2 r (0 : Fin 1)) = ((Cert.Spec.avg I f r : ℝ) : EReal) := by
  rw [head_eq]
  have hx := xT_val I f P K hP hK r
  generalize xT (F := Ideal) P K = X at hx ⊢
  obtain ⟨M, he⟩ := eT_val X r (fun j => Cert.Spec.score I f r j - ∑ d : Fin 256, f r d * f r d) hx
  generalize eT (F := Ideal) X = E at he ⊢
  have hpos : 0 < ∑ j : Fin 100000, Real.exp (Cert.Spec.score I f r j - (∑ d : Fin 256, f r d * f r d) - M) :=
    Cert.LibSoftmax.sum_exp_pos _
  rw [qT_val E v r (fun j => Real.exp (Cert.Spec.score I f r j - (∑ d : Fin 256, f r d * f r d) - M)) I.vals he hv hpos]
  refine congrArg Real.toEReal ?_
  unfold Cert.Spec.avg
  simp only [sub_sub]
  exact Cert.LibSoftmax.avg_shift (fun j => Cert.Spec.score I f r j) I.vals _

end Cert.ReferenceIdeal.RefHead

end
-- ==== Proof.lean ====
/-
  The streaming kernel program and its reference compute the same weighted average.

  Both programs build the same features (an affine layer, normalisation by mean and variance, tanh) and average the stored
  values under weights exp(-|phi - key|^2) up to a row constant. The kernel program splits the affine layer's product in
  two, carries the features doubled, drops the row constant |phi|^2 from the scores, and streams over the 100000 slots
  in 50 tiles on two cores with a moving shift, merging the cores at the end; the reference takes one maximum and one
  softmax. Under finite inputs every intermediate value is a real number, and over the reals both quotients are the
  weighted average at shift zero (a common shift of the scores cancels between numerator and denominator).
  The three frames are the programs' runs; the idealization rewrote nothing.
-/
import proofs.«407580_j16338055594570_3_alg».proof.Defs
import proofs.«407580_j16338055594570_3_alg».proof.Proof.Gen.Kernel
import proofs.«407580_j16338055594570_3_alg».proof.Proof.Gen.Kernel.Skeleton
import proofs.«407580_j16338055594570_3_alg».proof.Proof.Gen.Kernel.Launch
import proofs.«407580_j16338055594570_3_alg».proof.Proof.Gen.Kernel.Points
import proofs.«407580_j16338055594570_3_alg».proof.Proof.Gen.Kernel.Frame
import proofs.«407580_j16338055594570_3_alg».proof.Proof.Gen.KernelIdeal
import proofs.«407580_j16338055594570_3_alg».proof.Proof.Gen.KernelIdeal.Skeleton
import proofs.«407580_j16338055594570_3_alg».proof.Proof.Gen.KernelIdeal.Launch
import proofs.«407580_j16338055594570_3_alg».proof.Proof.Gen.KernelIdeal.Points
import proofs.«407580_j16338055594570_3_alg».proof.Proof.Gen.KernelIdeal.Frame
import proofs.«407580_j16338055594570_3_alg».proof.Proof.Gen.ReferenceIdeal
import proofs.«407580_j16338055594570_3_alg».proof.Proof.Gen.Pre_finite_inputs
import proofs.«407580_j16338055594570_3_alg».proof.Proof.KernelRun
import proofs.«407580_j16338055594570_3_alg».proof.Proof.KernelValue
import proofs.«407580_j16338055594570_3_alg».proof.Proof.Finite
import proofs.«407580_j16338055594570_3_alg».proof.Proof.ReferenceRun
import proofs.«407580_j16338055594570_3_alg».proof.Proof.RefTrunk
import proofs.«407580_j16338055594570_3_alg».proof.Proof.RefHead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Run.run (F := Ideal) m ρ)

/-- The idealization rewrote no operation. -/
theorem preserves : Cert.preserves_Kernel_KernelIdeal := trivial

/-- Both programs end with the real weighted average in both results. -/
theorem algebraic : Cert.algebraic_KernelIdeal_ReferenceIdeal := by
  intro m ρ m' ρ' hpre hagree
  refine ⟨fun c => Cert.KernelIdeal.Gen.W5 m ρ c (Proc.devRef .tc Cert.KernelIdeal.main_v33),
    fun c => Cert.KernelIdeal.Gen.W5 m ρ c (Proc.devRef .tc Cert.KernelIdeal.main_v33), ?_, ?_⟩
  · exact (θ_run Cert.KernelIdeal.defs _ _).mono (fun _ h c => ⟨(h c).1, (h c).1, (h c).2⟩)
      (Cert.KernelIdeal.RunV.run_result (F := Ideal) m ρ)
  · refine (θ_run Cert.ReferenceIdeal.defs _ _).mono (fun _ h c => ?_) (Cert.ReferenceIdeal.Run.run (F := Ideal) m' ρ')
    obtain ⟨I, hA⟩ := Cert.Finite.reals_of_pre m hpre c
    have ha := hagree c
    have key : Cert.ReferenceIdeal.Terms.head (F := Ideal)
        (Cert.ReferenceIdeal.Terms.trunk (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.KernelIdeal.Gen.W5 m ρ c (Proc.devRef .tc Cert.KernelIdeal.main_v33) := by
      rw [ha.1, ha.2.1, ha.2.2.1, ha.2.2.2.1, ha.2.2.2.2.1, ha.2.2.2.2.2.1, ha.2.2.2.2.2.2.1, ha.2.2.2.2.2.2.2]
      funext j
      obtain ⟨r, z, rfl⟩ : ∃ (r : Fin 1024) (z : Fin 1), j = ix2 r z := ⟨j 0, j 1, eq_ix2 j⟩
      obtain rfl : z = 0 := Subsingleton.elim _ _
      rw [Cert.KernelIdeal.Value.result_val m ρ c I hA r]
      exact Cert.ReferenceIdeal.RefHead.head_val I (Cert.Spec.phi I) _ _ _
        (fun r d => Cert.ReferenceIdeal.RefTrunk.trunk_val I _ _ _ _ _ _ hA.obs hA.act hA.W hA.b hA.gamma hA.beta r d)
        hA.keys hA.vals r
    exact ⟨(h c).1.trans key, (h c).2.1.trans key, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
